-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x128 : Shape := ⟨3, ![4096, 2, 128]⟩
abbrev S4096 : Shape := ⟨1, ![4096]⟩
abbrev S_ : Shape := ⟨0, ![]⟩

class Facts : Prop where
  bcast_S_S4096x2x128 : S_.BroadcastsInDim S4096x2x128 (![] : Fin 0 → Fin S4096x2x128.rank)
  reducesTo_S4096x2x128_S_d0_1_2 : S4096x2x128.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x2x128 .f32) (main_arg1 : IVec S4096 32) : IVec S_ 1 :=
  let main_v0 : FVec F S4096x2x128 .f32 := Host.absf main_arg0
  let main_cst : FVec F S_ .f32 := constant S_ .f32 0x7F800000#32
  let main_v1 : FVec F S4096x2x128 .f32 := broadcastInDim S4096x2x128 ![] bcast_S_S4096x2x128 main_cst
  let main_v2 : IVec S4096x2x128 1 := cmpf .olt main_v0 main_v1
  let main_c : IVec S_ 1 := constantI S_ 1 1#1
  let main_v3 : IVec S_ 1 := (fun x v => Host.reduce IntOp.andi x v reducesTo_S4096x2x128_S_d0_1_2 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 1 := constantI S_ 1 1#1
  let main_v6 : IVec S_ 1 := (fun x v => Host.reduce IntOp.andi x v reducesTo_S4096_S_d0 h_S_) main_v5 main_c_1
  let main_v7 : IVec S_ 1 := andi main_v3 main_v6
  let main_c_2 : IVec S_ 32 := constantI S_ 32 100#32
  let main_v8 : IVec S4096 32 := broadcastInDim S4096 ![] bcast_S_S4096 main_c_2
  let main_v9 : IVec S4096 1 := cmpi .slt main_arg1 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v7 main_v10
  main_v11
-- ==== Kernel.lean ====
abbrev S4096x2x128 : Shape := ⟨3, ![4096, 2, 128]⟩
abbrev S4096 : Shape := ⟨1, ![4096]⟩
abbrev S2x4096x128 : Shape := ⟨3, ![2, 4096, 128]⟩
abbrev S8192x128 : Shape := ⟨2, ![8192, 128]⟩
abbrev S1x4096 : Shape := ⟨2, ![1, 4096]⟩
abbrev S2x4096 : Shape := ⟨2, ![2, 4096]⟩
abbrev S8192 : Shape := ⟨1, ![8192]⟩
abbrev S8192x1 : Shape := ⟨2, ![8192, 1]⟩
abbrev S1x8192 : Shape := ⟨2, ![1, 8192]⟩
abbrev S100 : Shape := ⟨1, ![100]⟩
abbrev S4096x1 : Shape := ⟨2, ![4096, 1]⟩
abbrev S1x100 : Shape := ⟨2, ![1, 100]⟩
abbrev S4096x100 : Shape := ⟨2, ![4096, 100]⟩
abbrev S_ : Shape := ⟨0, ![]⟩
abbrev S1024x128 : Shape := ⟨2, ![1024, 128]⟩
abbrev S2048x128 : Shape := ⟨2, ![2048, 128]⟩
abbrev S1024x1 : Shape := ⟨2, ![1024, 1]⟩
abbrev S1x2048 : Shape := ⟨2, ![1, 2048]⟩
abbrev S128x2048 : Shape := ⟨2, ![128, 2048]⟩
abbrev S1024x2048 : Shape := ⟨2, ![1024, 2048]⟩
abbrev S1024 : Shape := ⟨1, ![1024]⟩

abbrev nBuf : Space → Nat
  | .hbm => 42
  | .vmem => 15
  | .smem => 0
  | _ => 0

abbrev bufTy : (tb : Table) → Fin (tcTables nBuf tb) → BufTy
  | .hbm, ⟨0, _⟩ => ⟨S4096x2x128, .f32⟩
  | .hbm, ⟨1, _⟩ => ⟨S4096, .i32⟩
  | .hbm, ⟨2, _⟩ => ⟨S2x4096x128, .f32⟩
  | .hbm, ⟨3, _⟩ => ⟨S8192x128, .f32⟩
  | .hbm, ⟨4, _⟩ => ⟨S1x4096, .i32⟩
  | .hbm, ⟨5, _⟩ => ⟨S2x4096, .i32⟩
  | .hbm, ⟨6, _⟩ => ⟨S8192, .i32⟩
  | .hbm, ⟨7, _⟩ => ⟨S8192x1, .i32⟩
  | .hbm, ⟨8, _⟩ => ⟨S1x8192, .i32⟩
  | .hbm, ⟨9, _⟩ => ⟨S100, .i32⟩
  | .hbm, ⟨10, _⟩ => ⟨S4096x1, .i32⟩
  | .hbm, ⟨11, _⟩ => ⟨S1x100, .i32⟩
  | .hbm, ⟨12, _⟩ => ⟨S4096x100, .i32⟩
  | .hbm, ⟨13, _⟩ => ⟨S4096x100, .i32⟩
  | .hbm, ⟨14, _⟩ => ⟨S4096x100, .i1⟩
  | .hbm, ⟨15, _⟩ => ⟨S4096x100, .f32⟩
  | .hbm, ⟨16, _⟩ => ⟨S_, .f32⟩
  | .hbm, ⟨17, _⟩ => ⟨S100, .f32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S4096, .f32⟩
  | .hbm, ⟨27, _⟩ => ⟨S1x4096, .f32⟩
  | .hbm, ⟨28, _⟩ => ⟨S2x4096, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S2048x128, .f32⟩
  | .local _ .vmem, ⟨3, _⟩ => ⟨S2048x128, .f32⟩
  | .local _ .vmem, ⟨4, _⟩ => ⟨S1024x1, .i32⟩
  | .local _ .vmem, ⟨5, _⟩ => ⟨S1024x1, .i32⟩
  | .local _ .vmem, ⟨6, _⟩ => ⟨S1x2048, .i32⟩
  | .local _ .vmem, ⟨7, _⟩ => ⟨S1x2048, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | _, _ => ⟨S4096x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_c : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_24 : BitVec 32 := 0#32
  let v49 : BitVec 1 := Scalar.cmpi .ne v48 c0_i32_24
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S4096x2x128_S2x4096x128_1_0_2 : S4096x2x128.Transposes [1, 0, 2] S2x4096x128
  shapeCasts_S2x4096x128_S8192x128 : S2x4096x128.ShapeCasts S8192x128
  shapeCasts_S4096_S1x4096 : S4096.ShapeCasts S1x4096
  bcast_S1x4096_S2x4096_0_1 : S1x4096.BroadcastsInDim S2x4096 (![0, 1] : Fin 2 → Fin S2x4096.rank)
  shapeCasts_S2x4096_S8192 : S2x4096.ShapeCasts S8192
  shapeCasts_S8192_S8192x1 : S8192.ShapeCasts S8192x1
  shapeCasts_S8192_S1x8192 : S8192.ShapeCasts S1x8192
  bcast_S4096_S4096x1_0 : S4096.BroadcastsInDim S4096x1 (![0] : Fin 1 → Fin S4096x1.rank)
  bcast_S100_S1x100_1 : S100.BroadcastsInDim S1x100 (![1] : Fin 1 → Fin S1x100.rank)
  bcast_S4096x1_S4096x100_0_1 : S4096x1.BroadcastsInDim S4096x100 (![0, 1] : Fin 2 → Fin S4096x100.rank)
  bcast_S1x100_S4096x100_0_1 : S1x100.BroadcastsInDim S4096x100 (![0, 1] : Fin 2 → Fin S4096x100.rank)
  reducesTo_S4096x100_S100_d0 : S4096x100.ReducesTo [0] S100
  h_S_ : 0 < S_.numel
  bcast_S_S4096 : S_.BroadcastsInDim S4096 (![] : Fin 0 → Fin S4096.rank)
  bcast_S_S8192 : S_.BroadcastsInDim S8192 (![] : Fin 0 → Fin S8192.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  transposes_S2048x128_p1_0_S128x2048 : S2048x128.Transposes [1, 0] S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  natLt_1_32 : 1 < 32
  reduces_S1024x2048_S1024 : S1024x2048.Reduces [1] S1024
  shapeCasts_S1024_S1024x1 : S1024.ShapeCasts S1024x1
  iota_S1024x2048_d0_w32 : S1024x2048.Iotas .tc 32 [0]
  iota_S1024x2048_d1_w32 : S1024x2048.Iotas .tc 32 [1]
  reducesTo_S8192x1_S_d0_1 : S8192x1.ReducesTo [0, 1] S_
  gather_S100_S4096x1_S4096_n_0_n_n_0_1_1_wf : GatherDims.WF S100 S4096x1 S4096 [] [0] [] [0] [] 1 ![1]
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .i32 = 32 ∨ (Rect.block (s := S1x8192) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def gather_S100_S4096x1_S4096_n_0_n_n_0_1_1 : GatherDims S100 S4096x1 S4096 where
  offsetDims := []
  collapsedSliceDims := [0]
  operandBatchingDims := []
  startIndicesBatchingDims := []
  startIndexMap := [0]
  indexVectorDim := 1
  sliceSizes := ![1]
  wf := gather_S100_S4096x1_S4096_n_0_n_n_0_1_1_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_v1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond4 i == 1#1) | ⟨_ + 6, h⟩ => absurd h (Nat.not_lt.2 (Nat.le_add_left _ _))

class Facts : Prop extends Facts₀ where

variable [Facts]
-- ==== ReferenceIdeal.lean ====
abbrev S4096x2x128 : Shape := ⟨3, ![4096, 2, 128]⟩
abbrev S4096 : Shape := ⟨1, ![4096]⟩
abbrev S2x4096x128 : Shape := ⟨3, ![2, 4096, 128]⟩
abbrev S8192x128 : Shape := ⟨2, ![8192, 128]⟩
abbrev S128x8192 : Shape := ⟨2, ![128, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S4096x1 : Shape := ⟨2, ![4096, 1]⟩
abbrev S1x4096 : Shape := ⟨2, ![1, 4096]⟩
abbrev S4096x4096 : Shape := ⟨2, ![4096, 4096]⟩
abbrev S1x4096x1x4096 : Shape := ⟨4, ![1, 4096, 1, 4096]⟩
abbrev S2x4096x2x4096 : Shape := ⟨4, ![2, 4096, 2, 4096]⟩
abbrev S2x4096 : Shape := ⟨2, ![2, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4096x2x128, .f32⟩
  | .hbm, ⟨1, _⟩ => ⟨S4096, .i32⟩
  | .hbm, ⟨2, _⟩ => ⟨S2x4096x128, .f32⟩
  | .hbm, ⟨3, _⟩ => ⟨S8192x128, .f32⟩
  | .hbm, ⟨4, _⟩ => ⟨S128x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S8192x8192, .f32⟩
  | .hbm, ⟨13, _⟩ => ⟨S8192x8192, .f32⟩
  | .hbm, ⟨14, _⟩ => ⟨S4096x1, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S4096x4096, .f32⟩
  | .hbm, ⟨20, _⟩ => ⟨S1x4096x1x4096, .f32⟩
  | .hbm, ⟨21, _⟩ => ⟨S2x4096x2x4096, .f32⟩
  | .hbm, ⟨22, _⟩ => ⟨S8192x8192, .f32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S2x4096, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S4096x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩

abbrev nD : Nat := 1
abbrev τ : Topo := Topo.v7x

variable {F : FTy → Type} [FloatOps F]

class Facts₀ : Prop where
  transposes_S4096x2x128_S2x4096x128_1_0_2 : S4096x2x128.Transposes [1, 0, 2] S2x4096x128
  shapeCasts_S2x4096x128_S8192x128 : S2x4096x128.ShapeCasts S8192x128
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  shapeCasts_S4096x4096_S1x4096x1x4096 : S4096x4096.ShapeCasts S1x4096x1x4096
  bcast_S1x4096x1x4096_S2x4096x2x4096_0_1_2_3 : S1x4096x1x4096.BroadcastsInDim S2x4096x2x4096 (![0, 1, 2, 3] : Fin 4 → Fin S2x4096x2x4096.rank)
  shapeCasts_S2x4096x2x4096_S8192x8192 : S2x4096x2x4096.ShapeCasts S8192x8192
  bcast_S_S8192 : S_.BroadcastsInDim S8192 (![] : Fin 0 → Fin S8192.rank)
  shapeCasts_S8192_S2x4096 : S8192.ShapeCasts S2x4096
  reducesTo_S2x4096_S_d0_1 : S2x4096.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KB.Base.lean ====
/-
  What the kernel region is entered with. @main is thirty-five host operations (the view-major matrix of the
  features, the two label vectors, and the positive-pair counts gathered per sample), the one kernel region,
  and four more host operations (the mean of the per-row losses). Here: the contents every unscoped buffer
  holds when the region is entered, as a valuation; each window's block of its array at a grid point; and the
  reduction of @main to the region continued by the four later operations.
-/
import proofs.«430023_j72756745994686_3_alg».proof.Proof.Gen.Kernel.Launch
import proofs.«430023_j72756745994686_3_alg».proof.Proof.Gen.Kernel.Skeleton
import proofs.«430023_j72756745994686_3_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the launch contents after the host operations
    that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main reduces to the region continued by the four later operations, the unscoped buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.KB.Launch.lean ====
/-
  The launch of the one kernel region, for any proof data of the pipeline. Windows 0 and 1 of the region stage
  the SAME array (the view-major feature matrix, read once as the row tile and once as the column tile), so
  the array's full share is dealt between them in two halves when the region is entered and put together again
  when it is left; the four host operations after the region then run over all unscoped buffers, the output
  array at what the write-backs made of it, and the scalar result is read off the buffer they wrote.
-/
import proofs.«430023_j72756745994686_3_alg».proof.Proof.KB.Base
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The six windows' arrays: five buffers, one of them staged twice -/

/-- The distinct buffers behind the windows' arrays. -/
theorem image_arrRef : Finset.univ.image (Pipeline.arrRef spec0) = ({main_v1, main_v5, main_v6, main_v29, main_v30} : Finset (Ref sig .tc)) := by
  decide

/-- The contents of every unscoped buffer at the region's exit: the output array at `o`, the rest as at entry. -/
abbrev VX (c : Dev nD) (o : Buf (Elt F) ((c : Thread nD τ).loc main_v30)) : Valuation τ sig (Elt F) :=
  Function.update (V0 m c) (Proc.devRef .tc main_v30) o

/-- and after the four later host operations. -/
abbrev VT (c : Dev nD) (o : Buf (Elt F) ((c : Thread nD τ).loc main_v30)) : Valuation τ sig (Elt F) :=
  StableHlo.after hostOps1 (VX m c o)

/-! ## What the host operations leave alone -/

/-- No host operation before the region writes an argument of @main. -/
theorem V_arg0 (c : Dev nD) : V m c main_arg0 = m ((c : Thread nD τ).loc main_arg0) := by
  dsimp only [V, V0]
  simp only [hostOps0, List.flatten_cons, List.flatten_nil, List.append_nil]
  after_results
  try rfl

theorem V_arg1 (c : Dev nD) : V m c main_arg1 = m ((c : Thread nD τ).loc main_arg1) := by
  dsimp only [V, V0]
  simp only [hostOps0, List.flatten_cons, List.flatten_nil, List.append_nil]
  after_results
  try rfl

/-- The four operations after the region write their own four result buffers and nothing else. -/
theorem tail_keeps (W : Valuation τ sig (Elt F)) (b : Ref sig .tc)
    (hb : b ≠ main_cst_3 ∧ b ≠ main_v31 ∧ b ≠ main_cst_4 ∧ b ≠ main_v32) :
    StableHlo.after (hostOps1 (F := F)) W (Proc.devRef .tc b) = W (Proc.devRef .tc b) := by
  obtain ⟨h0, h1, h2, h3⟩ := hb
  refine StableHlo.after_of_forall_not_mem (b := Proc.devRef .tc b) hostOps1 W fun op hop => ?_
  simp only [hostOps1, List.mem_cons, List.mem_nil_iff, or_false] at hop
  rcases hop with rfl | rfl | rfl | rfl <;>
    simp only [StableHlo.nullary_writes, StableHlo.binary_writes, Finset.mem_singleton] <;>
    exact StableHlo.devRef_ne_of_ne ‹_›

/-- They touch TensorCore references that are not scoped, -/
theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

/-- and allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

section Run

variable (dats : (p : Fin 1) → (c : Dev nD) → Dat τ (Elt F) Unit ℕ (UR sig nD τ) ℕ (cfgs p) c)

/-- The share each window holds of its array: the two windows on the shared array half of it each. -/
def shareOf : Fin 6 → PosShare TreeShare
  | ⟨0, _⟩ => fullShare.left
  | ⟨1, _⟩ => fullShare.right
  | ⟨2, _⟩ => fullShare
  | ⟨3, _⟩ => fullShare
  | ⟨4, _⟩ => fullShare
  | ⟨5, _⟩ => fullShare
  | ⟨_ + 6, h⟩ => absurd h (Nat.not_lt.2 (Nat.le_add_left _ _))

theorem share_eq (c : Dev nD)
    (hq0 : (dats 0 c).q 0 = fullShare.left) (hq1 : (dats 0 c).q 1 = fullShare.right)
    (hq2 : (dats 0 c).q 2 = fullShare) (hq3 : (dats 0 c).q 3 = fullShare) (hq4 : (dats 0 c).q 4 = fullShare) :
    ∀ w : Fin cfg0.W, (dats 0 c).share w = shareOf w := by
  intro w
  unfold Dat.share
  match w with
  | ⟨0, _⟩ => exact (if_neg Bool.false_ne_true).trans hq0
  | ⟨1, _⟩ => exact (if_neg Bool.false_ne_true).trans hq1
  | ⟨2, _⟩ => exact (if_neg Bool.false_ne_true).trans hq2
  | ⟨3, _⟩ => exact (if_neg Bool.false_ne_true).trans hq3
  | ⟨4, _⟩ => exact (if_neg Bool.false_ne_true).trans hq4
  | ⟨5, _⟩ => exact if_pos rfl
  | ⟨_ + 6, h⟩ => exact absurd h (Nat.not_lt.2 (Nat.le_add_left _ _))

/-- The windows' arrays, window by window: the shared array at its two halves, the others whole. -/
theorem arrays_six (c : Dev nD)
    (hq0 : (dats 0 c).q 0 = fullShare.left) (hq1 : (dats 0 c).q 1 = fullShare.right)
    (hq2 : (dats 0 c).q 2 = fullShare) (hq3 : (dats 0 c).q 3 = fullShare) (hq4 : (dats 0 c).q 4 = fullShare)
    (Fv : (w : Fin cfg0.W) → Buf (Elt F) ((cfg0.win w).arr.view.loc (c.tc : Thread nD τ))) :
    ((dats 0 c).arrays Fv : sProp 𝕄)
      = iprop((((c.tc : Thread nD τ).loc main_v1) ↦{fullShare.left} Fv 0) ∗ (((c.tc : Thread nD τ).loc main_v1) ↦{fullShare.right} Fv 1)
          ∗ (((c.tc : Thread nD τ).loc main_v5) ↦{fullShare} Fv 2) ∗ (((c.tc : Thread nD τ).loc main_v6) ↦{fullShare} Fv 3)
          ∗ (((c.tc : Thread nD τ).loc main_v29) ↦{fullShare} Fv 4) ∗ (((c.tc : Thread nD τ).loc main_v30) ↦{fullShare} Fv 5)) := by
  have h : ((dats 0 c).arrays Fv : sProp 𝕄)
      = bigSep Finset.univ fun w : Fin 6 => ((((c.tc : Thread nD τ).loc (Pipeline.arrRef spec0 w)) ↦{shareOf w} Fv w : sProp 𝕄)) := by
    unfold Dat.arrays
    exact bigSep_congr fun w _ => by rw [(arr_whole0 w).set_eq_univ, share_eq dats c hq0 hq1 hq2 hq3 hq4 w]
  rw [h, bigSep_W0]
  rfl

/-- The five buffers behind them, each whole. -/
theorem arrBufs_five (c : Dev nD) (Vx : (b : Ref sig .tc) → Buf (Elt F) ((c.tc : Thread nD τ).loc b)) :
    (Pipeline.arrBufs spec0 c Vx : sProp 𝕄)
      = iprop((((c.tc : Thread nD τ).loc main_v1) ↦{fullShare} Vx main_v1)
          ∗ (((c.tc : Thread nD τ).loc main_v5) ↦{fullShare} Vx main_v5) ∗ (((c.tc : Thread nD τ).loc main_v6) ↦{fullShare} Vx main_v6)
          ∗ (((c.tc : Thread nD τ).loc main_v29) ↦{fullShare} Vx main_v29) ∗ (((c.tc : Thread nD τ).loc main_v30) ↦{fullShare} Vx main_v30)) := by
  unfold Pipeline.arrBufs
  rw [image_arrRef]
  exact bigSep_eq_bigSepL_of_eq [main_v1, main_v5, main_v6, main_v29, main_v30] (by decide) (by decide) _

/-- Dealing the five buffers among the six windows: the shared array's full share in two halves, -/
theorem arrays_of_bufs (c : Dev nD)
    (hq0 : (dats 0 c).q 0 = fullShare.left) (hq1 : (dats 0 c).q 1 = fullShare.right)
    (hq2 : (dats 0 c).q 2 = fullShare) (hq3 : (dats 0 c).q 3 = fullShare) (hq4 : (dats 0 c).q 4 = fullShare)
    (Vx : (b : Ref sig .tc) → Buf (Elt F) ((c.tc : Thread nD τ).loc b)) :
    (Pipeline.arrBufs spec0 c Vx : sProp 𝕄) ⊢ (dats 0 c).arrays (fun w => Vx (Pipeline.arrRef spec0 w)) := by
  rw [arrBufs_five, arrays_six dats c hq0 hq1 hq2 hq3 hq4]
  iintro ⟨H1, H⟩
  ihave H1' := (pointsTo_share (PosShare.mem_left_op_right fullShare)).1 $$ H1
  icases H1' with ⟨Ha, Hb⟩
  isplitl [Ha]; · iexact Ha
  isplitl [Hb]; · iexact Hb
  iexact H

/-- and putting the two halves together again. -/
theorem bufs_of_arrays (c : Dev nD)
    (hq0 : (dats 0 c).q 0 = fullShare.left) (hq1 : (dats 0 c).q 1 = fullShare.right)
    (hq2 : (dats 0 c).q 2 = fullShare) (hq3 : (dats 0 c).q 3 = fullShare) (hq4 : (dats 0 c).q 4 = fullShare)
    (Vx : (b : Ref sig .tc) → Buf (Elt F) ((c.tc : Thread nD τ).loc b)) :
    (dats 0 c).arrays (fun w => Vx (Pipeline.arrRef spec0 w)) ⊢ (Pipeline.arrBufs spec0 c Vx : sProp 𝕄) := by
  rw [arrBufs_five, arrays_six dats c hq0 hq1 hq2 hq3 hq4]
  iintro ⟨Ha, Hb, H⟩
  isplitl [Ha Hb]
  · iapply (pointsTo_share (PosShare.mem_left_op_right fullShare)).2
    isplitl [Ha]; · iexact Ha
    iexact Hb
  iexact H

end Run

section OutArr
variable (dats : (p : Fin 1) → (c : Dev nD) → Dat τ (Elt F) Unit ℕ (UR sig nD τ) ℕ (cfgs p) c)
/-- The output array after the region. -/
abbrev outArr (c : Dev nD) : Buf (Elt F) ((c : Thread nD τ).loc main_v30) := (dats 0 c).arrAt 5 cfg0.N
end OutArr

/-! ## Around the four later host operations -/

section Exit

variable (dats : (p : Fin 1) → (c : Dev nD) → Dat τ (Elt F) Unit ℕ (UR sig nD τ) ℕ (cfgs p) c)
variable (c : Dev nD)
  (hA : ∀ w, (dats 0 c).A w = V m c (Pipeline.arrRef spec0 w))
  (hq0 : (dats 0 c).q 0 = fullShare.left) (hq1 : (dats 0 c).q 1 = fullShare.right)
  (hq2 : (dats 0 c).q 2 = fullShare) (hq3 : (dats 0 c).q 3 = fullShare) (hq4 : (dats 0 c).q 4 = fullShare)

/-- The exit valuation read at TensorCore references. -/
abbrev VXr (b : Ref sig .tc) : Buf (Elt F) ((c.tc : Thread nD τ).loc b) := VX m c (outArr dats c) (Proc.devRef .tc b)
/-- and the valuation after the later operations. -/
abbrev VTr (b : Ref sig .tc) : Buf (Elt F) ((c.tc : Thread nD τ).loc b) := VT m c (outArr dats c) (Proc.devRef .tc b)

/-- A buffer other than the output array holds at the exit what it held at the entry. -/
theorem VXr_of_ne (b : Ref sig .tc) (hb : b ≠ main_v30) : VXr m dats c b = V m c b :=
  Function.update_of_ne (StableHlo.devRef_ne_of_ne hb) _ _

include hA in
/-- Every window's array after the region is the exit valuation at its buffer: an input array is never written,
    the output array is what the write-backs made of it. -/
theorem arrAt_exit : (fun w : Fin cfg0.W => (dats 0 c).arrAt w cfg0.N) = fun w => VXr m dats c (Pipeline.arrRef spec0 w) := by
  funext w
  match w with
  | ⟨0, _⟩ => exact ((dats 0 c).arrAt_in 0 rfl _).trans ((hA 0).trans (VXr_of_ne m dats c _ (by decide)).symm)
  | ⟨1, _⟩ => exact ((dats 0 c).arrAt_in 1 rfl _).trans ((hA 1).trans (VXr_of_ne m dats c _ (by decide)).symm)
  | ⟨2, _⟩ => exact ((dats 0 c).arrAt_in 2 rfl _).trans ((hA 2).trans (VXr_of_ne m dats c _ (by decide)).symm)
  | ⟨3, _⟩ => exact ((dats 0 c).arrAt_in 3 rfl _).trans ((hA 3).trans (VXr_of_ne m dats c _ (by decide)).symm)
  | ⟨4, _⟩ => exact ((dats 0 c).arrAt_in 4 rfl _).trans ((hA 4).trans (VXr_of_ne m dats c _ (by decide)).symm)
  | ⟨5, _⟩ => exact (Function.update_self (Proc.devRef (τ := τ) .tc main_v30) (outArr dats c) (V0 m c)).symm
  | ⟨_ + 6, h⟩ => exact absurd h (Nat.not_lt.2 (Nat.le_add_left _ _))

/-- The later operations write no window's array. -/
theorem VTr_arr (w : Fin cfg0.W) : VTr m dats c (Pipeline.arrRef spec0 w) = VXr m dats c (Pipeline.arrRef spec0 w) := by
  match w with
  | ⟨0, _⟩ => exact tail_keeps _ main_v1 (by decide)
  | ⟨1, _⟩ => exact tail_keeps _ main_v1 (by decide)
  | ⟨2, _⟩ => exact tail_keeps _ main_v5 (by decide)
  | ⟨3, _⟩ => exact tail_keeps _ main_v6 (by decide)
  | ⟨4, _⟩ => exact tail_keeps _ main_v29 (by decide)
  | ⟨5, _⟩ => exact tail_keeps _ main_v30 (by decide)
  | ⟨_ + 6, h⟩ => exact absurd h (Nat.not_lt.2 (Nat.le_add_left _ _))

/-- The buffers that bypass the region are at the exit as at the entry. -/
theorem rest_exit : (Pipeline.unscopedRest spec0 c (V m c) : sProp 𝕄) = Pipeline.unscopedRest spec0 c (VXr m dats c) := by
  unfold Pipeline.unscopedRest
  exact bigSep_congr fun b hb => by
    have hne : b ≠ main_v30 := fun e => (Finset.mem_sdiff.mp hb).2 (e ▸ Finset.mem_image.mpr ⟨5, Finset.mem_univ _, rfl⟩)
    rw [VXr_of_ne m dats c b hne]

include hA hq0 hq1 hq2 hq3 hq4 in
/-- FROM THE EXIT: the windows' arrays at their final contents and the bypassing buffers make every unscoped buffer
    held whole at the exit valuation. -/
theorem exit_held :
    iprop((dats 0 c).arrays ((dats 0 c).arrAt · cfg0.N) ∗ Pipeline.unscopedRestP Pipeline.Prefetch.none spec0 c (V m c))
      ⊢ (StableHlo.held (c.tc : Thread nD τ) (Pipeline.ucRefs τ sig) (VX m c (outArr dats c)) : sProp 𝕄) := by
  rw [show ((dats 0 c).arrAt · cfg0.N) = fun w => VXr m dats c (Pipeline.arrRef spec0 w) from arrAt_exit m dats c hA,
    Pipeline.unscopedRestP_none, rest_exit m dats c,
    ← Pipeline.unscopedBufs_held (Ix := Unit) (Name := ℕ) (U := UR sig nD τ) (Lvl := ℕ) c (VX m c (outArr dats c)),
    Pipeline.unscopedBufs_split₀ cfgs 0 winFacts₀0.arr_unscoped c]
  exact sep_mono (bufs_of_arrays dats c hq0 hq1 hq2 hq3 hq4 (VXr m dats c)) .rfl

include hA hq0 hq1 hq2 hq3 hq4 in
/-- BACK: after the later operations the same buffers are the windows' arrays, still at their final contents, and
    the bypassing buffers at what the operations left. -/
theorem held_exit :
    (StableHlo.held (c.tc : Thread nD τ) (Pipeline.ucRefs τ sig) (VT m c (outArr dats c)) : sProp 𝕄)
      ⊢ iprop((dats 0 c).arrays ((dats 0 c).arrAt · cfg0.N) ∗ Pipeline.unscopedRestP Pipeline.Prefetch.none spec0 c (VTr m dats c)) := by
  rw [show ((dats 0 c).arrAt · cfg0.N) = fun w => VTr m dats c (Pipeline.arrRef spec0 w) from
      (arrAt_exit m dats c hA).trans (funext fun w => (VTr_arr m dats c w).symm),
    Pipeline.unscopedRestP_none,
    ← Pipeline.unscopedBufs_held (Ix := Unit) (Name := ℕ) (U := UR sig nD τ) (Lvl := ℕ) c (VT m c (outArr dats c)),
    Pipeline.unscopedBufs_split₀ cfgs 0 winFacts₀0.arr_unscoped c]
  exact sep_mono (arrays_of_bufs dats c hq0 hq1 hq2 hq3 hq4 (VTr m dats c)) .rfl

end Exit

section Run

variable (dats : (p : Fin 1) → (c : Dev nD) → Dat τ (Elt F) Unit ℕ (UR sig nD τ) ℕ (cfgs p) c)

-- the launch theorem's implicit arguments are found by unifying its conclusion with this one, which takes unfolding
-- plain definitions in a metavariable's type
set_option backward.isDefEq.respectTransparency.types false in
/-- THE RUN. For any proof data of the pipeline whose arrays are the region-entry contents, whose two windows on the
    shared array hold half of it each, which owes nothing and whose invariant starts from and returns to the scoped rest
    with the generator register: every weakly fair execution of @main terminates, the scalar result is what the four
    later host operations compute from the output array the write-backs leave, and the arguments end as launched. -/
theorem run_of
    (hA : ∀ c w, (dats 0 c).A w = V m c (Pipeline.arrRef spec0 w))
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare) (hq4 : ∀ c, (dats 0 c).q 4 = fullShare)
    (howed : ∀ c t, (dats 0 c).owed t = 0)
    (hbody : ∀ c, BodyObligationLoose (dats 0 c) (defs₀ (F := F)) Variants.none () Set.univ)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      r.2.mem ((c.tc : Thread nD τ).loc main_v32) = VT m c (outArr dats c) (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_of_bufs dats c (hq0 c) (hq1 c) (hq2 c) (hq3 c) (hq4 c) (V m c)).trans
      (Entails.of_eq (congrArg (dats 0 c).arrays (funext fun w => (hA c w).symm))))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => VT m c (outArr dats c) (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => by
      rw [show Pipeline.chain [StableHlo.seq hostOps1]
          = Pipeline.chain (([hostOps1] : List (List (HloOp τ sig (Elt F)))).map StableHlo.seq ++ []) from rfl]
      iintro ⟨Hk, Hb, Ha, HZ⟩
      ihave Hh := (exit_held m dats c (hA c) (hq0 c) (hq1 c) (hq2 c) (hq3 c) (hq4 c)) $$ [Ha HZ]
      · isplitl [Ha] <;> iassumption
      iapply (Pipeline.wp_seqs_then (fun q => (cfgs q).toPCfg (Val := Elt F)) defs₀ Variants.none c (Pipeline.ucRefs τ sig) [] [hostOps1]
        tail_sub tail_fresh (VX m c (outArr dats c))) $$ [Hb Hh]
      · isplitl [Hb] <;> iassumption
      iintro ⟨-, Hh⟩
      rw [Pipeline.chain_nil, wp_pure]
      imodintro
      iapply Hk
      iapply (held_exit m dats c (hA c) (hq0 c) (hq1 c) (hq2 c) (hq3 c) (hq4 c))
      iexact Hh)
    (QY := fun c s => ∀ b ∈ Pipeline.restRefsP sig Pipeline.Prefetch.none spec0, s.mem ((c.tc : Thread nD τ).loc b) = VT m c (outArr dats c) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => VT m c (outArr dats c) (Proc.devRef .tc b)) s')
      isplitl [HU] <;> iassumption)
    (hQ := fun s h c => ⟨(h c).2.2 main_v32 (by decide),
      ((h c).2.2 main_arg0 (by decide)).trans ((tail_keeps _ main_arg0 (by decide)).trans ((VXr_of_ne m dats c main_arg0 (by decide)).trans (V_arg0 m c))),
      ((h c).2.2 main_arg1 (by decide)).trans ((tail_keeps _ main_arg1 (by decide)).trans ((VXr_of_ne m dats c main_arg1 (by decide)).trans (V_arg1 m c)))⟩)

end Run

end Cert.Kernel.Hand

end
-- ==== Proof.KB.Runs.lean ====
/- The kernel body's control over the grid 8 x 4, and what its runs are stated over.

   Point t of the grid has row tile i = t / 4 and column tile j = t % 4. The body tests four conditions on
   (i, j): j = 0 (the three running statistics are reset), the column tile [2048 j, 2048 (j+1)) meets the row
   tile [1024 i, 1024 (i+1)) (the diagonal entries are masked out of the sums), its negation, and j = 3 (the
   row losses are computed and stored). Here: the four conditions in the spelling the body tests them in,
   their closed forms over the grid, where the output window is idle and where it is written back, names for
   the memrefs the body is called on at a point, and the shape of the invariant carried between points (the
   three scratch buffers at some contents and the generator register). -/
import proofs.«430023_j72756745994686_3_alg».proof.Proof.Gen.Kernel.Launch
import proofs.«430023_j72756745994686_3_alg».proof.Proof.Gen.Kernel.Skeleton
import proofs.«430023_j72756745994686_3_alg».proof.Proof.Gen.Kernel.Points
import Idealize.ShloMosaic.Lib.Pipeline.FrameBody
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The body's four conditions -/

/-- The overlap bit: the row tile [1024 i, 1024 (i+1)) and the column tile [2048 j, 2048 (j+1)) meet,
    i.e. 1024 i < 2048 (j+1) and 2048 j < 1024 (i+1), as the body computes it from the coordinates. -/
abbrev ovBit (i : grid0.Coords) : BitVec 1 :=
  Scalar.andi
    (Scalar.cmpi .slt (Scalar.muli (BitVec.ofNat 32 (i 0).val) 1024#32)
      (Scalar.addi (Scalar.muli (BitVec.ofNat 32 (i 1).val) 2048#32) 2048#32))
    (Scalar.cmpi .slt (Scalar.muli (BitVec.ofNat 32 (i 1).val) 2048#32)
      (Scalar.addi (Scalar.muli (BitVec.ofNat 32 (i 0).val) 1024#32) 1024#32))

/-- j = 0: the first column tile of a row tile (the running statistics are reset). -/
abbrev condFirst (i : grid0.Coords) : Prop :=
  (Scalar.cmpi .ne (Scalar.extui (Scalar.cmpi .eq (BitVec.ofNat 32 (i 1).val) 0#32)) 0#32) = 1#1
/-- The tile meets the diagonal (masked accumulation). -/
abbrev condOv (i : grid0.Coords) : Prop :=
  (Scalar.cmpi .ne (Scalar.extui (ovBit i)) 0#32) = 1#1
/-- The tile does not meet the diagonal (plain accumulation): the overlap bit flipped. -/
abbrev condNov (i : grid0.Coords) : Prop :=
  (Scalar.cmpi .ne (Scalar.extui (Scalar.xori (ovBit i) 1#1)) 0#32) = 1#1
/-- j = 3: the last column tile of a row tile (the losses are stored). -/
abbrev condLast (i : grid0.Coords) : Prop := k0_cond4 i = 1#1

theorem hcondFirst : ∀ t : Fin cfg0.N, condFirst (grid0.coords t) ↔ t.val % 4 = 0 :=
  (by decide +kernel : ∀ t : Fin grid0.N, condFirst (grid0.coords t) ↔ t.val % 4 = 0)
theorem hcondLast : ∀ t : Fin cfg0.N, condLast (grid0.coords t) ↔ t.val % 4 = 3 :=
  (by decide +kernel : ∀ t : Fin grid0.N, condLast (grid0.coords t) ↔ t.val % 4 = 3)
/-- Overlap iff j = i / 2; with i = t / 4 and j = t % 4 that is t % 4 = t / 8. -/
theorem hcondOv : ∀ t : Fin cfg0.N, condOv (grid0.coords t) ↔ t.val % 4 = t.val / 8 :=
  (by decide +kernel : ∀ t : Fin grid0.N, condOv (grid0.coords t) ↔ t.val % 4 = t.val / 8)
theorem hcondNov : ∀ t : Fin cfg0.N, condNov (grid0.coords t) ↔ ¬ condOv (grid0.coords t) :=
  (by decide +kernel : ∀ t : Fin grid0.N, condNov (grid0.coords t) ↔ ¬ condOv (grid0.coords t))
theorem hcondNov' : ∀ t : Fin cfg0.N, condNov (grid0.coords t) ↔ t.val % 4 ≠ t.val / 8 :=
  fun t => (hcondNov t).trans (not_congr (hcondOv t))

/-! ## Where the windows are idle, where the output is written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
/-- The output window is idle exactly at the points that are not a row tile's last. -/
theorem idleAt5 : ∀ t : Fin cfg0.N, ¬ condLast (grid0.coords t) → cfg0.idle 5 (grid0.coords t) = true := by decide +kernel
theorem liveAt5 : ∀ t : Fin cfg0.N, condLast (grid0.coords t) → cfg0.idle 5 (grid0.coords t) = false := by decide +kernel
theorem idle5_iff : ∀ t : Fin cfg0.N, cfg0.idle 5 (grid0.coords t) = true ↔ ¬ condLast (grid0.coords t) := by decide +kernel
/-- It is written back exactly there. -/
theorem flush5_iff : ∀ t : Fin cfg0.N, (cfg0.win 5).flush t = true ↔ condLast (grid0.coords t) :=
  fun t => (flush0_5 t).trans (hcondLast t).symm
theorem noFlush5 : ∀ t : Fin cfg0.N, ¬ condLast (grid0.coords t) → (cfg0.win 5).flush t = false := by decide +kernel
theorem flush5 : ∀ t : Fin cfg0.N, condLast (grid0.coords t) → (cfg0.win 5).flush t = true := by decide +kernel

/-! ## The memrefs the body is called on at a point -/

abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
/-- The three scratch operands: the running row maximum, the running sum of exponentials, the running sum of
    the positive pairs' logits. -/
abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2
abbrev hscM0 : (scM0).IsWhole := Memref.isWhole_whole _
abbrev hscM1 : (scM1).IsWhole := Memref.isWhole_whole _
abbrev hscM2 : (scM2).IsWhole := Memref.isWhole_whole _

/-- The body at point t is the kernel function on these memrefs. -/
theorem bodyAt0_eq (t : Fin cfg0.N) :
    bodyAt0 (F := F) t = cc0__supcon_kernel (grid0.coords t) (ms0 t) (hs0 t) (ms1 t) (hs1 t) (ms2 t) (hs2 t) (ms3 t) (hs3 t)
      (ms4 t) (hs4 t) (ms5 t) (hs5 t) scM0 hscM0 scM1 hscM1 scM2 hscM2 := rfl

/-- One staging buffer of the output window, and the scratch buffers, as views through which contents are stated. -/
abbrev VO5 : View sig .tc .vmem S1024x1 .f32 := (Memref.whole cc0_stg5_0 : Memref sig .tc .vmem S1024x1 .f32).view
abbrev VS0 : View sig .tc .vmem S1024x1 .f32 := scM0.view
abbrev VS1 : View sig .tc .vmem S1024x1 .f32 := scM1.view
abbrev VS2 : View sig .tc .vmem S1024x1 .f32 := scM2.view

/-! ## The invariant carried between points -/

/-- The pipeline's invariant is the three scratch buffers, each owned whole at some contents, and the
    generator register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

end Cert.Kernel.Hand

end
-- ==== Proof.KB.RunA.lean ====
/- The kernel body run at a point of the first column tile (j = 0) that meets the diagonal.

   There the three running statistics are first reset (maximum to minus infinity, the two sums to zero), the
   row tile's logits against the column tile are formed, the maximum is raised, the sum of exponentials is
   rescaled and increased by the tile's exponentials with the diagonal entries masked out, the positive-pair
   logit sum is increased likewise, and the new maximum is kept. Nothing is stored into the output block. -/
import proofs.«430023_j72756745994686_3_alg».proof.Proof.KB.Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (j = 0, the tile meets the diagonal): on whole memrefs, the five input blocks at their contents
    x0 … x4, the output buffer at xi5, the three scratch buffers at anything (they are reset before they are
    read), the body runs to a continuation that holds the inputs and the output buffer as they were and each
    scratch buffer with the listed pieces written (last store first): LS0 in the running maximum, LS1 in the
    running sum of exponentials, LS2 in the running positive-logit sum. -/
noncomputable def kernelRun0_A (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : condFirst i) (hc2 : condOv i) (hc3 : ¬ condNov i) (hc4 : ¬ condLast i)
    (x0 : Vec F S1024x128 .f32) (x1 : Vec F S2048x128 .f32) (x2 : Vec F S1024x1 .i32) (x3 : Vec F S1x2048 .i32) (x4 : Vec F S1024x1 .f32) :
    Σ' (LS0 : List (View.Piece (Elt F) S1024x1 .f32)) (LS1 : List (View.Piece (Elt F) S1024x1 .f32)), { LS2 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.KB.RunB.lean ====
/- The kernel body run at a point of the first column tile (j = 0) that does not meet the diagonal.

   The three running statistics are reset, then updated by the tile with no entry masked out. Nothing is stored
   into the output block. -/
import proofs.«430023_j72756745994686_3_alg».proof.Proof.KB.RunA

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (j = 0, the tile does not meet the diagonal): as case A, the accumulation unmasked. -/
noncomputable def kernelRun0_B (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : condFirst i) (hc2 : ¬ condOv i) (hc3 : condNov i) (hc4 : ¬ condLast i)
    (x0 : Vec F S1024x128 .f32) (x1 : Vec F S2048x128 .f32) (x2 : Vec F S1024x1 .i32) (x3 : Vec F S1x2048 .i32) (x4 : Vec F S1024x1 .f32) :
    Σ' (LS0 : List (View.Piece (Elt F) S1024x1 .f32)) (LS1 : List (View.Piece (Elt F) S1024x1 .f32)), { LS2 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.KB.RunC.lean ====
/- The kernel body run at a point of an inner column tile (j = 1 or 2) that meets the diagonal.

   The running statistics are those the point before left; they are updated by the tile with the diagonal
   entries masked out. Nothing is stored into the output block. -/
import proofs.«430023_j72756745994686_3_alg».proof.Proof.KB.RunB

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (j = 1 or 2, the tile meets the diagonal): on whole memrefs, the five input blocks at x0 … x4, the
    output buffer at xi5, the three scratch buffers at the contents xs0, xs1, xs2 the point before left, the
    body runs to a continuation that holds the inputs and the output buffer as they were and each scratch
    buffer with the listed pieces written (last store first). -/
noncomputable def kernelRun0_C (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : ¬ condFirst i) (hc2 : condOv i) (hc3 : ¬ condNov i) (hc4 : ¬ condLast i)
    (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.KB.RunD.lean ====
/- The kernel body run at a point of an inner column tile (j = 1 or 2) that does not meet the diagonal.

   The running statistics the point before left are updated by the tile with no entry masked out. Nothing is
   stored into the output block. -/
import proofs.«430023_j72756745994686_3_alg».proof.Proof.KB.RunC

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case D (j = 1 or 2, the tile does not meet the diagonal): as case C, the accumulation unmasked. -/
noncomputable def kernelRun0_D (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : ¬ condFirst i) (hc2 : ¬ condOv i) (hc3 : condNov i) (hc4 : ¬ condLast i)
    (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.KB.RunE.lean ====
/- The kernel body run at a point of the last column tile (j = 3) that meets the diagonal.

   The running statistics the point before left are updated by the tile with the diagonal entries masked out;
   then the row losses are formed from the final statistics and the positive counts, and stored as the output
   block. -/
import proofs.«430023_j72756745994686_3_alg».proof.Proof.KB.RunD

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case E (j = 3, the tile meets the diagonal): on whole memrefs, the five input blocks at x0 … x4, the output
    buffer at anything, the three scratch buffers at the contents xs0, xs1, xs2 the point before left, the body
    runs to a continuation that holds the inputs as they were, the output buffer with the pieces L5 written and
    each scratch buffer with the listed pieces written (last store first). -/
noncomputable def kernelRun0_E (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : ¬ condFirst i) (hc2 : condOv i) (hc3 : ¬ condNov i) (hc4 : condLast i)
    (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    Σ' (L5 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Hand

end
-- ==== Proof.KB.RunF.lean ====
/- The kernel body run at a point of the last column tile (j = 3) that does not meet the diagonal.

   The running statistics the point before left are updated by the tile with no entry masked out; then the row
   losses are formed and stored as the output block. -/
import proofs.«430023_j72756745994686_3_alg».proof.Proof.KB.RunE

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case F (j = 3, the tile does not meet the diagonal): as case E, the accumulation unmasked. -/
noncomputable def kernelRun0_F (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : ¬ condFirst i) (hc2 : ¬ condOv i) (hc3 : condNov i) (hc4 : condLast i)
    (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    Σ' (L5 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Hand

end
-- ==== Proof.KB.Data.lean ====
/- What the kernel region's buffers hold point by point, the pipeline's proof data, and the body obligation.

   The grid is 8 x 4: point t has row tile i = t / 4 and column tile j = t % 4. Three scratch buffers (the
   running row maximum, the running sum of exponentials, the running sum of the positive pairs' logits) are
   carried from point to point: reset at j = 0, updated at every point, consumed at j = 3, where the row
   losses are stored into the output block, which is written back there and only there. Six control cases
   (j = 0, 0 < j < 3, j = 3; each with the tile meeting the diagonal or not) have one whole-body run each.
   Here: each run taken at a grid point; what the output block and the three scratch buffers hold after every
   point, by recursion on the point; the invariant between points (the scratch buffers at those contents);
   the proof data (windows 0 and 1 stage one array and hold half of it each); every input's staging buffer
   holds its block at every point; and the body obligation, case by case. -/
import proofs.«430023_j72756745994686_3_alg».proof.Proof.KB.RunF
import proofs.«430023_j72756745994686_3_alg».proof.Proof.KB.Base
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What a list of writes leaves in a buffer -/

/-- What a list of writes (last write first) leaves in a buffer of 1024 x 1 words, read through the view `V`
    over arbitrary prior contents. When the writes cover the buffer neither the view nor the prior contents
    matter. -/
def left (V : View sig .tc .vmem S1024x1 .f32) (L : List (View.Piece (Elt F) S1024x1 .f32)) : Vec F S1024x1 .f32 :=
  V.read (Elt F) (V.writes (Elt F) V.junk L)

/-- A whole buffer into which a covering list of writes has gone is owned at what the list leaves. -/
theorem owns_left (c : Dev nD) (M : Memref sig .tc .vmem S1024x1 .f32) (V : View sig .tc .vmem S1024x1 .f32)
    (L : List (View.Piece (Elt F) S1024x1 .f32)) (hcov : ∀ y : S1024x1.Idx, ∃ p ∈ L, y ∈ p.1.set) :
    (iprop(∃ f, M.view.loc (c : Thread nD τ) ↦[M.view.set]{fullShare} M.view.writes (Elt F) f L) : sProp 𝕄)
      ⊢ owns (c : Thread nD τ) M fullShare (left V L) := by
  iintro ⟨%f, H⟩
  unfold owns left; iexists _; isplitr
  swap; · iexact H
  ipureintro; exact View.read_writes_of_cover _ _ _ _ _ hcov

/-! ## Each case's run at a grid point

The run of a case at point `t`: on the current staging buffers of the six windows and the three scratch buffers,
the five inputs at their blocks, the case's conditions from their closed forms at `t`. -/

/-- Case A at `t`: j = 0, the tile meets the diagonal. -/
def runA (c : Dev nD) (t : Fin cfg0.N) (h0 : t.val % 4 = 0) (hov : t.val % 4 = t.val / 8) :=
  kernelRun0_A (F := F) c (grid0.coords t) (ms0 t) (hs0 t) (ms1 t) (hs1 t) (ms2 t) (hs2 t) (ms3 t) (hs3 t) (ms4 t) (hs4 t) (ms5 t) (hs5 t)
    scM0 hscM0 scM1 hscM1 scM2 hscM2
    ((hcondFirst t).mpr h0) ((hcondOv t).mpr hov) (fun h => (hcondNov' t).mp h hov) (fun h => by have := (hcondLast t).mp h; omega)
    (iblk m c 0 t) (iblk m c 1 t) (iblk m c 2 t) (iblk m c 3 t) (iblk m c 4 t)

/-- Case B at `t`: j = 0, the tile misses the diagonal. -/
def runB (c : Dev nD) (t : Fin cfg0.N) (h0 : t.val % 4 = 0) (hnov : ¬ t.val % 4 = t.val / 8) :=
  kernelRun0_B (F := F) c (grid0.coords t) (ms0 t) (hs0 t) (ms1 t) (hs1 t) (ms2 t) (hs2 t) (ms3 t) (hs3 t) (ms4 t) (hs4 t) (ms5 t) (hs5 t)
    scM0 hscM0 scM1 hscM1 scM2 hscM2
    ((hcondFirst t).mpr h0) (fun h => hnov ((hcondOv t).mp h)) ((hcondNov' t).mpr hnov) (fun h => by have := (hcondLast t).mp h; omega)
    (iblk m c 0 t) (iblk m c 1 t) (iblk m c 2 t) (iblk m c 3 t) (iblk m c 4 t)

/-- Case C at `t`: 0 < j < 3, the tile meets the diagonal; the scratch buffers at `xs0`, `xs1`, `xs2`. -/
def runC (c : Dev nD) (t : Fin cfg0.N) (h0 : ¬ t.val % 4 = 0) (h3 : ¬ t.val % 4 = 3) (hov : t.val % 4 = t.val / 8)
    (xs0 xs1 xs2 : Vec F S1024x1 .f32) :=
  kernelRun0_C (F := F) c (grid0.coords t) (ms0 t) (hs0 t) (ms1 t) (hs1 t) (ms2 t) (hs2 t) (ms3 t) (hs3 t) (ms4 t) (hs4 t) (ms5 t) (hs5 t)
    scM0 hscM0 scM1 hscM1 scM2 hscM2
    (fun h => h0 ((hcondFirst t).mp h)) ((hcondOv t).mpr hov) (fun h => (hcondNov' t).mp h hov) (fun h => h3 ((hcondLast t).mp h))
    (iblk m c 0 t) (iblk m c 1 t) (iblk m c 2 t) (iblk m c 3 t) (iblk m c 4 t) xs0 xs1 xs2

/-- Case D at `t`: 0 < j < 3, the tile misses the diagonal. -/
def runD (c : Dev nD) (t : Fin cfg0.N) (h0 : ¬ t.val % 4 = 0) (h3 : ¬ t.val % 4 = 3) (hnov : ¬ t.val % 4 = t.val / 8)
    (xs0 xs1 xs2 : Vec F S1024x1 .f32) :=
  kernelRun0_D (F := F) c (grid0.coords t) (ms0 t) (hs0 t) (ms1 t) (hs1 t) (ms2 t) (hs2 t) (ms3 t) (hs3 t) (ms4 t) (hs4 t) (ms5 t) (hs5 t)
    scM0 hscM0 scM1 hscM1 scM2 hscM2
    (fun h => h0 ((hcondFirst t).mp h)) (fun h => hnov ((hcondOv t).mp h)) ((hcondNov' t).mpr hnov) (fun h => h3 ((hcondLast t).mp h))
    (iblk m c 0 t) (iblk m c 1 t) (iblk m c 2 t) (iblk m c 3 t) (iblk m c 4 t) xs0 xs1 xs2

/-- Case E at `t`: j = 3, the tile meets the diagonal. -/
def runE (c : Dev nD) (t : Fin cfg0.N) (h3 : t.val % 4 = 3) (hov : t.val % 4 = t.val / 8)
    (xs0 xs1 xs2 : Vec F S1024x1 .f32) :=
  kernelRun0_E (F := F) c (grid0.coords t) (ms0 t) (hs0 t) (ms1 t) (hs1 t) (ms2 t) (hs2 t) (ms3 t) (hs3 t) (ms4 t) (hs4 t) (ms5 t) (hs5 t)
    scM0 hscM0 scM1 hscM1 scM2 hscM2
    (fun h => by have := (hcondFirst t).mp h; omega) ((hcondOv t).mpr hov) (fun h => (hcondNov' t).mp h hov) ((hcondLast t).mpr h3)
    (iblk m c 0 t) (iblk m c 1 t) (iblk m c 2 t) (iblk m c 3 t) (iblk m c 4 t) xs0 xs1 xs2

/-- Case F at `t`: j = 3, the tile misses the diagonal. -/
def runF (c : Dev nD) (t : Fin cfg0.N) (h3 : t.val % 4 = 3) (hnov : ¬ t.val % 4 = t.val / 8)
    (xs0 xs1 xs2 : Vec F S1024x1 .f32) :=
  kernelRun0_F (F := F) c (grid0.coords t) (ms0 t) (hs0 t) (ms1 t) (hs1 t) (ms2 t) (hs2 t) (ms3 t) (hs3 t) (ms4 t) (hs4 t) (ms5 t) (hs5 t)
    scM0 hscM0 scM1 hscM1 scM2 hscM2
    (fun h => by have := (hcondFirst t).mp h; omega) (fun h => hnov ((hcondOv t).mp h)) ((hcondNov' t).mpr hnov) ((hcondLast t).mpr h3)
    (iblk m c 0 t) (iblk m c 1 t) (iblk m c 2 t) (iblk m c 3 t) (iblk m c 4 t) xs0 xs1 xs2

/-! ## The pieces each case stores cover the buffers

Every case stores each of the three scratch buffers whole (the reset and the update at j = 0, the update
elsewhere), and the cases at j = 3 store the output block whole: each list of pieces tiles its buffer. -/

theorem coverA0 (c : Dev nD) (t : Fin cfg0.N) (h0 : t.val % 4 = 0) (hov : t.val % 4 = t.val / 8) (y : S1024x1.Idx) :
    ∃ pc ∈ (runA m c t h0 hov).1, y ∈ pc.1.set :=
  View.cover_of_tiledL (runA m c t h0 hov).1 S1024x1.size (by sl_kernel_rfl) y
theorem coverA1 (c : Dev nD) (t : Fin cfg0.N) (h0 : t.val % 4 = 0) (hov : t.val % 4 = t.val / 8) (y : S1024x1.Idx) :
    ∃ pc ∈ (runA m c t h0 hov).2.1, y ∈ pc.1.set :=
  View.cover_of_tiledL (runA m c t h0 hov).2.1 S1024x1.size (by sl_kernel_rfl) y
theorem coverA2 (c : Dev nD) (t : Fin cfg0.N) (h0 : t.val % 4 = 0) (hov : t.val % 4 = t.val / 8) (y : S1024x1.Idx) :
    ∃ pc ∈ (runA m c t h0 hov).2.2.1, y ∈ pc.1.set :=
  View.cover_of_tiledL (runA m c t h0 hov).2.2.1 S1024x1.size (by sl_kernel_rfl) y

theorem coverB0 (c : Dev nD) (t : Fin cfg0.N) (h0 : t.val % 4 = 0) (hnov : ¬ t.val % 4 = t.val / 8) (y : S1024x1.Idx) :
    ∃ pc ∈ (runB m c t h0 hnov).1, y ∈ pc.1.set :=
  View.cover_of_tiledL (runB m c t h0 hnov).1 S1024x1.size (by sl_kernel_rfl) y
theorem coverB1 (c : Dev nD) (t : Fin cfg0.N) (h0 : t.val % 4 = 0) (hnov : ¬ t.val % 4 = t.val / 8) (y : S1024x1.Idx) :
    ∃ pc ∈ (runB m c t h0 hnov).2.1, y ∈ pc.1.set :=
  View.cover_of_tiledL (runB m c t h0 hnov).2.1 S1024x1.size (by sl_kernel_rfl) y
theorem coverB2 (c : Dev nD) (t : Fin cfg0.N) (h0 : t.val % 4 = 0) (hnov : ¬ t.val % 4 = t.val / 8) (y : S1024x1.Idx) :
    ∃ pc ∈ (runB m c t h0 hnov).2.2.1, y ∈ pc.1.set :=
  View.cover_of_tiledL (runB m c t h0 hnov).2.2.1 S1024x1.size (by sl_kernel_rfl) y

theorem coverC0 (c : Dev nD) (t : Fin cfg0.N) (h0 : ¬ t.val % 4 = 0) (h3 : ¬ t.val % 4 = 3) (hov : t.val % 4 = t.val / 8)
    (xs0 xs1 xs2 : Vec F S1024x1 .f32) (y : S1024x1.Idx) : ∃ pc ∈ (runC m c t h0 h3 hov xs0 xs1 xs2).1, y ∈ pc.1.set :=
  View.cover_of_tiledL (runC m c t h0 h3 hov xs0 xs1 xs2).1 S1024x1.size (by sl_kernel_rfl) y
theorem coverC1 (c : Dev nD) (t : Fin cfg0.N) (h0 : ¬ t.val % 4 = 0) (h3 : ¬ t.val % 4 = 3) (hov : t.val % 4 = t.val / 8)
    (xs0 xs1 xs2 : Vec F S1024x1 .f32) (y : S1024x1.Idx) : ∃ pc ∈ (runC m c t h0 h3 hov xs0 xs1 xs2).2.1, y ∈ pc.1.set :=
  View.cover_of_tiledL (runC m c t h0 h3 hov xs0 xs1 xs2).2.1 S1024x1.size (by sl_kernel_rfl) y
theorem coverC2 (c : Dev nD) (t : Fin cfg0.N) (h0 : ¬ t.val % 4 = 0) (h3 : ¬ t.val % 4 = 3) (hov : t.val % 4 = t.val / 8)
    (xs0 xs1 xs2 : Vec F S1024x1 .f32) (y : S1024x1.Idx) : ∃ pc ∈ (runC m c t h0 h3 hov xs0 xs1 xs2).2.2.1, y ∈ pc.1.set :=
  View.cover_of_tiledL (runC m c t h0 h3 hov xs0 xs1 xs2).2.2.1 S1024x1.size (by sl_kernel_rfl) y

theorem coverD0 (c : Dev nD) (t : Fin cfg0.N) (h0 : ¬ t.val % 4 = 0) (h3 : ¬ t.val % 4 = 3) (hnov : ¬ t.val % 4 = t.val / 8)
    (xs0 xs1 xs2 : Vec F S1024x1 .f32) (y : S1024x1.Idx) : ∃ pc ∈ (runD m c t h0 h3 hnov xs0 xs1 xs2).1, y ∈ pc.1.set :=
  View.cover_of_tiledL (runD m c t h0 h3 hnov xs0 xs1 xs2).1 S1024x1.size (by sl_kernel_rfl) y
theorem coverD1 (c : Dev nD) (t : Fin cfg0.N) (h0 : ¬ t.val % 4 = 0) (h3 : ¬ t.val % 4 = 3) (hnov : ¬ t.val % 4 = t.val / 8)
    (xs0 xs1 xs2 : Vec F S1024x1 .f32) (y : S1024x1.Idx) : ∃ pc ∈ (runD m c t h0 h3 hnov xs0 xs1 xs2).2.1, y ∈ pc.1.set :=
  View.cover_of_tiledL (runD m c t h0 h3 hnov xs0 xs1 xs2).2.1 S1024x1.size (by sl_kernel_rfl) y
theorem coverD2 (c : Dev nD) (t : Fin cfg0.N) (h0 : ¬ t.val % 4 = 0) (h3 : ¬ t.val % 4 = 3) (hnov : ¬ t.val % 4 = t.val / 8)
    (xs0 xs1 xs2 : Vec F S1024x1 .f32) (y : S1024x1.Idx) : ∃ pc ∈ (runD m c t h0 h3 hnov xs0 xs1 xs2).2.2.1, y ∈ pc.1.set :=
  View.cover_of_tiledL (runD m c t h0 h3 hnov xs0 xs1 xs2).2.2.1 S1024x1.size (by sl_kernel_rfl) y

theorem coverE5 (c : Dev nD) (t : Fin cfg0.N) (h3 : t.val % 4 = 3) (hov : t.val % 4 = t.val / 8)
    (xs0 xs1 xs2 : Vec F S1024x1 .f32) (y : S1024x1.Idx) : ∃ pc ∈ (runE m c t h3 hov xs0 xs1 xs2).1, y ∈ pc.1.set :=
  View.cover_of_tiledL (runE m c t h3 hov xs0 xs1 xs2).1 S1024x1.size (by sl_kernel_rfl) y
theorem coverE0 (c : Dev nD) (t : Fin cfg0.N) (h3 : t.val % 4 = 3) (hov : t.val % 4 = t.val / 8)
    (xs0 xs1 xs2 : Vec F S1024x1 .f32) (y : S1024x1.Idx) : ∃ pc ∈ (runE m c t h3 hov xs0 xs1 xs2).2.1, y ∈ pc.1.set :=
  View.cover_of_tiledL (runE m c t h3 hov xs0 xs1 xs2).2.1 S1024x1.size (by sl_kernel_rfl) y
theorem coverE1 (c : Dev nD) (t : Fin cfg0.N) (h3 : t.val % 4 = 3) (hov : t.val % 4 = t.val / 8)
    (xs0 xs1 xs2 : Vec F S1024x1 .f32) (y : S1024x1.Idx) : ∃ pc ∈ (runE m c t h3 hov xs0 xs1 xs2).2.2.1, y ∈ pc.1.set :=
  View.cover_of_tiledL (runE m c t h3 hov xs0 xs1 xs2).2.2.1 S1024x1.size (by sl_kernel_rfl) y
theorem coverE2 (c : Dev nD) (t : Fin cfg0.N) (h3 : t.val % 4 = 3) (hov : t.val % 4 = t.val / 8)
    (xs0 xs1 xs2 : Vec F S1024x1 .f32) (y : S1024x1.Idx) : ∃ pc ∈ (runE m c t h3 hov xs0 xs1 xs2).2.2.2.1, y ∈ pc.1.set :=
  View.cover_of_tiledL (runE m c t h3 hov xs0 xs1 xs2).2.2.2.1 S1024x1.size (by sl_kernel_rfl) y

theorem coverF5 (c : Dev nD) (t : Fin cfg0.N) (h3 : t.val % 4 = 3) (hnov : ¬ t.val % 4 = t.val / 8)
    (xs0 xs1 xs2 : Vec F S1024x1 .f32) (y : S1024x1.Idx) : ∃ pc ∈ (runF m c t h3 hnov xs0 xs1 xs2).1, y ∈ pc.1.set :=
  View.cover_of_tiledL (runF m c t h3 hnov xs0 xs1 xs2).1 S1024x1.size (by sl_kernel_rfl) y
theorem coverF0 (c : Dev nD) (t : Fin cfg0.N) (h3 : t.val % 4 = 3) (hnov : ¬ t.val % 4 = t.val / 8)
    (xs0 xs1 xs2 : Vec F S1024x1 .f32) (y : S1024x1.Idx) : ∃ pc ∈ (runF m c t h3 hnov xs0 xs1 xs2).2.1, y ∈ pc.1.set :=
  View.cover_of_tiledL (runF m c t h3 hnov xs0 xs1 xs2).2.1 S1024x1.size (by sl_kernel_rfl) y
theorem coverF1 (c : Dev nD) (t : Fin cfg0.N) (h3 : t.val % 4 = 3) (hnov : ¬ t.val % 4 = t.val / 8)
    (xs0 xs1 xs2 : Vec F S1024x1 .f32) (y : S1024x1.Idx) : ∃ pc ∈ (runF m c t h3 hnov xs0 xs1 xs2).2.2.1, y ∈ pc.1.set :=
  View.cover_of_tiledL (runF m c t h3 hnov xs0 xs1 xs2).2.2.1 S1024x1.size (by sl_kernel_rfl) y
theorem coverF2 (c : Dev nD) (t : Fin cfg0.N) (h3 : t.val % 4 = 3) (hnov : ¬ t.val % 4 = t.val / 8)
    (xs0 xs1 xs2 : Vec F S1024x1 .f32) (y : S1024x1.Idx) : ∃ pc ∈ (runF m c t h3 hnov xs0 xs1 xs2).2.2.2.1, y ∈ pc.1.set :=
  View.cover_of_tiledL (runF m c t h3 hnov xs0 xs1 xs2).2.2.2.1 S1024x1.size (by sl_kernel_rfl) y

/-! ## What each case leaves: the output block, then the three scratch buffers -/

/-- The contents of four buffers of 1024 x 1 words: the output block, the running maximum, the running sum of
    exponentials, the running positive-logit sum. -/
abbrev Outs (F : FTy → Type) : Type := Vec F S1024x1 .f32 × Vec F S1024x1 .f32 × Vec F S1024x1 .f32 × Vec F S1024x1 .f32

/-- The first component at the points where nothing is stored into the output block (j < 3): a placeholder that
    nothing consults, since there the block is neither written back nor read at the next point. -/
def idle5 : Vec F S1024x1 .f32 := left VO5 []

def outA (c : Dev nD) (t : Fin cfg0.N) (h0 : t.val % 4 = 0) (hov : t.val % 4 = t.val / 8) : Outs F :=
  (idle5, left VS0 (runA m c t h0 hov).1, left VS1 (runA m c t h0 hov).2.1, left VS2 (runA m c t h0 hov).2.2.1)
def outB (c : Dev nD) (t : Fin cfg0.N) (h0 : t.val % 4 = 0) (hnov : ¬ t.val % 4 = t.val / 8) : Outs F :=
  (idle5, left VS0 (runB m c t h0 hnov).1, left VS1 (runB m c t h0 hnov).2.1, left VS2 (runB m c t h0 hnov).2.2.1)
/-- Cases C to F run over what the point before left in the scratch buffers (`P`'s last three components). -/
def outC (c : Dev nD) (t : Fin cfg0.N) (h0 : ¬ t.val % 4 = 0) (h3 : ¬ t.val % 4 = 3) (hov : t.val % 4 = t.val / 8) (P : Outs F) : Outs F :=
  (idle5, left VS0 (runC m c t h0 h3 hov P.2.1 P.2.2.1 P.2.2.2).1, left VS1 (runC m c t h0 h3 hov P.2.1 P.2.2.1 P.2.2.2).2.1,
    left VS2 (runC m c t h0 h3 hov P.2.1 P.2.2.1 P.2.2.2).2.2.1)
def outD (c : Dev nD) (t : Fin cfg0.N) (h0 : ¬ t.val % 4 = 0) (h3 : ¬ t.val % 4 = 3) (hnov : ¬ t.val % 4 = t.val / 8) (P : Outs F) : Outs F :=
  (idle5, left VS0 (runD m c t h0 h3 hnov P.2.1 P.2.2.1 P.2.2.2).1, left VS1 (runD m c t h0 h3 hnov P.2.1 P.2.2.1 P.2.2.2).2.1,
    left VS2 (runD m c t h0 h3 hnov P.2.1 P.2.2.1 P.2.2.2).2.2.1)
def outE (c : Dev nD) (t : Fin cfg0.N) (h3 : t.val % 4 = 3) (hov : t.val % 4 = t.val / 8) (P : Outs F) : Outs F :=
  (left VO5 (runE m c t h3 hov P.2.1 P.2.2.1 P.2.2.2).1, left VS0 (runE m c t h3 hov P.2.1 P.2.2.1 P.2.2.2).2.1,
    left VS1 (runE m c t h3 hov P.2.1 P.2.2.1 P.2.2.2).2.2.1, left VS2 (runE m c t h3 hov P.2.1 P.2.2.1 P.2.2.2).2.2.2.1)
def outF (c : Dev nD) (t : Fin cfg0.N) (h3 : t.val % 4 = 3) (hnov : ¬ t.val % 4 = t.val / 8) (P : Outs F) : Outs F :=
  (left VO5 (runF m c t h3 hnov P.2.1 P.2.2.1 P.2.2.2).1, left VS0 (runF m c t h3 hnov P.2.1 P.2.2.1 P.2.2.2).2.1,
    left VS1 (runF m c t h3 hnov P.2.1 P.2.2.1 P.2.2.2).2.2.1, left VS2 (runF m c t h3 hnov P.2.1 P.2.2.1 P.2.2.2).2.2.2.1)

/-! ## What the buffers hold after each point -/

/-- THE ACCUMULATION. What the output block's staging buffer and the three scratch buffers hold after the body at
    point `n`: the case the closed forms select at `n` (j = 0, then j = 3, then the overlap), run at the point's
    buffers and input blocks; at j > 0 over what point `n - 1` left in the scratch buffers. Point 0 has j = 0 and
    meets the diagonal. All six assignments of the three tests occur on the grid. -/
def outsAt0 (c : Dev nD) : (n : ℕ) → n < cfg0.N → Outs F
  | 0, hn => outA m c ⟨0, hn⟩ (Nat.zero_mod 4) ((Nat.zero_mod 4).trans (Nat.zero_div 8).symm)
  | n + 1, hn =>
    if h0 : (n + 1) % 4 = 0 then
      if hov : (n + 1) % 4 = (n + 1) / 8 then outA m c ⟨n + 1, hn⟩ h0 hov
      else outB m c ⟨n + 1, hn⟩ h0 hov
    else
      if h3 : (n + 1) % 4 = 3 then
        if hov : (n + 1) % 4 = (n + 1) / 8 then outE m c ⟨n + 1, hn⟩ h3 hov (outsAt0 c n (Nat.lt_of_succ_lt hn))
        else outF m c ⟨n + 1, hn⟩ h3 hov (outsAt0 c n (Nat.lt_of_succ_lt hn))
      else
        if hov : (n + 1) % 4 = (n + 1) / 8 then outC m c ⟨n + 1, hn⟩ h0 h3 hov (outsAt0 c n (Nat.lt_of_succ_lt hn))
        else outD m c ⟨n + 1, hn⟩ h0 h3 hov (outsAt0 c n (Nat.lt_of_succ_lt hn))

/-- What the point before `t` left in the four buffers (at `t = 0`, where nothing consults it, what point 0 leaves). -/
def prev (c : Dev nD) (t : Fin cfg0.N) : Outs F :=
  outsAt0 m c (t.val - 1) (Nat.lt_of_le_of_lt (Nat.sub_le _ _) t.isLt)

theorem prev_eq (c : Dev nD) (t : Fin cfg0.N) :
    prev m c t = outsAt0 m c (t.val - 1) (Nat.lt_of_le_of_lt (Nat.sub_le _ _) t.isLt) := rfl

/-- `outsAt0` at a point of case A. -/
theorem outsAt0_A (c : Dev nD) (t : Fin cfg0.N) (h0 : t.val % 4 = 0) (hov : t.val % 4 = t.val / 8) :
    outsAt0 m c t.val t.isLt = outA m c t h0 hov := by
  obtain ⟨n, hn⟩ := t
  cases n with
  | zero => exact rfl
  | succ n =>
    have h0' : (n + 1) % 4 = 0 := h0
    have hov' : (n + 1) % 4 = (n + 1) / 8 := hov
    exact (dif_pos h0').trans ((dif_pos hov').trans rfl)

/-- `outsAt0` at a point of case B. -/
theorem outsAt0_B (c : Dev nD) (t : Fin cfg0.N) (h0 : t.val % 4 = 0) (hnov : ¬ t.val % 4 = t.val / 8) :
    outsAt0 m c t.val t.isLt = outB m c t h0 hnov := by
  obtain ⟨n, hn⟩ := t
  cases n with
  | zero => exact absurd ((Nat.zero_mod 4).trans (Nat.zero_div 8).symm) hnov
  | succ n =>
    have h0' : (n + 1) % 4 = 0 := h0
    have hnov' : ¬ (n + 1) % 4 = (n + 1) / 8 := hnov
    exact (dif_pos h0').trans ((dif_neg hnov').trans rfl)

/-- `outsAt0` at a point of case C: over what the point before left. -/
theorem outsAt0_C (c : Dev nD) (t : Fin cfg0.N) (h0 : ¬ t.val % 4 = 0) (h3 : ¬ t.val % 4 = 3) (hov : t.val % 4 = t.val / 8) :
    outsAt0 m c t.val t.isLt = outC m c t h0 h3 hov (prev m c t) := by
  obtain ⟨n, hn⟩ := t
  cases n with
  | zero => exact absurd (Nat.zero_mod 4) h0
  | succ n =>
    have h0' : ¬ (n + 1) % 4 = 0 := h0
    have h3' : ¬ (n + 1) % 4 = 3 := h3
    have hov' : (n + 1) % 4 = (n + 1) / 8 := hov
    exact (dif_neg h0').trans ((dif_neg h3').trans ((dif_pos hov').trans rfl))

/-- `outsAt0` at a point of case D: over what the point before left. -/
theorem outsAt0_D (c : Dev nD) (t : Fin cfg0.N) (h0 : ¬ t.val % 4 = 0) (h3 : ¬ t.val % 4 = 3) (hnov : ¬ t.val % 4 = t.val / 8) :
    outsAt0 m c t.val t.isLt = outD m c t h0 h3 hnov (prev m c t) := by
  obtain ⟨n, hn⟩ := t
  cases n with
  | zero => exact absurd (Nat.zero_mod 4) h0
  | succ n =>
    have h0' : ¬ (n + 1) % 4 = 0 := h0
    have h3' : ¬ (n + 1) % 4 = 3 := h3
    have hnov' : ¬ (n + 1) % 4 = (n + 1) / 8 := hnov
    exact (dif_neg h0').trans ((dif_neg h3').trans ((dif_neg hnov').trans rfl))

/-- `outsAt0` at a point of case E: over what the point before left. -/
theorem outsAt0_E (c : Dev nD) (t : Fin cfg0.N) (h3 : t.val % 4 = 3) (hov : t.val % 4 = t.val / 8) :
    outsAt0 m c t.val t.isLt = outE m c t h3 hov (prev m c t) := by
  obtain ⟨n, hn⟩ := t
  cases n with
  | zero => exact absurd (show (0 : ℕ) % 4 = 3 from h3) (by decide)
  | succ n =>
    have h3' : (n + 1) % 4 = 3 := h3
    have h0' : ¬ (n + 1) % 4 = 0 := by omega
    have hov' : (n + 1) % 4 = (n + 1) / 8 := hov
    exact (dif_neg h0').trans ((dif_pos h3').trans ((dif_pos hov').trans rfl))

/-- `outsAt0` at a point of case F: over what the point before left. -/
theorem outsAt0_F (c : Dev nD) (t : Fin cfg0.N) (h3 : t.val % 4 = 3) (hnov : ¬ t.val % 4 = t.val / 8) :
    outsAt0 m c t.val t.isLt = outF m c t h3 hnov (prev m c t) := by
  obtain ⟨n, hn⟩ := t
  cases n with
  | zero => exact absurd (show (0 : ℕ) % 4 = 3 from h3) (by decide)
  | succ n =>
    have h3' : (n + 1) % 4 = 3 := h3
    have h0' : ¬ (n + 1) % 4 = 0 := by omega
    have hnov' : ¬ (n + 1) % 4 = (n + 1) / 8 := hnov
    exact (dif_neg h0').trans ((dif_pos h3').trans ((dif_neg hnov').trans rfl))

/-! ## The invariant between points -/

/-- The invariant before point `n`: before the first point the three scratch buffers at anything; afterwards
    each at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0 fullShare (outsAt0 m c n hn).2.1 ∗ owns (c : Thread nD τ) scM1 fullShare (outsAt0 m c n hn).2.2.1
      ∗ owns (c : Thread nD τ) scM2 fullShare (outsAt0 m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (outsAt0 m c n hn).2.1 ∗ owns (c : Thread nD τ) scM1 fullShare (outsAt0 m c n hn).2.2.1
      ∗ owns (c : Thread nD τ) scM2 fullShare (outsAt0 m c n hn).2.2.2) ∗ (∃ r, prngReg c r)) := rfl

theorem PhiS_pos (c : Dev nD) (n : ℕ) (h : n ≤ cfg0.N) (hz : n ≠ 0) :
    PhiS m c n h = iprop(iprop(owns (c : Thread nD τ) scM0 fullShare (outsAt0 m c (n - 1) (by omega)).2.1
      ∗ owns (c : Thread nD τ) scM1 fullShare (outsAt0 m c (n - 1) (by omega)).2.2.1
      ∗ owns (c : Thread nD τ) scM2 fullShare (outsAt0 m c (n - 1) (by omega)).2.2.2) ∗ (∃ r, prngReg c r)) := by
  cases n with
  | zero => exact absurd rfl hz
  | succ n => rfl

/-! ## The pipeline's proof data -/

/-- The proof data of the one pipeline on core `c`: the arrays as the region finds them; after the body at point
    `t` each input's buffer at its block and the output's at `outsAt0`'s first component; the invariant `PhiS`;
    windows 0 and 1 stage one array and hold half of it each, the other inputs are held whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem q_0 (c : Dev nD) : (dats m 0 c).q 0 = fullShare.left := by dsimp only [dats]
theorem q_1 (c : Dev nD) : (dats m 0 c).q 1 = fullShare.right := by dsimp only [dats]
theorem q_2 (c : Dev nD) : (dats m 0 c).q 2 = fullShare := by dsimp only [dats]
theorem q_3 (c : Dev nD) : (dats m 0 c).q 3 = fullShare := by dsimp only [dats]
theorem q_4 (c : Dev nD) : (dats m 0 c).q 4 = fullShare := by dsimp only [dats]

theorem owed_eq (c : Dev nD) (t : Fin (cfg0.N + 1)) : (dats m 0 c).owed t = 0 := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

/-- The invariant at the start of a point that is not the first: the scratch buffers at what the point before left. -/
theorem PhiS_before (c : Dev nD) (t : Fin cfg0.N) (hz : t.val ≠ 0) :
    (dats m 0 c).Φ t.castSucc = iprop(iprop(owns (c : Thread nD τ) scM0 fullShare (prev m c t).2.1
      ∗ owns (c : Thread nD τ) scM1 fullShare (prev m c t).2.2.1
      ∗ owns (c : Thread nD τ) scM2 fullShare (prev m c t).2.2.2) ∗ (∃ r, prngReg c r)) := by
  rewrite [PhiS_castSucc m c t, PhiS_pos m c _ _ hz]; rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt0 m c t.val t.isLt).1 := by dsimp only [dats]

/-! ## Every input's current staging buffer holds its block

Fetched at the point or not: an input that is not fetched has the block index it had at the point before, and
the body leaves an input's buffer as it found it. -/

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0 m c]; unfold Dat.blockOf iblk; rw [A_eq m c]; try rfl) t d).trans
    (by unfold Dat.fetched Dat.blockOf iblk; rw [A_eq m c]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1 m c]; unfold Dat.blockOf iblk; rw [A_eq m c]; try rfl) t d).trans
    (by unfold Dat.fetched Dat.blockOf iblk; rw [A_eq m c]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2 m c]; unfold Dat.blockOf iblk; rw [A_eq m c]; try rfl) t d).trans
    (by unfold Dat.fetched Dat.blockOf iblk; rw [A_eq m c]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3 m c]; unfold Dat.blockOf iblk; rw [A_eq m c]; try rfl) t d).trans
    (by unfold Dat.fetched Dat.blockOf iblk; rw [A_eq m c]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4 m c]; unfold Dat.blockOf iblk; rw [A_eq m c]; try rfl) t d).trans
    (by unfold Dat.fetched Dat.blockOf iblk; rw [A_eq m c]; try rfl)

/-! ## The invariant forgets to the pipeline's -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the pipeline's back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-- At every point, the first included: the three scratch buffers at something, the generator register at some state. -/
theorem Phi_any (c : Dev nD) (t : Fin (cfg0.N + 1)) : (dats m 0 c).Φ t ⊢ Pipeline.ΦA spec0 c := by
  by_cases ht : t.val = 0
  · rw [show (dats m 0 c).Φ t = PhiS m c t.val (Nat.le_of_lt_succ t.isLt) from rfl, PhiS_zero m c _ _ ht]
    try exact Idealize.SL.BI.Entails.refl _
  · exact Phi_out m c t ht

/-! ## The body obligation -/

/-- What the body is called with at point `t`: the invariant, what the core owes, the six windows' current buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks; the closed forms say which of the six cases the
    point is in; that case's run applies. At j = 0 the scratch buffers are handed over at whatever they hold, at
    j > 0 at what the point before left, and they come back at this point's contents (each case's pieces cover
    them). At j < 3 the output buffer goes in and comes back as found; at j = 3 it is taken at anything and comes
    back at the stored losses. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rewrite [show (dats m 0 c).owesAt () t.succ = (dats m 0 c).owesAt () t.castSucc from rfl]
  rewrite [show (dats m 0 c).Φ t.succ = PhiS m c (t.val + 1) t.isLt from rfl, PhiS_succ]
  rewrite [show (dats m 0 c).leavesExact 0 t = owns (c : Thread nD τ) (ms0 t) fullShare ((dats m 0 c).after 0 t) from by
    unfold Dat.leavesExact; rw [liveAt0 t], after0]
  rewrite [show (dats m 0 c).leavesExact 1 t = owns (c : Thread nD τ) (ms1 t) fullShare ((dats m 0 c).after 1 t) from by
    unfold Dat.leavesExact; rw [liveAt1 t], after1]
  rewrite [show (dats m 0 c).leavesExact 2 t = owns (c : Thread nD τ) (ms2 t) fullShare ((dats m 0 c).after 2 t) from by
    unfold Dat.leavesExact; rw [liveAt2 t], after2]
  rewrite [show (dats m 0 c).leavesExact 3 t = owns (c : Thread nD τ) (ms3 t) fullShare ((dats m 0 c).after 3 t) from by
    unfold Dat.leavesExact; rw [liveAt3 t], after3]
  rewrite [show (dats m 0 c).leavesExact 4 t = owns (c : Thread nD τ) (ms4 t) fullShare ((dats m 0 c).after 4 t) from by
    unfold Dat.leavesExact; rw [liveAt4 t], after4]
  have hN : t.val < 32 := lt_of_lt_of_eq t.isLt (show cfg0.N = 32 from N_0)
  by_cases h0 : t.val % 4 = 0
  · have hL : ¬ condLast (grid0.coords t) := fun h => by have := (hcondLast t).mp h; omega
    rewrite [Dat.leavesExact_idle (dats m 0 c) 5 t (idleAt5 t hL) (noFlush5 t hL)]
    refine (sep_mono (Phi_any m c t.castSucc) .rfl).trans ?_
    rewrite [PhiA0_eq]
    by_cases hov : t.val % 4 = t.val / 8
    · -- case A
      rewrite [outsAt0_A m c t h0 hov]
      unfold outA; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((runA m c t h0 hov).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iapply (owns_left c scM0 VS0 _ (coverA0 m c t h0 hov)); iexact HS0
          isplitl [HS1]; · iapply (owns_left c scM1 VS1 _ (coverA1 m c t h0 hov)); iexact HS1
          iapply (owns_left c scM2 VS2 _ (coverA2 m c t h0 hov)); iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · -- case B
      rewrite [outsAt0_B m c t h0 hov]
      unfold outB; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((runB m c t h0 hov).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iapply (owns_left c scM0 VS0 _ (coverB0 m c t h0 hov)); iexact HS0
          isplitl [HS1]; · iapply (owns_left c scM1 VS1 _ (coverB1 m c t h0 hov)); iexact HS1
          iapply (owns_left c scM2 VS2 _ (coverB2 m c t h0 hov)); iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    rewrite [PhiS_before m c t hz]
    by_cases h3 : t.val % 4 = 3
    · have hL : condLast (grid0.coords t) := (hcondLast t).mpr h3
      rewrite [show (dats m 0 c).leavesExact 5 t = owns (c : Thread nD τ) (ms5 t) fullShare ((dats m 0 c).after 5 t) from by
        unfold Dat.leavesExact; rw [liveAt5 t hL], after5]
      by_cases hov : t.val % 4 = t.val / 8
      · -- case E
        rewrite [outsAt0_E m c t h3 hov]
        unfold outE; dsimp only
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((runE m c t h3 hov (prev m c t).2.1 (prev m c t).2.2.1 (prev m c t).2.2.2).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]; · iapply (owns_left c scM0 VS0 _ (coverE0 m c t h3 hov _ _ _)); iexact HS0
            isplitl [HS1]; · iapply (owns_left c scM1 VS1 _ (coverE1 m c t h3 hov _ _ _)); iexact HS1
            iapply (owns_left c scM2 VS2 _ (coverE2 m c t h3 hov _ _ _)); iexact HS2
          iexact Hg
        isplitl [Ho]; · iexact Ho
        isplitl [H0]; · iexact H0
        isplitl [H1]; · iexact H1
        isplitl [H2]; · iexact H2
        isplitl [H3]; · iexact H3
        isplitl [H4]; · iexact H4
        iapply (owns_left c (ms5 t) VO5 _ (coverE5 m c t h3 hov _ _ _)); iexact H5
      · -- case F
        rewrite [outsAt0_F m c t h3 hov]
        unfold outF; dsimp only
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((runF m c t h3 hov (prev m c t).2.1 (prev m c t).2.2.1 (prev m c t).2.2.2).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]; · iapply (owns_left c scM0 VS0 _ (coverF0 m c t h3 hov _ _ _)); iexact HS0
            isplitl [HS1]; · iapply (owns_left c scM1 VS1 _ (coverF1 m c t h3 hov _ _ _)); iexact HS1
            iapply (owns_left c scM2 VS2 _ (coverF2 m c t h3 hov _ _ _)); iexact HS2
          iexact Hg
        isplitl [Ho]; · iexact Ho
        isplitl [H0]; · iexact H0
        isplitl [H1]; · iexact H1
        isplitl [H2]; · iexact H2
        isplitl [H3]; · iexact H3
        isplitl [H4]; · iexact H4
        iapply (owns_left c (ms5 t) VO5 _ (coverF5 m c t h3 hov _ _ _)); iexact H5
    · have hL : ¬ condLast (grid0.coords t) := fun h => h3 ((hcondLast t).mp h)
      rewrite [Dat.leavesExact_idle (dats m 0 c) 5 t (idleAt5 t hL) (noFlush5 t hL)]
      by_cases hov : t.val % 4 = t.val / 8
      · -- case C
        rewrite [outsAt0_C m c t h0 h3 hov]
        unfold outC; dsimp only
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((runC m c t h0 h3 hov (prev m c t).2.1 (prev m c t).2.2.1 (prev m c t).2.2.2).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]; · iapply (owns_left c scM0 VS0 _ (coverC0 m c t h0 h3 hov _ _ _)); iexact HS0
            isplitl [HS1]; · iapply (owns_left c scM1 VS1 _ (coverC1 m c t h0 h3 hov _ _ _)); iexact HS1
            iapply (owns_left c scM2 VS2 _ (coverC2 m c t h0 h3 hov _ _ _)); iexact HS2
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · -- case D
        rewrite [outsAt0_D m c t h0 h3 hov]
        unfold outD; dsimp only
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((runD m c t h0 h3 hov (prev m c t).2.1 (prev m c t).2.2.1 (prev m c t).2.2.2).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]; · iapply (owns_left c scM0 VS0 _ (coverD0 m c t h0 h3 hov _ _ _)); iexact HS0
            isplitl [HS1]; · iapply (owns_left c scM1 VS1 _ (coverD1 m c t h0 h3 hov _ _ _)); iexact HS1
            iapply (owns_left c scM2 VS2 _ (coverD2 m c t h0 h3 hov _ _ _)); iexact HS2
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KI.Base.lean ====
/-
  What the kernel region is entered with. @main is thirty-five host operations (the view-major matrix of the
  features, the two label vectors, and the positive-pair counts gathered per sample), the one kernel region,
  and four more host operations (the mean of the per-row losses). Here: the contents every unscoped buffer
  holds when the region is entered, as a valuation; each window's block of its array at a grid point; and the
  reduction of @main to the region continued by the four later operations.
-/
import proofs.«430023_j72756745994686_3_alg».proof.Proof.Gen.KernelIdeal.Launch
import proofs.«430023_j72756745994686_3_alg».proof.Proof.Gen.KernelIdeal.Skeleton
import proofs.«430023_j72756745994686_3_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the launch contents after the host operations
    that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main reduces to the region continued by the four later operations, the unscoped buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KI.Launch.lean ====
/-
  The launch of the one kernel region, for any proof data of the pipeline. Windows 0 and 1 of the region stage
  the SAME array (the view-major feature matrix, read once as the row tile and once as the column tile), so
  the array's full share is dealt between them in two halves when the region is entered and put together again
  when it is left; the four host operations after the region then run over all unscoped buffers, the output
  array at what the write-backs made of it, and the scalar result is read off the buffer they wrote.
-/
import proofs.«430023_j72756745994686_3_alg».proof.Proof.KI.Base
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The six windows' arrays: five buffers, one of them staged twice -/

/-- The distinct buffers behind the windows' arrays. -/
theorem image_arrRef : Finset.univ.image (Pipeline.arrRef spec0) = ({main_v1, main_v5, main_v6, main_v29, main_v30} : Finset (Ref sig .tc)) := by
  decide

/-- The contents of every unscoped buffer at the region's exit: the output array at `o`, the rest as at entry. -/
abbrev VX (c : Dev nD) (o : Buf (Elt F) ((c : Thread nD τ).loc main_v30)) : Valuation τ sig (Elt F) :=
  Function.update (V0 m c) (Proc.devRef .tc main_v30) o

/-- and after the four later host operations. -/
abbrev VT (c : Dev nD) (o : Buf (Elt F) ((c : Thread nD τ).loc main_v30)) : Valuation τ sig (Elt F) :=
  StableHlo.after hostOps1 (VX m c o)

/-! ## What the host operations leave alone -/

/-- No host operation before the region writes an argument of @main. -/
theorem V_arg0 (c : Dev nD) : V m c main_arg0 = m ((c : Thread nD τ).loc main_arg0) := by
  dsimp only [V, V0]
  simp only [hostOps0, List.flatten_cons, List.flatten_nil, List.append_nil]
  after_results
  try rfl

theorem V_arg1 (c : Dev nD) : V m c main_arg1 = m ((c : Thread nD τ).loc main_arg1) := by
  dsimp only [V, V0]
  simp only [hostOps0, List.flatten_cons, List.flatten_nil, List.append_nil]
  after_results
  try rfl

/-- The four operations after the region write their own four result buffers and nothing else. -/
theorem tail_keeps (W : Valuation τ sig (Elt F)) (b : Ref sig .tc)
    (hb : b ≠ main_cst_3 ∧ b ≠ main_v31 ∧ b ≠ main_cst_4 ∧ b ≠ main_v32) :
    StableHlo.after (hostOps1 (F := F)) W (Proc.devRef .tc b) = W (Proc.devRef .tc b) := by
  obtain ⟨h0, h1, h2, h3⟩ := hb
  refine StableHlo.after_of_forall_not_mem (b := Proc.devRef .tc b) hostOps1 W fun op hop => ?_
  simp only [hostOps1, List.mem_cons, List.mem_nil_iff, or_false] at hop
  rcases hop with rfl | rfl | rfl | rfl <;>
    simp only [StableHlo.nullary_writes, StableHlo.binary_writes, Finset.mem_singleton] <;>
    exact StableHlo.devRef_ne_of_ne ‹_›

/-- They touch TensorCore references that are not scoped, -/
theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

/-- and allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

section Run

variable (dats : (p : Fin 1) → (c : Dev nD) → Dat τ (Elt F) Unit ℕ (UR sig nD τ) ℕ (cfgs p) c)

/-- The share each window holds of its array: the two windows on the shared array half of it each. -/
def shareOf : Fin 6 → PosShare TreeShare
  | ⟨0, _⟩ => fullShare.left
  | ⟨1, _⟩ => fullShare.right
  | ⟨2, _⟩ => fullShare
  | ⟨3, _⟩ => fullShare
  | ⟨4, _⟩ => fullShare
  | ⟨5, _⟩ => fullShare
  | ⟨_ + 6, h⟩ => absurd h (Nat.not_lt.2 (Nat.le_add_left _ _))

theorem share_eq (c : Dev nD)
    (hq0 : (dats 0 c).q 0 = fullShare.left) (hq1 : (dats 0 c).q 1 = fullShare.right)
    (hq2 : (dats 0 c).q 2 = fullShare) (hq3 : (dats 0 c).q 3 = fullShare) (hq4 : (dats 0 c).q 4 = fullShare) :
    ∀ w : Fin cfg0.W, (dats 0 c).share w = shareOf w := by
  intro w
  unfold Dat.share
  match w with
  | ⟨0, _⟩ => exact (if_neg Bool.false_ne_true).trans hq0
  | ⟨1, _⟩ => exact (if_neg Bool.false_ne_true).trans hq1
  | ⟨2, _⟩ => exact (if_neg Bool.false_ne_true).trans hq2
  | ⟨3, _⟩ => exact (if_neg Bool.false_ne_true).trans hq3
  | ⟨4, _⟩ => exact (if_neg Bool.false_ne_true).trans hq4
  | ⟨5, _⟩ => exact if_pos rfl
  | ⟨_ + 6, h⟩ => exact absurd h (Nat.not_lt.2 (Nat.le_add_left _ _))

/-- The windows' arrays, window by window: the shared array at its two halves, the others whole. -/
theorem arrays_six (c : Dev nD)
    (hq0 : (dats 0 c).q 0 = fullShare.left) (hq1 : (dats 0 c).q 1 = fullShare.right)
    (hq2 : (dats 0 c).q 2 = fullShare) (hq3 : (dats 0 c).q 3 = fullShare) (hq4 : (dats 0 c).q 4 = fullShare)
    (Fv : (w : Fin cfg0.W) → Buf (Elt F) ((cfg0.win w).arr.view.loc (c.tc : Thread nD τ))) :
    ((dats 0 c).arrays Fv : sProp 𝕄)
      = iprop((((c.tc : Thread nD τ).loc main_v1) ↦{fullShare.left} Fv 0) ∗ (((c.tc : Thread nD τ).loc main_v1) ↦{fullShare.right} Fv 1)
          ∗ (((c.tc : Thread nD τ).loc main_v5) ↦{fullShare} Fv 2) ∗ (((c.tc : Thread nD τ).loc main_v6) ↦{fullShare} Fv 3)
          ∗ (((c.tc : Thread nD τ).loc main_v29) ↦{fullShare} Fv 4) ∗ (((c.tc : Thread nD τ).loc main_v30) ↦{fullShare} Fv 5)) := by
  have h : ((dats 0 c).arrays Fv : sProp 𝕄)
      = bigSep Finset.univ fun w : Fin 6 => ((((c.tc : Thread nD τ).loc (Pipeline.arrRef spec0 w)) ↦{shareOf w} Fv w : sProp 𝕄)) := by
    unfold Dat.arrays
    exact bigSep_congr fun w _ => by rw [(arr_whole0 w).set_eq_univ, share_eq dats c hq0 hq1 hq2 hq3 hq4 w]
  rw [h, bigSep_W0]
  rfl

/-- The five buffers behind them, each whole. -/
theorem arrBufs_five (c : Dev nD) (Vx : (b : Ref sig .tc) → Buf (Elt F) ((c.tc : Thread nD τ).loc b)) :
    (Pipeline.arrBufs spec0 c Vx : sProp 𝕄)
      = iprop((((c.tc : Thread nD τ).loc main_v1) ↦{fullShare} Vx main_v1)
          ∗ (((c.tc : Thread nD τ).loc main_v5) ↦{fullShare} Vx main_v5) ∗ (((c.tc : Thread nD τ).loc main_v6) ↦{fullShare} Vx main_v6)
          ∗ (((c.tc : Thread nD τ).loc main_v29) ↦{fullShare} Vx main_v29) ∗ (((c.tc : Thread nD τ).loc main_v30) ↦{fullShare} Vx main_v30)) := by
  unfold Pipeline.arrBufs
  rw [image_arrRef]
  exact bigSep_eq_bigSepL_of_eq [main_v1, main_v5, main_v6, main_v29, main_v30] (by decide) (by decide) _

/-- Dealing the five buffers among the six windows: the shared array's full share in two halves, -/
theorem arrays_of_bufs (c : Dev nD)
    (hq0 : (dats 0 c).q 0 = fullShare.left) (hq1 : (dats 0 c).q 1 = fullShare.right)
    (hq2 : (dats 0 c).q 2 = fullShare) (hq3 : (dats 0 c).q 3 = fullShare) (hq4 : (dats 0 c).q 4 = fullShare)
    (Vx : (b : Ref sig .tc) → Buf (Elt F) ((c.tc : Thread nD τ).loc b)) :
    (Pipeline.arrBufs spec0 c Vx : sProp 𝕄) ⊢ (dats 0 c).arrays (fun w => Vx (Pipeline.arrRef spec0 w)) := by
  rw [arrBufs_five, arrays_six dats c hq0 hq1 hq2 hq3 hq4]
  iintro ⟨H1, H⟩
  ihave H1' := (pointsTo_share (PosShare.mem_left_op_right fullShare)).1 $$ H1
  icases H1' with ⟨Ha, Hb⟩
  isplitl [Ha]; · iexact Ha
  isplitl [Hb]; · iexact Hb
  iexact H

/-- and putting the two halves together again. -/
theorem bufs_of_arrays (c : Dev nD)
    (hq0 : (dats 0 c).q 0 = fullShare.left) (hq1 : (dats 0 c).q 1 = fullShare.right)
    (hq2 : (dats 0 c).q 2 = fullShare) (hq3 : (dats 0 c).q 3 = fullShare) (hq4 : (dats 0 c).q 4 = fullShare)
    (Vx : (b : Ref sig .tc) → Buf (Elt F) ((c.tc : Thread nD τ).loc b)) :
    (dats 0 c).arrays (fun w => Vx (Pipeline.arrRef spec0 w)) ⊢ (Pipeline.arrBufs spec0 c Vx : sProp 𝕄) := by
  rw [arrBufs_five, arrays_six dats c hq0 hq1 hq2 hq3 hq4]
  iintro ⟨Ha, Hb, H⟩
  isplitl [Ha Hb]
  · iapply (pointsTo_share (PosShare.mem_left_op_right fullShare)).2
    isplitl [Ha]; · iexact Ha
    iexact Hb
  iexact H

end Run

section OutArr
variable (dats : (p : Fin 1) → (c : Dev nD) → Dat τ (Elt F) Unit ℕ (UR sig nD τ) ℕ (cfgs p) c)
/-- The output array after the region. -/
abbrev outArr (c : Dev nD) : Buf (Elt F) ((c : Thread nD τ).loc main_v30) := (dats 0 c).arrAt 5 cfg0.N
end OutArr

/-! ## Around the four later host operations -/

section Exit

variable (dats : (p : Fin 1) → (c : Dev nD) → Dat τ (Elt F) Unit ℕ (UR sig nD τ) ℕ (cfgs p) c)
variable (c : Dev nD)
  (hA : ∀ w, (dats 0 c).A w = V m c (Pipeline.arrRef spec0 w))
  (hq0 : (dats 0 c).q 0 = fullShare.left) (hq1 : (dats 0 c).q 1 = fullShare.right)
  (hq2 : (dats 0 c).q 2 = fullShare) (hq3 : (dats 0 c).q 3 = fullShare) (hq4 : (dats 0 c).q 4 = fullShare)

/-- The exit valuation read at TensorCore references. -/
abbrev VXr (b : Ref sig .tc) : Buf (Elt F) ((c.tc : Thread nD τ).loc b) := VX m c (outArr dats c) (Proc.devRef .tc b)
/-- and the valuation after the later operations. -/
abbrev VTr (b : Ref sig .tc) : Buf (Elt F) ((c.tc : Thread nD τ).loc b) := VT m c (outArr dats c) (Proc.devRef .tc b)

/-- A buffer other than the output array holds at the exit what it held at the entry. -/
theorem VXr_of_ne (b : Ref sig .tc) (hb : b ≠ main_v30) : VXr m dats c b = V m c b :=
  Function.update_of_ne (StableHlo.devRef_ne_of_ne hb) _ _

include hA in
/-- Every window's array after the region is the exit valuation at its buffer: an input array is never written,
    the output array is what the write-backs made of it. -/
theorem arrAt_exit : (fun w : Fin cfg0.W => (dats 0 c).arrAt w cfg0.N) = fun w => VXr m dats c (Pipeline.arrRef spec0 w) := by
  funext w
  match w with
  | ⟨0, _⟩ => exact ((dats 0 c).arrAt_in 0 rfl _).trans ((hA 0).trans (VXr_of_ne m dats c _ (by decide)).symm)
  | ⟨1, _⟩ => exact ((dats 0 c).arrAt_in 1 rfl _).trans ((hA 1).trans (VXr_of_ne m dats c _ (by decide)).symm)
  | ⟨2, _⟩ => exact ((dats 0 c).arrAt_in 2 rfl _).trans ((hA 2).trans (VXr_of_ne m dats c _ (by decide)).symm)
  | ⟨3, _⟩ => exact ((dats 0 c).arrAt_in 3 rfl _).trans ((hA 3).trans (VXr_of_ne m dats c _ (by decide)).symm)
  | ⟨4, _⟩ => exact ((dats 0 c).arrAt_in 4 rfl _).trans ((hA 4).trans (VXr_of_ne m dats c _ (by decide)).symm)
  | ⟨5, _⟩ => exact (Function.update_self (Proc.devRef (τ := τ) .tc main_v30) (outArr dats c) (V0 m c)).symm
  | ⟨_ + 6, h⟩ => exact absurd h (Nat.not_lt.2 (Nat.le_add_left _ _))

/-- The later operations write no window's array. -/
theorem VTr_arr (w : Fin cfg0.W) : VTr m dats c (Pipeline.arrRef spec0 w) = VXr m dats c (Pipeline.arrRef spec0 w) := by
  match w with
  | ⟨0, _⟩ => exact tail_keeps _ main_v1 (by decide)
  | ⟨1, _⟩ => exact tail_keeps _ main_v1 (by decide)
  | ⟨2, _⟩ => exact tail_keeps _ main_v5 (by decide)
  | ⟨3, _⟩ => exact tail_keeps _ main_v6 (by decide)
  | ⟨4, _⟩ => exact tail_keeps _ main_v29 (by decide)
  | ⟨5, _⟩ => exact tail_keeps _ main_v30 (by decide)
  | ⟨_ + 6, h⟩ => exact absurd h (Nat.not_lt.2 (Nat.le_add_left _ _))

/-- The buffers that bypass the region are at the exit as at the entry. -/
theorem rest_exit : (Pipeline.unscopedRest spec0 c (V m c) : sProp 𝕄) = Pipeline.unscopedRest spec0 c (VXr m dats c) := by
  unfold Pipeline.unscopedRest
  exact bigSep_congr fun b hb => by
    have hne : b ≠ main_v30 := fun e => (Finset.mem_sdiff.mp hb).2 (e ▸ Finset.mem_image.mpr ⟨5, Finset.mem_univ _, rfl⟩)
    rw [VXr_of_ne m dats c b hne]

include hA hq0 hq1 hq2 hq3 hq4 in
/-- FROM THE EXIT: the windows' arrays at their final contents and the bypassing buffers make every unscoped buffer
    held whole at the exit valuation. -/
theorem exit_held :
    iprop((dats 0 c).arrays ((dats 0 c).arrAt · cfg0.N) ∗ Pipeline.unscopedRestP Pipeline.Prefetch.none spec0 c (V m c))
      ⊢ (StableHlo.held (c.tc : Thread nD τ) (Pipeline.ucRefs τ sig) (VX m c (outArr dats c)) : sProp 𝕄) := by
  rw [show ((dats 0 c).arrAt · cfg0.N) = fun w => VXr m dats c (Pipeline.arrRef spec0 w) from arrAt_exit m dats c hA,
    Pipeline.unscopedRestP_none, rest_exit m dats c,
    ← Pipeline.unscopedBufs_held (Ix := Unit) (Name := ℕ) (U := UR sig nD τ) (Lvl := ℕ) c (VX m c (outArr dats c)),
    Pipeline.unscopedBufs_split₀ cfgs 0 winFacts₀0.arr_unscoped c]
  exact sep_mono (bufs_of_arrays dats c hq0 hq1 hq2 hq3 hq4 (VXr m dats c)) .rfl

include hA hq0 hq1 hq2 hq3 hq4 in
/-- BACK: after the later operations the same buffers are the windows' arrays, still at their final contents, and
    the bypassing buffers at what the operations left. -/
theorem held_exit :
    (StableHlo.held (c.tc : Thread nD τ) (Pipeline.ucRefs τ sig) (VT m c (outArr dats c)) : sProp 𝕄)
      ⊢ iprop((dats 0 c).arrays ((dats 0 c).arrAt · cfg0.N) ∗ Pipeline.unscopedRestP Pipeline.Prefetch.none spec0 c (VTr m dats c)) := by
  rw [show ((dats 0 c).arrAt · cfg0.N) = fun w => VTr m dats c (Pipeline.arrRef spec0 w) from
      (arrAt_exit m dats c hA).trans (funext fun w => (VTr_arr m dats c w).symm),
    Pipeline.unscopedRestP_none,
    ← Pipeline.unscopedBufs_held (Ix := Unit) (Name := ℕ) (U := UR sig nD τ) (Lvl := ℕ) c (VT m c (outArr dats c)),
    Pipeline.unscopedBufs_split₀ cfgs 0 winFacts₀0.arr_unscoped c]
  exact sep_mono (arrays_of_bufs dats c hq0 hq1 hq2 hq3 hq4 (VTr m dats c)) .rfl

end Exit

section Run

variable (dats : (p : Fin 1) → (c : Dev nD) → Dat τ (Elt F) Unit ℕ (UR sig nD τ) ℕ (cfgs p) c)

-- the launch theorem's implicit arguments are found by unifying its conclusion with this one, which takes unfolding
-- plain definitions in a metavariable's type
set_option backward.isDefEq.respectTransparency.types false in
/-- THE RUN. For any proof data of the pipeline whose arrays are the region-entry contents, whose two windows on the
    shared array hold half of it each, which owes nothing and whose invariant starts from and returns to the scoped rest
    with the generator register: every weakly fair execution of @main terminates, the scalar result is what the four
    later host operations compute from the output array the write-backs leave, and the arguments end as launched. -/
theorem run_of
    (hA : ∀ c w, (dats 0 c).A w = V m c (Pipeline.arrRef spec0 w))
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare) (hq4 : ∀ c, (dats 0 c).q 4 = fullShare)
    (howed : ∀ c t, (dats 0 c).owed t = 0)
    (hbody : ∀ c, BodyObligationLoose (dats 0 c) (defs₀ (F := F)) Variants.none () Set.univ)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      r.2.mem ((c.tc : Thread nD τ).loc main_v32) = VT m c (outArr dats c) (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) dats () cellOf_inj 0 winFacts₀0
    (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_of_bufs dats c (hq0 c) (hq1 c) (hq2 c) (hq3 c) (hq4 c) (V m c)).trans
      (Entails.of_eq (congrArg (dats 0 c).arrays (funext fun w => (hA c w).symm))))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => VT m c (outArr dats c) (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => by
      rw [show Pipeline.chain [StableHlo.seq hostOps1]
          = Pipeline.chain (([hostOps1] : List (List (HloOp τ sig (Elt F)))).map StableHlo.seq ++ []) from rfl]
      iintro ⟨Hk, Hb, Ha, HZ⟩
      ihave Hh := (exit_held m dats c (hA c) (hq0 c) (hq1 c) (hq2 c) (hq3 c) (hq4 c)) $$ [Ha HZ]
      · isplitl [Ha] <;> iassumption
      iapply (Pipeline.wp_seqs_then (fun q => (cfgs q).toPCfg (Val := Elt F)) defs₀ Variants.none c (Pipeline.ucRefs τ sig) [] [hostOps1]
        tail_sub tail_fresh (VX m c (outArr dats c))) $$ [Hb Hh]
      · isplitl [Hb] <;> iassumption
      iintro ⟨-, Hh⟩
      rw [Pipeline.chain_nil, wp_pure]
      imodintro
      iapply Hk
      iapply (held_exit m dats c (hA c) (hq0 c) (hq1 c) (hq2 c) (hq3 c) (hq4 c))
      iexact Hh)
    (QY := fun c s => ∀ b ∈ Pipeline.restRefsP sig Pipeline.Prefetch.none spec0, s.mem ((c.tc : Thread nD τ).loc b) = VT m c (outArr dats c) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => VT m c (outArr dats c) (Proc.devRef .tc b)) s')
      isplitl [HU] <;> iassumption)
    (hQ := fun s h c => ⟨(h c).2.2 main_v32 (by decide),
      ((h c).2.2 main_arg0 (by decide)).trans ((tail_keeps _ main_arg0 (by decide)).trans ((VXr_of_ne m dats c main_arg0 (by decide)).trans (V_arg0 m c))),
      ((h c).2.2 main_arg1 (by decide)).trans ((tail_keeps _ main_arg1 (by decide)).trans ((VXr_of_ne m dats c main_arg1 (by decide)).trans (V_arg1 m c)))⟩)

end Run

end Cert.KernelIdeal.Hand

end
-- ==== Proof.KI.Runs.lean ====
/- The kernel body's control over the grid 8 x 4, and what its runs are stated over.

   Point t of the grid has row tile i = t / 4 and column tile j = t % 4. The body tests four conditions on
   (i, j): j = 0 (the three running statistics are reset), the column tile [2048 j, 2048 (j+1)) meets the row
   tile [1024 i, 1024 (i+1)) (the diagonal entries are masked out of the sums), its negation, and j = 3 (the
   row losses are computed and stored). Here: the four conditions in the spelling the body tests them in,
   their closed forms over the grid, where the output window is idle and where it is written back, names for
   the memrefs the body is called on at a point, and the shape of the invariant carried between points (the
   three scratch buffers at some contents and the generator register). -/
import proofs.«430023_j72756745994686_3_alg».proof.Proof.Gen.KernelIdeal.Launch
import proofs.«430023_j72756745994686_3_alg».proof.Proof.Gen.KernelIdeal.Skeleton
import proofs.«430023_j72756745994686_3_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! ## The body's four conditions -/

/-- The overlap bit: the row tile [1024 i, 1024 (i+1)) and the column tile [2048 j, 2048 (j+1)) meet,
    i.e. 1024 i < 2048 (j+1) and 2048 j < 1024 (i+1), as the body computes it from the coordinates. -/
abbrev ovBit (i : grid0.Coords) : BitVec 1 :=
  Scalar.andi
    (Scalar.cmpi .slt (Scalar.muli (BitVec.ofNat 32 (i 0).val) 1024#32)
      (Scalar.addi (Scalar.muli (BitVec.ofNat 32 (i 1).val) 2048#32) 2048#32))
    (Scalar.cmpi .slt (Scalar.muli (BitVec.ofNat 32 (i 1).val) 2048#32)
      (Scalar.addi (Scalar.muli (BitVec.ofNat 32 (i 0).val) 1024#32) 1024#32))

/-- j = 0: the first column tile of a row tile (the running statistics are reset). -/
abbrev condFirst (i : grid0.Coords) : Prop :=
  (Scalar.cmpi .ne (Scalar.extui (Scalar.cmpi .eq (BitVec.ofNat 32 (i 1).val) 0#32)) 0#32) = 1#1
/-- The tile meets the diagonal (masked accumulation). -/
abbrev condOv (i : grid0.Coords) : Prop :=
  (Scalar.cmpi .ne (Scalar.extui (ovBit i)) 0#32) = 1#1
/-- The tile does not meet the diagonal (plain accumulation): the overlap bit flipped. -/
abbrev condNov (i : grid0.Coords) : Prop :=
  (Scalar.cmpi .ne (Scalar.extui (Scalar.xori (ovBit i) 1#1)) 0#32) = 1#1
/-- j = 3: the last column tile of a row tile (the losses are stored). -/
abbrev condLast (i : grid0.Coords) : Prop := k0_cond4 i = 1#1

theorem hcondFirst : ∀ t : Fin cfg0.N, condFirst (grid0.coords t) ↔ t.val % 4 = 0 :=
  (by decide +kernel : ∀ t : Fin grid0.N, condFirst (grid0.coords t) ↔ t.val % 4 = 0)
theorem hcondLast : ∀ t : Fin cfg0.N, condLast (grid0.coords t) ↔ t.val % 4 = 3 :=
  (by decide +kernel : ∀ t : Fin grid0.N, condLast (grid0.coords t) ↔ t.val % 4 = 3)
/-- Overlap iff j = i / 2; with i = t / 4 and j = t % 4 that is t % 4 = t / 8. -/
theorem hcondOv : ∀ t : Fin cfg0.N, condOv (grid0.coords t) ↔ t.val % 4 = t.val / 8 :=
  (by decide +kernel : ∀ t : Fin grid0.N, condOv (grid0.coords t) ↔ t.val % 4 = t.val / 8)
theorem hcondNov : ∀ t : Fin cfg0.N, condNov (grid0.coords t) ↔ ¬ condOv (grid0.coords t) :=
  (by decide +kernel : ∀ t : Fin grid0.N, condNov (grid0.coords t) ↔ ¬ condOv (grid0.coords t))
theorem hcondNov' : ∀ t : Fin cfg0.N, condNov (grid0.coords t) ↔ t.val % 4 ≠ t.val / 8 :=
  fun t => (hcondNov t).trans (not_congr (hcondOv t))

/-! ## Where the windows are idle, where the output is written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
/-- The output window is idle exactly at the points that are not a row tile's last. -/
theorem idleAt5 : ∀ t : Fin cfg0.N, ¬ condLast (grid0.coords t) → cfg0.idle 5 (grid0.coords t) = true := by decide +kernel
theorem liveAt5 : ∀ t : Fin cfg0.N, condLast (grid0.coords t) → cfg0.idle 5 (grid0.coords t) = false := by decide +kernel
theorem idle5_iff : ∀ t : Fin cfg0.N, cfg0.idle 5 (grid0.coords t) = true ↔ ¬ condLast (grid0.coords t) := by decide +kernel
/-- It is written back exactly there. -/
theorem flush5_iff : ∀ t : Fin cfg0.N, (cfg0.win 5).flush t = true ↔ condLast (grid0.coords t) :=
  fun t => (flush0_5 t).trans (hcondLast t).symm
theorem noFlush5 : ∀ t : Fin cfg0.N, ¬ condLast (grid0.coords t) → (cfg0.win 5).flush t = false := by decide +kernel
theorem flush5 : ∀ t : Fin cfg0.N, condLast (grid0.coords t) → (cfg0.win 5).flush t = true := by decide +kernel

/-! ## The memrefs the body is called on at a point -/

abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
/-- The three scratch operands: the running row maximum, the running sum of exponentials, the running sum of
    the positive pairs' logits. -/
abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2
abbrev hscM0 : (scM0).IsWhole := Memref.isWhole_whole _
abbrev hscM1 : (scM1).IsWhole := Memref.isWhole_whole _
abbrev hscM2 : (scM2).IsWhole := Memref.isWhole_whole _

/-- The body at point t is the kernel function on these memrefs. -/
theorem bodyAt0_eq (t : Fin cfg0.N) :
    bodyAt0 (F := F) t = cc0__supcon_kernel (grid0.coords t) (ms0 t) (hs0 t) (ms1 t) (hs1 t) (ms2 t) (hs2 t) (ms3 t) (hs3 t)
      (ms4 t) (hs4 t) (ms5 t) (hs5 t) scM0 hscM0 scM1 hscM1 scM2 hscM2 := rfl

/-- One staging buffer of the output window, and the scratch buffers, as views through which contents are stated. -/
abbrev VO5 : View sig .tc .vmem S1024x1 .f32 := (Memref.whole cc0_stg5_0 : Memref sig .tc .vmem S1024x1 .f32).view
abbrev VS0 : View sig .tc .vmem S1024x1 .f32 := scM0.view
abbrev VS1 : View sig .tc .vmem S1024x1 .f32 := scM1.view
abbrev VS2 : View sig .tc .vmem S1024x1 .f32 := scM2.view

/-! ## The invariant carried between points -/

/-- The pipeline's invariant is the three scratch buffers, each owned whole at some contents, and the
    generator register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

end Cert.KernelIdeal.Hand

end
-- ==== Proof.KI.RunA.lean ====
/- The kernel body run at a point of the first column tile (j = 0) that meets the diagonal.

   There the three running statistics are first reset (maximum to minus infinity, the two sums to zero), the
   row tile's logits against the column tile are formed, the maximum is raised, the sum of exponentials is
   rescaled and increased by the tile's exponentials with the diagonal entries masked out, the positive-pair
   logit sum is increased likewise, and the new maximum is kept. Nothing is stored into the output block. -/
import proofs.«430023_j72756745994686_3_alg».proof.Proof.KI.Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case A (j = 0, the tile meets the diagonal): on whole memrefs, the five input blocks at their contents
    x0 … x4, the output buffer at xi5, the three scratch buffers at anything (they are reset before they are
    read), the body runs to a continuation that holds the inputs and the output buffer as they were and each
    scratch buffer with the listed pieces written (last store first): LS0 in the running maximum, LS1 in the
    running sum of exponentials, LS2 in the running positive-logit sum. -/
noncomputable def kernelRun0_A (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : condFirst i) (hc2 : condOv i) (hc3 : ¬ condNov i) (hc4 : ¬ condLast i)
    (x0 : Vec F S1024x128 .f32) (x1 : Vec F S2048x128 .f32) (x2 : Vec F S1024x1 .i32) (x3 : Vec F S1x2048 .i32) (x4 : Vec F S1024x1 .f32) :
    Σ' (LS0 : List (View.Piece (Elt F) S1024x1 .f32)) (LS1 : List (View.Piece (Elt F) S1024x1 .f32)), { LS2 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KI.RunB.lean ====
/- The kernel body run at a point of the first column tile (j = 0) that does not meet the diagonal.

   The three running statistics are reset, then updated by the tile with no entry masked out. Nothing is stored
   into the output block. -/
import proofs.«430023_j72756745994686_3_alg».proof.Proof.KI.RunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case B (j = 0, the tile does not meet the diagonal): as case A, the accumulation unmasked. -/
noncomputable def kernelRun0_B (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : condFirst i) (hc2 : ¬ condOv i) (hc3 : condNov i) (hc4 : ¬ condLast i)
    (x0 : Vec F S1024x128 .f32) (x1 : Vec F S2048x128 .f32) (x2 : Vec F S1024x1 .i32) (x3 : Vec F S1x2048 .i32) (x4 : Vec F S1024x1 .f32) :
    Σ' (LS0 : List (View.Piece (Elt F) S1024x1 .f32)) (LS1 : List (View.Piece (Elt F) S1024x1 .f32)), { LS2 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KI.RunC.lean ====
/- The kernel body run at a point of an inner column tile (j = 1 or 2) that meets the diagonal.

   The running statistics are those the point before left; they are updated by the tile with the diagonal
   entries masked out. Nothing is stored into the output block. -/
import proofs.«430023_j72756745994686_3_alg».proof.Proof.KI.RunB

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case C (j = 1 or 2, the tile meets the diagonal): on whole memrefs, the five input blocks at x0 … x4, the
    output buffer at xi5, the three scratch buffers at the contents xs0, xs1, xs2 the point before left, the
    body runs to a continuation that holds the inputs and the output buffer as they were and each scratch
    buffer with the listed pieces written (last store first). -/
noncomputable def kernelRun0_C (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : ¬ condFirst i) (hc2 : condOv i) (hc3 : ¬ condNov i) (hc4 : ¬ condLast i)
    (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KI.RunD.lean ====
/- The kernel body run at a point of an inner column tile (j = 1 or 2) that does not meet the diagonal.

   The running statistics the point before left are updated by the tile with no entry masked out. Nothing is
   stored into the output block. -/
import proofs.«430023_j72756745994686_3_alg».proof.Proof.KI.RunC

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case D (j = 1 or 2, the tile does not meet the diagonal): as case C, the accumulation unmasked. -/
noncomputable def kernelRun0_D (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : ¬ condFirst i) (hc2 : ¬ condOv i) (hc3 : condNov i) (hc4 : ¬ condLast i)
    (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KI.RunE.lean ====
/- The kernel body run at a point of the last column tile (j = 3) that meets the diagonal.

   The running statistics the point before left are updated by the tile with the diagonal entries masked out;
   then the row losses are formed from the final statistics and the positive counts, and stored as the output
   block. -/
import proofs.«430023_j72756745994686_3_alg».proof.Proof.KI.RunD

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case E (j = 3, the tile meets the diagonal): on whole memrefs, the five input blocks at x0 … x4, the output
    buffer at anything, the three scratch buffers at the contents xs0, xs1, xs2 the point before left, the body
    runs to a continuation that holds the inputs as they were, the output buffer with the pieces L5 written and
    each scratch buffer with the listed pieces written (last store first). -/
noncomputable def kernelRun0_E (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : ¬ condFirst i) (hc2 : condOv i) (hc3 : ¬ condNov i) (hc4 : condLast i)
    (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    Σ' (L5 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.KI.RunF.lean ====
/- The kernel body run at a point of the last column tile (j = 3) that does not meet the diagonal.

   The running statistics the point before left are updated by the tile with no entry masked out; then the row
   losses are formed and stored as the output block. -/
import proofs.«430023_j72756745994686_3_alg».proof.Proof.KI.RunE

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case F (j = 3, the tile does not meet the diagonal): as case E, the accumulation unmasked. -/
noncomputable def kernelRun0_F (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : ¬ condFirst i) (hc2 : ¬ condOv i) (hc3 : condNov i) (hc4 : condLast i)
    (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    Σ' (L5 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.KI.Data.lean ====
/- What the kernel region's buffers hold point by point, the pipeline's proof data, and the body obligation.

   The grid is 8 x 4: point t has row tile i = t / 4 and column tile j = t % 4. Three scratch buffers (the
   running row maximum, the running sum of exponentials, the running sum of the positive pairs' logits) are
   carried from point to point: reset at j = 0, updated at every point, consumed at j = 3, where the row
   losses are stored into the output block, which is written back there and only there. Six control cases
   (j = 0, 0 < j < 3, j = 3; each with the tile meeting the diagonal or not) have one whole-body run each.
   Here: each run taken at a grid point; what the output block and the three scratch buffers hold after every
   point, by recursion on the point; the invariant between points (the scratch buffers at those contents);
   the proof data (windows 0 and 1 stage one array and hold half of it each); every input's staging buffer
   holds its block at every point; and the body obligation, case by case. -/
import proofs.«430023_j72756745994686_3_alg».proof.Proof.KI.RunF
import proofs.«430023_j72756745994686_3_alg».proof.Proof.KI.Base
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## What a list of writes leaves in a buffer -/

/-- What a list of writes (last write first) leaves in a buffer of 1024 x 1 words, read through the view `V`
    over arbitrary prior contents. When the writes cover the buffer neither the view nor the prior contents
    matter. -/
def left (V : View sig .tc .vmem S1024x1 .f32) (L : List (View.Piece (Elt F) S1024x1 .f32)) : Vec F S1024x1 .f32 :=
  V.read (Elt F) (V.writes (Elt F) V.junk L)

/-- A whole buffer into which a covering list of writes has gone is owned at what the list leaves. -/
theorem owns_left (c : Dev nD) (M : Memref sig .tc .vmem S1024x1 .f32) (V : View sig .tc .vmem S1024x1 .f32)
    (L : List (View.Piece (Elt F) S1024x1 .f32)) (hcov : ∀ y : S1024x1.Idx, ∃ p ∈ L, y ∈ p.1.set) :
    (iprop(∃ f, M.view.loc (c : Thread nD τ) ↦[M.view.set]{fullShare} M.view.writes (Elt F) f L) : sProp 𝕄)
      ⊢ owns (c : Thread nD τ) M fullShare (left V L) := by
  iintro ⟨%f, H⟩
  unfold owns left; iexists _; isplitr
  swap; · iexact H
  ipureintro; exact View.read_writes_of_cover _ _ _ _ _ hcov

/-! ## Each case's run at a grid point

The run of a case at point `t`: on the current staging buffers of the six windows and the three scratch buffers,
the five inputs at their blocks, the case's conditions from their closed forms at `t`. -/

/-- Case A at `t`: j = 0, the tile meets the diagonal. -/
def runA (c : Dev nD) (t : Fin cfg0.N) (h0 : t.val % 4 = 0) (hov : t.val % 4 = t.val / 8) :=
  kernelRun0_A (F := F) c (grid0.coords t) (ms0 t) (hs0 t) (ms1 t) (hs1 t) (ms2 t) (hs2 t) (ms3 t) (hs3 t) (ms4 t) (hs4 t) (ms5 t) (hs5 t)
    scM0 hscM0 scM1 hscM1 scM2 hscM2
    ((hcondFirst t).mpr h0) ((hcondOv t).mpr hov) (fun h => (hcondNov' t).mp h hov) (fun h => by have := (hcondLast t).mp h; omega)
    (iblk m c 0 t) (iblk m c 1 t) (iblk m c 2 t) (iblk m c 3 t) (iblk m c 4 t)

/-- Case B at `t`: j = 0, the tile misses the diagonal. -/
def runB (c : Dev nD) (t : Fin cfg0.N) (h0 : t.val % 4 = 0) (hnov : ¬ t.val % 4 = t.val / 8) :=
  kernelRun0_B (F := F) c (grid0.coords t) (ms0 t) (hs0 t) (ms1 t) (hs1 t) (ms2 t) (hs2 t) (ms3 t) (hs3 t) (ms4 t) (hs4 t) (ms5 t) (hs5 t)
    scM0 hscM0 scM1 hscM1 scM2 hscM2
    ((hcondFirst t).mpr h0) (fun h => hnov ((hcondOv t).mp h)) ((hcondNov' t).mpr hnov) (fun h => by have := (hcondLast t).mp h; omega)
    (iblk m c 0 t) (iblk m c 1 t) (iblk m c 2 t) (iblk m c 3 t) (iblk m c 4 t)

/-- Case C at `t`: 0 < j < 3, the tile meets the diagonal; the scratch buffers at `xs0`, `xs1`, `xs2`. -/
def runC (c : Dev nD) (t : Fin cfg0.N) (h0 : ¬ t.val % 4 = 0) (h3 : ¬ t.val % 4 = 3) (hov : t.val % 4 = t.val / 8)
    (xs0 xs1 xs2 : Vec F S1024x1 .f32) :=
  kernelRun0_C (F := F) c (grid0.coords t) (ms0 t) (hs0 t) (ms1 t) (hs1 t) (ms2 t) (hs2 t) (ms3 t) (hs3 t) (ms4 t) (hs4 t) (ms5 t) (hs5 t)
    scM0 hscM0 scM1 hscM1 scM2 hscM2
    (fun h => h0 ((hcondFirst t).mp h)) ((hcondOv t).mpr hov) (fun h => (hcondNov' t).mp h hov) (fun h => h3 ((hcondLast t).mp h))
    (iblk m c 0 t) (iblk m c 1 t) (iblk m c 2 t) (iblk m c 3 t) (iblk m c 4 t) xs0 xs1 xs2

/-- Case D at `t`: 0 < j < 3, the tile misses the diagonal. -/
def runD (c : Dev nD) (t : Fin cfg0.N) (h0 : ¬ t.val % 4 = 0) (h3 : ¬ t.val % 4 = 3) (hnov : ¬ t.val % 4 = t.val / 8)
    (xs0 xs1 xs2 : Vec F S1024x1 .f32) :=
  kernelRun0_D (F := F) c (grid0.coords t) (ms0 t) (hs0 t) (ms1 t) (hs1 t) (ms2 t) (hs2 t) (ms3 t) (hs3 t) (ms4 t) (hs4 t) (ms5 t) (hs5 t)
    scM0 hscM0 scM1 hscM1 scM2 hscM2
    (fun h => h0 ((hcondFirst t).mp h)) (fun h => hnov ((hcondOv t).mp h)) ((hcondNov' t).mpr hnov) (fun h => h3 ((hcondLast t).mp h))
    (iblk m c 0 t) (iblk m c 1 t) (iblk m c 2 t) (iblk m c 3 t) (iblk m c 4 t) xs0 xs1 xs2

/-- Case E at `t`: j = 3, the tile meets the diagonal. -/
def runE (c : Dev nD) (t : Fin cfg0.N) (h3 : t.val % 4 = 3) (hov : t.val % 4 = t.val / 8)
    (xs0 xs1 xs2 : Vec F S1024x1 .f32) :=
  kernelRun0_E (F := F) c (grid0.coords t) (ms0 t) (hs0 t) (ms1 t) (hs1 t) (ms2 t) (hs2 t) (ms3 t) (hs3 t) (ms4 t) (hs4 t) (ms5 t) (hs5 t)
    scM0 hscM0 scM1 hscM1 scM2 hscM2
    (fun h => by have := (hcondFirst t).mp h; omega) ((hcondOv t).mpr hov) (fun h => (hcondNov' t).mp h hov) ((hcondLast t).mpr h3)
    (iblk m c 0 t) (iblk m c 1 t) (iblk m c 2 t) (iblk m c 3 t) (iblk m c 4 t) xs0 xs1 xs2

/-- Case F at `t`: j = 3, the tile misses the diagonal. -/
def runF (c : Dev nD) (t : Fin cfg0.N) (h3 : t.val % 4 = 3) (hnov : ¬ t.val % 4 = t.val / 8)
    (xs0 xs1 xs2 : Vec F S1024x1 .f32) :=
  kernelRun0_F (F := F) c (grid0.coords t) (ms0 t) (hs0 t) (ms1 t) (hs1 t) (ms2 t) (hs2 t) (ms3 t) (hs3 t) (ms4 t) (hs4 t) (ms5 t) (hs5 t)
    scM0 hscM0 scM1 hscM1 scM2 hscM2
    (fun h => by have := (hcondFirst t).mp h; omega) (fun h => hnov ((hcondOv t).mp h)) ((hcondNov' t).mpr hnov) ((hcondLast t).mpr h3)
    (iblk m c 0 t) (iblk m c 1 t) (iblk m c 2 t) (iblk m c 3 t) (iblk m c 4 t) xs0 xs1 xs2

/-! ## The pieces each case stores cover the buffers

Every case stores each of the three scratch buffers whole (the reset and the update at j = 0, the update
elsewhere), and the cases at j = 3 store the output block whole: each list of pieces tiles its buffer. -/

theorem coverA0 (c : Dev nD) (t : Fin cfg0.N) (h0 : t.val % 4 = 0) (hov : t.val % 4 = t.val / 8) (y : S1024x1.Idx) :
    ∃ pc ∈ (runA m c t h0 hov).1, y ∈ pc.1.set :=
  View.cover_of_tiledL (runA m c t h0 hov).1 S1024x1.size (by sl_kernel_rfl) y
theorem coverA1 (c : Dev nD) (t : Fin cfg0.N) (h0 : t.val % 4 = 0) (hov : t.val % 4 = t.val / 8) (y : S1024x1.Idx) :
    ∃ pc ∈ (runA m c t h0 hov).2.1, y ∈ pc.1.set :=
  View.cover_of_tiledL (runA m c t h0 hov).2.1 S1024x1.size (by sl_kernel_rfl) y
theorem coverA2 (c : Dev nD) (t : Fin cfg0.N) (h0 : t.val % 4 = 0) (hov : t.val % 4 = t.val / 8) (y : S1024x1.Idx) :
    ∃ pc ∈ (runA m c t h0 hov).2.2.1, y ∈ pc.1.set :=
  View.cover_of_tiledL (runA m c t h0 hov).2.2.1 S1024x1.size (by sl_kernel_rfl) y

theorem coverB0 (c : Dev nD) (t : Fin cfg0.N) (h0 : t.val % 4 = 0) (hnov : ¬ t.val % 4 = t.val / 8) (y : S1024x1.Idx) :
    ∃ pc ∈ (runB m c t h0 hnov).1, y ∈ pc.1.set :=
  View.cover_of_tiledL (runB m c t h0 hnov).1 S1024x1.size (by sl_kernel_rfl) y
theorem coverB1 (c : Dev nD) (t : Fin cfg0.N) (h0 : t.val % 4 = 0) (hnov : ¬ t.val % 4 = t.val / 8) (y : S1024x1.Idx) :
    ∃ pc ∈ (runB m c t h0 hnov).2.1, y ∈ pc.1.set :=
  View.cover_of_tiledL (runB m c t h0 hnov).2.1 S1024x1.size (by sl_kernel_rfl) y
theorem coverB2 (c : Dev nD) (t : Fin cfg0.N) (h0 : t.val % 4 = 0) (hnov : ¬ t.val % 4 = t.val / 8) (y : S1024x1.Idx) :
    ∃ pc ∈ (runB m c t h0 hnov).2.2.1, y ∈ pc.1.set :=
  View.cover_of_tiledL (runB m c t h0 hnov).2.2.1 S1024x1.size (by sl_kernel_rfl) y

theorem coverC0 (c : Dev nD) (t : Fin cfg0.N) (h0 : ¬ t.val % 4 = 0) (h3 : ¬ t.val % 4 = 3) (hov : t.val % 4 = t.val / 8)
    (xs0 xs1 xs2 : Vec F S1024x1 .f32) (y : S1024x1.Idx) : ∃ pc ∈ (runC m c t h0 h3 hov xs0 xs1 xs2).1, y ∈ pc.1.set :=
  View.cover_of_tiledL (runC m c t h0 h3 hov xs0 xs1 xs2).1 S1024x1.size (by sl_kernel_rfl) y
theorem coverC1 (c : Dev nD) (t : Fin cfg0.N) (h0 : ¬ t.val % 4 = 0) (h3 : ¬ t.val % 4 = 3) (hov : t.val % 4 = t.val / 8)
    (xs0 xs1 xs2 : Vec F S1024x1 .f32) (y : S1024x1.Idx) : ∃ pc ∈ (runC m c t h0 h3 hov xs0 xs1 xs2).2.1, y ∈ pc.1.set :=
  View.cover_of_tiledL (runC m c t h0 h3 hov xs0 xs1 xs2).2.1 S1024x1.size (by sl_kernel_rfl) y
theorem coverC2 (c : Dev nD) (t : Fin cfg0.N) (h0 : ¬ t.val % 4 = 0) (h3 : ¬ t.val % 4 = 3) (hov : t.val % 4 = t.val / 8)
    (xs0 xs1 xs2 : Vec F S1024x1 .f32) (y : S1024x1.Idx) : ∃ pc ∈ (runC m c t h0 h3 hov xs0 xs1 xs2).2.2.1, y ∈ pc.1.set :=
  View.cover_of_tiledL (runC m c t h0 h3 hov xs0 xs1 xs2).2.2.1 S1024x1.size (by sl_kernel_rfl) y

theorem coverD0 (c : Dev nD) (t : Fin cfg0.N) (h0 : ¬ t.val % 4 = 0) (h3 : ¬ t.val % 4 = 3) (hnov : ¬ t.val % 4 = t.val / 8)
    (xs0 xs1 xs2 : Vec F S1024x1 .f32) (y : S1024x1.Idx) : ∃ pc ∈ (runD m c t h0 h3 hnov xs0 xs1 xs2).1, y ∈ pc.1.set :=
  View.cover_of_tiledL (runD m c t h0 h3 hnov xs0 xs1 xs2).1 S1024x1.size (by sl_kernel_rfl) y
theorem coverD1 (c : Dev nD) (t : Fin cfg0.N) (h0 : ¬ t.val % 4 = 0) (h3 : ¬ t.val % 4 = 3) (hnov : ¬ t.val % 4 = t.val / 8)
    (xs0 xs1 xs2 : Vec F S1024x1 .f32) (y : S1024x1.Idx) : ∃ pc ∈ (runD m c t h0 h3 hnov xs0 xs1 xs2).2.1, y ∈ pc.1.set :=
  View.cover_of_tiledL (runD m c t h0 h3 hnov xs0 xs1 xs2).2.1 S1024x1.size (by sl_kernel_rfl) y
theorem coverD2 (c : Dev nD) (t : Fin cfg0.N) (h0 : ¬ t.val % 4 = 0) (h3 : ¬ t.val % 4 = 3) (hnov : ¬ t.val % 4 = t.val / 8)
    (xs0 xs1 xs2 : Vec F S1024x1 .f32) (y : S1024x1.Idx) : ∃ pc ∈ (runD m c t h0 h3 hnov xs0 xs1 xs2).2.2.1, y ∈ pc.1.set :=
  View.cover_of_tiledL (runD m c t h0 h3 hnov xs0 xs1 xs2).2.2.1 S1024x1.size (by sl_kernel_rfl) y

theorem coverE5 (c : Dev nD) (t : Fin cfg0.N) (h3 : t.val % 4 = 3) (hov : t.val % 4 = t.val / 8)
    (xs0 xs1 xs2 : Vec F S1024x1 .f32) (y : S1024x1.Idx) : ∃ pc ∈ (runE m c t h3 hov xs0 xs1 xs2).1, y ∈ pc.1.set :=
  View.cover_of_tiledL (runE m c t h3 hov xs0 xs1 xs2).1 S1024x1.size (by sl_kernel_rfl) y
theorem coverE0 (c : Dev nD) (t : Fin cfg0.N) (h3 : t.val % 4 = 3) (hov : t.val % 4 = t.val / 8)
    (xs0 xs1 xs2 : Vec F S1024x1 .f32) (y : S1024x1.Idx) : ∃ pc ∈ (runE m c t h3 hov xs0 xs1 xs2).2.1, y ∈ pc.1.set :=
  View.cover_of_tiledL (runE m c t h3 hov xs0 xs1 xs2).2.1 S1024x1.size (by sl_kernel_rfl) y
theorem coverE1 (c : Dev nD) (t : Fin cfg0.N) (h3 : t.val % 4 = 3) (hov : t.val % 4 = t.val / 8)
    (xs0 xs1 xs2 : Vec F S1024x1 .f32) (y : S1024x1.Idx) : ∃ pc ∈ (runE m c t h3 hov xs0 xs1 xs2).2.2.1, y ∈ pc.1.set :=
  View.cover_of_tiledL (runE m c t h3 hov xs0 xs1 xs2).2.2.1 S1024x1.size (by sl_kernel_rfl) y
theorem coverE2 (c : Dev nD) (t : Fin cfg0.N) (h3 : t.val % 4 = 3) (hov : t.val % 4 = t.val / 8)
    (xs0 xs1 xs2 : Vec F S1024x1 .f32) (y : S1024x1.Idx) : ∃ pc ∈ (runE m c t h3 hov xs0 xs1 xs2).2.2.2.1, y ∈ pc.1.set :=
  View.cover_of_tiledL (runE m c t h3 hov xs0 xs1 xs2).2.2.2.1 S1024x1.size (by sl_kernel_rfl) y

theorem coverF5 (c : Dev nD) (t : Fin cfg0.N) (h3 : t.val % 4 = 3) (hnov : ¬ t.val % 4 = t.val / 8)
    (xs0 xs1 xs2 : Vec F S1024x1 .f32) (y : S1024x1.Idx) : ∃ pc ∈ (runF m c t h3 hnov xs0 xs1 xs2).1, y ∈ pc.1.set :=
  View.cover_of_tiledL (runF m c t h3 hnov xs0 xs1 xs2).1 S1024x1.size (by sl_kernel_rfl) y
theorem coverF0 (c : Dev nD) (t : Fin cfg0.N) (h3 : t.val % 4 = 3) (hnov : ¬ t.val % 4 = t.val / 8)
    (xs0 xs1 xs2 : Vec F S1024x1 .f32) (y : S1024x1.Idx) : ∃ pc ∈ (runF m c t h3 hnov xs0 xs1 xs2).2.1, y ∈ pc.1.set :=
  View.cover_of_tiledL (runF m c t h3 hnov xs0 xs1 xs2).2.1 S1024x1.size (by sl_kernel_rfl) y
theorem coverF1 (c : Dev nD) (t : Fin cfg0.N) (h3 : t.val % 4 = 3) (hnov : ¬ t.val % 4 = t.val / 8)
    (xs0 xs1 xs2 : Vec F S1024x1 .f32) (y : S1024x1.Idx) : ∃ pc ∈ (runF m c t h3 hnov xs0 xs1 xs2).2.2.1, y ∈ pc.1.set :=
  View.cover_of_tiledL (runF m c t h3 hnov xs0 xs1 xs2).2.2.1 S1024x1.size (by sl_kernel_rfl) y
theorem coverF2 (c : Dev nD) (t : Fin cfg0.N) (h3 : t.val % 4 = 3) (hnov : ¬ t.val % 4 = t.val / 8)
    (xs0 xs1 xs2 : Vec F S1024x1 .f32) (y : S1024x1.Idx) : ∃ pc ∈ (runF m c t h3 hnov xs0 xs1 xs2).2.2.2.1, y ∈ pc.1.set :=
  View.cover_of_tiledL (runF m c t h3 hnov xs0 xs1 xs2).2.2.2.1 S1024x1.size (by sl_kernel_rfl) y

/-! ## What each case leaves: the output block, then the three scratch buffers -/

/-- The contents of four buffers of 1024 x 1 words: the output block, the running maximum, the running sum of
    exponentials, the running positive-logit sum. -/
abbrev Outs (F : FTy → Type) : Type := Vec F S1024x1 .f32 × Vec F S1024x1 .f32 × Vec F S1024x1 .f32 × Vec F S1024x1 .f32

/-- The first component at the points where nothing is stored into the output block (j < 3): a placeholder that
    nothing consults, since there the block is neither written back nor read at the next point. -/
def idle5 : Vec F S1024x1 .f32 := left VO5 []

def outA (c : Dev nD) (t : Fin cfg0.N) (h0 : t.val % 4 = 0) (hov : t.val % 4 = t.val / 8) : Outs F :=
  (idle5, left VS0 (runA m c t h0 hov).1, left VS1 (runA m c t h0 hov).2.1, left VS2 (runA m c t h0 hov).2.2.1)
def outB (c : Dev nD) (t : Fin cfg0.N) (h0 : t.val % 4 = 0) (hnov : ¬ t.val % 4 = t.val / 8) : Outs F :=
  (idle5, left VS0 (runB m c t h0 hnov).1, left VS1 (runB m c t h0 hnov).2.1, left VS2 (runB m c t h0 hnov).2.2.1)
/-- Cases C to F run over what the point before left in the scratch buffers (`P`'s last three components). -/
def outC (c : Dev nD) (t : Fin cfg0.N) (h0 : ¬ t.val % 4 = 0) (h3 : ¬ t.val % 4 = 3) (hov : t.val % 4 = t.val / 8) (P : Outs F) : Outs F :=
  (idle5, left VS0 (runC m c t h0 h3 hov P.2.1 P.2.2.1 P.2.2.2).1, left VS1 (runC m c t h0 h3 hov P.2.1 P.2.2.1 P.2.2.2).2.1,
    left VS2 (runC m c t h0 h3 hov P.2.1 P.2.2.1 P.2.2.2).2.2.1)
def outD (c : Dev nD) (t : Fin cfg0.N) (h0 : ¬ t.val % 4 = 0) (h3 : ¬ t.val % 4 = 3) (hnov : ¬ t.val % 4 = t.val / 8) (P : Outs F) : Outs F :=
  (idle5, left VS0 (runD m c t h0 h3 hnov P.2.1 P.2.2.1 P.2.2.2).1, left VS1 (runD m c t h0 h3 hnov P.2.1 P.2.2.1 P.2.2.2).2.1,
    left VS2 (runD m c t h0 h3 hnov P.2.1 P.2.2.1 P.2.2.2).2.2.1)
def outE (c : Dev nD) (t : Fin cfg0.N) (h3 : t.val % 4 = 3) (hov : t.val % 4 = t.val / 8) (P : Outs F) : Outs F :=
  (left VO5 (runE m c t h3 hov P.2.1 P.2.2.1 P.2.2.2).1, left VS0 (runE m c t h3 hov P.2.1 P.2.2.1 P.2.2.2).2.1,
    left VS1 (runE m c t h3 hov P.2.1 P.2.2.1 P.2.2.2).2.2.1, left VS2 (runE m c t h3 hov P.2.1 P.2.2.1 P.2.2.2).2.2.2.1)
def outF (c : Dev nD) (t : Fin cfg0.N) (h3 : t.val % 4 = 3) (hnov : ¬ t.val % 4 = t.val / 8) (P : Outs F) : Outs F :=
  (left VO5 (runF m c t h3 hnov P.2.1 P.2.2.1 P.2.2.2).1, left VS0 (runF m c t h3 hnov P.2.1 P.2.2.1 P.2.2.2).2.1,
    left VS1 (runF m c t h3 hnov P.2.1 P.2.2.1 P.2.2.2).2.2.1, left VS2 (runF m c t h3 hnov P.2.1 P.2.2.1 P.2.2.2).2.2.2.1)

/-! ## What the buffers hold after each point -/

/-- THE ACCUMULATION. What the output block's staging buffer and the three scratch buffers hold after the body at
    point `n`: the case the closed forms select at `n` (j = 0, then j = 3, then the overlap), run at the point's
    buffers and input blocks; at j > 0 over what point `n - 1` left in the scratch buffers. Point 0 has j = 0 and
    meets the diagonal. All six assignments of the three tests occur on the grid. -/
def outsAt0 (c : Dev nD) : (n : ℕ) → n < cfg0.N → Outs F
  | 0, hn => outA m c ⟨0, hn⟩ (Nat.zero_mod 4) ((Nat.zero_mod 4).trans (Nat.zero_div 8).symm)
  | n + 1, hn =>
    if h0 : (n + 1) % 4 = 0 then
      if hov : (n + 1) % 4 = (n + 1) / 8 then outA m c ⟨n + 1, hn⟩ h0 hov
      else outB m c ⟨n + 1, hn⟩ h0 hov
    else
      if h3 : (n + 1) % 4 = 3 then
        if hov : (n + 1) % 4 = (n + 1) / 8 then outE m c ⟨n + 1, hn⟩ h3 hov (outsAt0 c n (Nat.lt_of_succ_lt hn))
        else outF m c ⟨n + 1, hn⟩ h3 hov (outsAt0 c n (Nat.lt_of_succ_lt hn))
      else
        if hov : (n + 1) % 4 = (n + 1) / 8 then outC m c ⟨n + 1, hn⟩ h0 h3 hov (outsAt0 c n (Nat.lt_of_succ_lt hn))
        else outD m c ⟨n + 1, hn⟩ h0 h3 hov (outsAt0 c n (Nat.lt_of_succ_lt hn))

/-- What the point before `t` left in the four buffers (at `t = 0`, where nothing consults it, what point 0 leaves). -/
def prev (c : Dev nD) (t : Fin cfg0.N) : Outs F :=
  outsAt0 m c (t.val - 1) (Nat.lt_of_le_of_lt (Nat.sub_le _ _) t.isLt)

theorem prev_eq (c : Dev nD) (t : Fin cfg0.N) :
    prev m c t = outsAt0 m c (t.val - 1) (Nat.lt_of_le_of_lt (Nat.sub_le _ _) t.isLt) := rfl

/-- `outsAt0` at a point of case A. -/
theorem outsAt0_A (c : Dev nD) (t : Fin cfg0.N) (h0 : t.val % 4 = 0) (hov : t.val % 4 = t.val / 8) :
    outsAt0 m c t.val t.isLt = outA m c t h0 hov := by
  obtain ⟨n, hn⟩ := t
  cases n with
  | zero => exact rfl
  | succ n =>
    have h0' : (n + 1) % 4 = 0 := h0
    have hov' : (n + 1) % 4 = (n + 1) / 8 := hov
    exact (dif_pos h0').trans ((dif_pos hov').trans rfl)

/-- `outsAt0` at a point of case B. -/
theorem outsAt0_B (c : Dev nD) (t : Fin cfg0.N) (h0 : t.val % 4 = 0) (hnov : ¬ t.val % 4 = t.val / 8) :
    outsAt0 m c t.val t.isLt = outB m c t h0 hnov := by
  obtain ⟨n, hn⟩ := t
  cases n with
  | zero => exact absurd ((Nat.zero_mod 4).trans (Nat.zero_div 8).symm) hnov
  | succ n =>
    have h0' : (n + 1) % 4 = 0 := h0
    have hnov' : ¬ (n + 1) % 4 = (n + 1) / 8 := hnov
    exact (dif_pos h0').trans ((dif_neg hnov').trans rfl)

/-- `outsAt0` at a point of case C: over what the point before left. -/
theorem outsAt0_C (c : Dev nD) (t : Fin cfg0.N) (h0 : ¬ t.val % 4 = 0) (h3 : ¬ t.val % 4 = 3) (hov : t.val % 4 = t.val / 8) :
    outsAt0 m c t.val t.isLt = outC m c t h0 h3 hov (prev m c t) := by
  obtain ⟨n, hn⟩ := t
  cases n with
  | zero => exact absurd (Nat.zero_mod 4) h0
  | succ n =>
    have h0' : ¬ (n + 1) % 4 = 0 := h0
    have h3' : ¬ (n + 1) % 4 = 3 := h3
    have hov' : (n + 1) % 4 = (n + 1) / 8 := hov
    exact (dif_neg h0').trans ((dif_neg h3').trans ((dif_pos hov').trans rfl))

/-- `outsAt0` at a point of case D: over what the point before left. -/
theorem outsAt0_D (c : Dev nD) (t : Fin cfg0.N) (h0 : ¬ t.val % 4 = 0) (h3 : ¬ t.val % 4 = 3) (hnov : ¬ t.val % 4 = t.val / 8) :
    outsAt0 m c t.val t.isLt = outD m c t h0 h3 hnov (prev m c t) := by
  obtain ⟨n, hn⟩ := t
  cases n with
  | zero => exact absurd (Nat.zero_mod 4) h0
  | succ n =>
    have h0' : ¬ (n + 1) % 4 = 0 := h0
    have h3' : ¬ (n + 1) % 4 = 3 := h3
    have hnov' : ¬ (n + 1) % 4 = (n + 1) / 8 := hnov
    exact (dif_neg h0').trans ((dif_neg h3').trans ((dif_neg hnov').trans rfl))

/-- `outsAt0` at a point of case E: over what the point before left. -/
theorem outsAt0_E (c : Dev nD) (t : Fin cfg0.N) (h3 : t.val % 4 = 3) (hov : t.val % 4 = t.val / 8) :
    outsAt0 m c t.val t.isLt = outE m c t h3 hov (prev m c t) := by
  obtain ⟨n, hn⟩ := t
  cases n with
  | zero => exact absurd (show (0 : ℕ) % 4 = 3 from h3) (by decide)
  | succ n =>
    have h3' : (n + 1) % 4 = 3 := h3
    have h0' : ¬ (n + 1) % 4 = 0 := by omega
    have hov' : (n + 1) % 4 = (n + 1) / 8 := hov
    exact (dif_neg h0').trans ((dif_pos h3').trans ((dif_pos hov').trans rfl))

/-- `outsAt0` at a point of case F: over what the point before left. -/
theorem outsAt0_F (c : Dev nD) (t : Fin cfg0.N) (h3 : t.val % 4 = 3) (hnov : ¬ t.val % 4 = t.val / 8) :
    outsAt0 m c t.val t.isLt = outF m c t h3 hnov (prev m c t) := by
  obtain ⟨n, hn⟩ := t
  cases n with
  | zero => exact absurd (show (0 : ℕ) % 4 = 3 from h3) (by decide)
  | succ n =>
    have h3' : (n + 1) % 4 = 3 := h3
    have h0' : ¬ (n + 1) % 4 = 0 := by omega
    have hnov' : ¬ (n + 1) % 4 = (n + 1) / 8 := hnov
    exact (dif_neg h0').trans ((dif_pos h3').trans ((dif_neg hnov').trans rfl))

/-! ## The invariant between points -/

/-- The invariant before point `n`: before the first point the three scratch buffers at anything; afterwards
    each at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0 fullShare (outsAt0 m c n hn).2.1 ∗ owns (c : Thread nD τ) scM1 fullShare (outsAt0 m c n hn).2.2.1
      ∗ owns (c : Thread nD τ) scM2 fullShare (outsAt0 m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (outsAt0 m c n hn).2.1 ∗ owns (c : Thread nD τ) scM1 fullShare (outsAt0 m c n hn).2.2.1
      ∗ owns (c : Thread nD τ) scM2 fullShare (outsAt0 m c n hn).2.2.2) ∗ (∃ r, prngReg c r)) := rfl

theorem PhiS_pos (c : Dev nD) (n : ℕ) (h : n ≤ cfg0.N) (hz : n ≠ 0) :
    PhiS m c n h = iprop(iprop(owns (c : Thread nD τ) scM0 fullShare (outsAt0 m c (n - 1) (by omega)).2.1
      ∗ owns (c : Thread nD τ) scM1 fullShare (outsAt0 m c (n - 1) (by omega)).2.2.1
      ∗ owns (c : Thread nD τ) scM2 fullShare (outsAt0 m c (n - 1) (by omega)).2.2.2) ∗ (∃ r, prngReg c r)) := by
  cases n with
  | zero => exact absurd rfl hz
  | succ n => rfl

/-! ## The pipeline's proof data -/

/-- The proof data of the one pipeline on core `c`: the arrays as the region finds them; after the body at point
    `t` each input's buffer at its block and the output's at `outsAt0`'s first component; the invariant `PhiS`;
    windows 0 and 1 stage one array and hold half of it each, the other inputs are held whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem q_0 (c : Dev nD) : (dats m 0 c).q 0 = fullShare.left := by dsimp only [dats]
theorem q_1 (c : Dev nD) : (dats m 0 c).q 1 = fullShare.right := by dsimp only [dats]
theorem q_2 (c : Dev nD) : (dats m 0 c).q 2 = fullShare := by dsimp only [dats]
theorem q_3 (c : Dev nD) : (dats m 0 c).q 3 = fullShare := by dsimp only [dats]
theorem q_4 (c : Dev nD) : (dats m 0 c).q 4 = fullShare := by dsimp only [dats]

theorem owed_eq (c : Dev nD) (t : Fin (cfg0.N + 1)) : (dats m 0 c).owed t = 0 := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

/-- The invariant at the start of a point that is not the first: the scratch buffers at what the point before left. -/
theorem PhiS_before (c : Dev nD) (t : Fin cfg0.N) (hz : t.val ≠ 0) :
    (dats m 0 c).Φ t.castSucc = iprop(iprop(owns (c : Thread nD τ) scM0 fullShare (prev m c t).2.1
      ∗ owns (c : Thread nD τ) scM1 fullShare (prev m c t).2.2.1
      ∗ owns (c : Thread nD τ) scM2 fullShare (prev m c t).2.2.2) ∗ (∃ r, prngReg c r)) := by
  rewrite [PhiS_castSucc m c t, PhiS_pos m c _ _ hz]; rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt0 m c t.val t.isLt).1 := by dsimp only [dats]

/-! ## Every input's current staging buffer holds its block

Fetched at the point or not: an input that is not fetched has the block index it had at the point before, and
the body leaves an input's buffer as it found it. -/

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0 m c]; unfold Dat.blockOf iblk; rw [A_eq m c]; try rfl) t d).trans
    (by unfold Dat.fetched Dat.blockOf iblk; rw [A_eq m c]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1 m c]; unfold Dat.blockOf iblk; rw [A_eq m c]; try rfl) t d).trans
    (by unfold Dat.fetched Dat.blockOf iblk; rw [A_eq m c]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2 m c]; unfold Dat.blockOf iblk; rw [A_eq m c]; try rfl) t d).trans
    (by unfold Dat.fetched Dat.blockOf iblk; rw [A_eq m c]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3 m c]; unfold Dat.blockOf iblk; rw [A_eq m c]; try rfl) t d).trans
    (by unfold Dat.fetched Dat.blockOf iblk; rw [A_eq m c]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4 m c]; unfold Dat.blockOf iblk; rw [A_eq m c]; try rfl) t d).trans
    (by unfold Dat.fetched Dat.blockOf iblk; rw [A_eq m c]; try rfl)

/-! ## The invariant forgets to the pipeline's -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the pipeline's back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-- At every point, the first included: the three scratch buffers at something, the generator register at some state. -/
theorem Phi_any (c : Dev nD) (t : Fin (cfg0.N + 1)) : (dats m 0 c).Φ t ⊢ Pipeline.ΦA spec0 c := by
  by_cases ht : t.val = 0
  · rw [show (dats m 0 c).Φ t = PhiS m c t.val (Nat.le_of_lt_succ t.isLt) from rfl, PhiS_zero m c _ _ ht]
    try exact Idealize.SL.BI.Entails.refl _
  · exact Phi_out m c t ht

/-! ## The body obligation -/

/-- What the body is called with at point `t`: the invariant, what the core owes, the six windows' current buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks; the closed forms say which of the six cases the
    point is in; that case's run applies. At j = 0 the scratch buffers are handed over at whatever they hold, at
    j > 0 at what the point before left, and they come back at this point's contents (each case's pieces cover
    them). At j < 3 the output buffer goes in and comes back as found; at j = 3 it is taken at anything and comes
    back at the stored losses. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rewrite [show (dats m 0 c).owesAt () t.succ = (dats m 0 c).owesAt () t.castSucc from rfl]
  rewrite [show (dats m 0 c).Φ t.succ = PhiS m c (t.val + 1) t.isLt from rfl, PhiS_succ]
  rewrite [show (dats m 0 c).leavesExact 0 t = owns (c : Thread nD τ) (ms0 t) fullShare ((dats m 0 c).after 0 t) from by
    unfold Dat.leavesExact; rw [liveAt0 t], after0]
  rewrite [show (dats m 0 c).leavesExact 1 t = owns (c : Thread nD τ) (ms1 t) fullShare ((dats m 0 c).after 1 t) from by
    unfold Dat.leavesExact; rw [liveAt1 t], after1]
  rewrite [show (dats m 0 c).leavesExact 2 t = owns (c : Thread nD τ) (ms2 t) fullShare ((dats m 0 c).after 2 t) from by
    unfold Dat.leavesExact; rw [liveAt2 t], after2]
  rewrite [show (dats m 0 c).leavesExact 3 t = owns (c : Thread nD τ) (ms3 t) fullShare ((dats m 0 c).after 3 t) from by
    unfold Dat.leavesExact; rw [liveAt3 t], after3]
  rewrite [show (dats m 0 c).leavesExact 4 t = owns (c : Thread nD τ) (ms4 t) fullShare ((dats m 0 c).after 4 t) from by
    unfold Dat.leavesExact; rw [liveAt4 t], after4]
  have hN : t.val < 32 := lt_of_lt_of_eq t.isLt (show cfg0.N = 32 from N_0)
  by_cases h0 : t.val % 4 = 0
  · have hL : ¬ condLast (grid0.coords t) := fun h => by have := (hcondLast t).mp h; omega
    rewrite [Dat.leavesExact_idle (dats m 0 c) 5 t (idleAt5 t hL) (noFlush5 t hL)]
    refine (sep_mono (Phi_any m c t.castSucc) .rfl).trans ?_
    rewrite [PhiA0_eq]
    by_cases hov : t.val % 4 = t.val / 8
    · -- case A
      rewrite [outsAt0_A m c t h0 hov]
      unfold outA; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((runA m c t h0 hov).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iapply (owns_left c scM0 VS0 _ (coverA0 m c t h0 hov)); iexact HS0
          isplitl [HS1]; · iapply (owns_left c scM1 VS1 _ (coverA1 m c t h0 hov)); iexact HS1
          iapply (owns_left c scM2 VS2 _ (coverA2 m c t h0 hov)); iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · -- case B
      rewrite [outsAt0_B m c t h0 hov]
      unfold outB; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((runB m c t h0 hov).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iapply (owns_left c scM0 VS0 _ (coverB0 m c t h0 hov)); iexact HS0
          isplitl [HS1]; · iapply (owns_left c scM1 VS1 _ (coverB1 m c t h0 hov)); iexact HS1
          iapply (owns_left c scM2 VS2 _ (coverB2 m c t h0 hov)); iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    rewrite [PhiS_before m c t hz]
    by_cases h3 : t.val % 4 = 3
    · have hL : condLast (grid0.coords t) := (hcondLast t).mpr h3
      rewrite [show (dats m 0 c).leavesExact 5 t = owns (c : Thread nD τ) (ms5 t) fullShare ((dats m 0 c).after 5 t) from by
        unfold Dat.leavesExact; rw [liveAt5 t hL], after5]
      by_cases hov : t.val % 4 = t.val / 8
      · -- case E
        rewrite [outsAt0_E m c t h3 hov]
        unfold outE; dsimp only
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((runE m c t h3 hov (prev m c t).2.1 (prev m c t).2.2.1 (prev m c t).2.2.2).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]; · iapply (owns_left c scM0 VS0 _ (coverE0 m c t h3 hov _ _ _)); iexact HS0
            isplitl [HS1]; · iapply (owns_left c scM1 VS1 _ (coverE1 m c t h3 hov _ _ _)); iexact HS1
            iapply (owns_left c scM2 VS2 _ (coverE2 m c t h3 hov _ _ _)); iexact HS2
          iexact Hg
        isplitl [Ho]; · iexact Ho
        isplitl [H0]; · iexact H0
        isplitl [H1]; · iexact H1
        isplitl [H2]; · iexact H2
        isplitl [H3]; · iexact H3
        isplitl [H4]; · iexact H4
        iapply (owns_left c (ms5 t) VO5 _ (coverE5 m c t h3 hov _ _ _)); iexact H5
      · -- case F
        rewrite [outsAt0_F m c t h3 hov]
        unfold outF; dsimp only
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((runF m c t h3 hov (prev m c t).2.1 (prev m c t).2.2.1 (prev m c t).2.2.2).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]; · iapply (owns_left c scM0 VS0 _ (coverF0 m c t h3 hov _ _ _)); iexact HS0
            isplitl [HS1]; · iapply (owns_left c scM1 VS1 _ (coverF1 m c t h3 hov _ _ _)); iexact HS1
            iapply (owns_left c scM2 VS2 _ (coverF2 m c t h3 hov _ _ _)); iexact HS2
          iexact Hg
        isplitl [Ho]; · iexact Ho
        isplitl [H0]; · iexact H0
        isplitl [H1]; · iexact H1
        isplitl [H2]; · iexact H2
        isplitl [H3]; · iexact H3
        isplitl [H4]; · iexact H4
        iapply (owns_left c (ms5 t) VO5 _ (coverF5 m c t h3 hov _ _ _)); iexact H5
    · have hL : ¬ condLast (grid0.coords t) := fun h => h3 ((hcondLast t).mp h)
      rewrite [Dat.leavesExact_idle (dats m 0 c) 5 t (idleAt5 t hL) (noFlush5 t hL)]
      by_cases hov : t.val % 4 = t.val / 8
      · -- case C
        rewrite [outsAt0_C m c t h0 h3 hov]
        unfold outC; dsimp only
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((runC m c t h0 h3 hov (prev m c t).2.1 (prev m c t).2.2.1 (prev m c t).2.2.2).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]; · iapply (owns_left c scM0 VS0 _ (coverC0 m c t h0 h3 hov _ _ _)); iexact HS0
            isplitl [HS1]; · iapply (owns_left c scM1 VS1 _ (coverC1 m c t h0 h3 hov _ _ _)); iexact HS1
            iapply (owns_left c scM2 VS2 _ (coverC2 m c t h0 h3 hov _ _ _)); iexact HS2
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · -- case D
        rewrite [outsAt0_D m c t h0 h3 hov]
        unfold outD; dsimp only
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((runD m c t h0 h3 hov (prev m c t).2.1 (prev m c t).2.2.1 (prev m c t).2.2.2).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 Hg]
        · isplitl [HS0 HS1 HS2]
          · isplitl [HS0]; · iapply (owns_left c scM0 VS0 _ (coverD0 m c t h0 h3 hov _ _ _)); iexact HS0
            isplitl [HS1]; · iapply (owns_left c scM1 VS1 _ (coverD1 m c t h0 h3 hov _ _ _)); iexact HS1
            iapply (owns_left c scM2 VS2 _ (coverD2 m c t h0 h3 hov _ _ _)); iexact HS2
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Spec.lean ====
/-
  The supervised-contrastive loss as ONE function of the two argument arrays, on the extended reals.

  The features are f32[4096, 2, 128] (sample, view, coordinate) and the labels i32[4096]. The 8192 rows of the
  similarity matrix are the (view, sample) pairs in view-major order: row n = 4096 * view + sample, so
  sample n = n % 4096 and view n = n / 4096. With temperature word D (the f32 pattern of 0.07, kept as a pattern):

    logit r j  = (sum over d of feat r d * feat j d) / D
    rowMax r   = the maximum over j of logit r j, started from -infinity
    mask r j   = 1 - [r = j]                      (every row excludes itself)
    pos r j    = [label (sample r) = label (sample j)]
    L r        = sum over j of exp (logit r j - rowMax r) * mask r j
    num r      = sum over j of (pos r j * mask r j) * ((logit r j - rowMax r) - log (L r))
    den r      = sum over j of pos r j * mask r j
    loss       = (sum over n of (-1) * (num n / den n)) / 8192

  Division is the extended reals' with the conventions at zero (Ideal.div), exp and log the extended ones
  (Ideal.exp, Ideal.log). Each sum carries its initial value 0 in front, as a reduction from 0 reads.
-/
import Idealize.ShloMosaic.PureOps.Ideal
import Idealize.ShloMosaic.Lib.ValueIdx
import Mathlib.Data.Finset.Fold
import Mathlib.Algebra.BigOperators.Fin
import Mathlib.Data.EReal.Basic

noncomputable section

open scoped BigOperators

namespace Cert.Spec

open Idealize.ShloMosaic Idealize.ShloMosaic.ValueIdx

/-- The features array's indices: (sample, view, coordinate). -/
abbrev XIdx : Type := (⟨3, ![4096, 2, 128]⟩ : Shape).Idx
/-- The labels array's indices. -/
abbrev LIdx : Type := (⟨1, ![4096]⟩ : Shape).Idx

/-- The sample a row of the similarity matrix belongs to. -/
def smp (n : Fin 8192) : Fin 4096 := ⟨n.val % 4096, Nat.mod_lt _ (by decide)⟩
/-- The view a row of the similarity matrix belongs to. -/
def view (n : Fin 8192) : Fin 2 := ⟨n.val / 4096, by have := n.isLt; omega⟩
/-- The row of a (view, sample) pair: view-major. -/
def row (v : Fin 2) (s : Fin 4096) : Fin 8192 := ⟨v.val * 4096 + s.val, by have := v.isLt; have := s.isLt; omega⟩

/-- Row n of the 8192 x 128 matrix of stacked views. -/
def feat (x : XIdx → EReal) (n : Fin 8192) (d : Fin 128) : EReal := x (ix3 (smp n) (view n) d)

/-- The temperature: the f32 pattern of 0.07, never evaluated. -/
def D : EReal := Ideal.ofBits .f32 0x3D8F5C29#32

/-- The similarity of rows r and j over the temperature. -/
def logit (x : XIdx → EReal) (r j : Fin 8192) : EReal := Ideal.div (∑ d : Fin 128, feat x r d * feat x j d) D

/-- A row's largest logit, folded from -infinity. -/
def rowMax (x : XIdx → EReal) (r : Fin 8192) : EReal :=
  (Finset.univ : Finset (Fin 8192)).fold max ⊥ (fun j => logit x r j)

/-- Every row excludes itself. -/
def mask (r j : Fin 8192) : EReal := 1 - (if r = j then 1 else 0)

/-- Rows r and j are positives of each other when their samples carry the same label. -/
def pos (lab : LIdx → BitVec 32) (r j : Fin 8192) : EReal :=
  if lab (ix1 (smp r)) = lab (ix1 (smp j)) then 1 else 0

/-- The normaliser of row r: the shifted exponentials of the other rows, summed. -/
def L (x : XIdx → EReal) (r : Fin 8192) : EReal :=
  0 + ∑ j : Fin 8192, Ideal.exp (logit x r j - rowMax x r) * mask r j

/-- The positives' log-probabilities of row r, summed. -/
def num (x : XIdx → EReal) (lab : LIdx → BitVec 32) (r : Fin 8192) : EReal :=
  0 + ∑ j : Fin 8192, (pos lab r j * mask r j) * ((logit x r j - rowMax x r) - Ideal.log (L x r))

/-- The number of positives of row r. -/
def den (lab : LIdx → BitVec 32) (r : Fin 8192) : EReal := 0 + ∑ j : Fin 8192, pos lab r j * mask r j

/-- The loss: minus the mean over the rows of each row's mean positive log-probability. -/
def refLoss (x : XIdx → EReal) (lab : LIdx → BitVec 32) : EReal :=
  Ideal.div (0 + ∑ n : Fin 8192, (-1) * Ideal.div (num x lab n) (den lab n)) ((8192 : ℝ) : EReal)

/-! ## The literal patterns as numbers -/

/-- The f32 pattern of 1.0 is 1. -/
theorem ofBits_one : Ideal.ofBits .f32 0x3F800000#32 = 1 := by
  simp [Ideal.ofBits, Ideal.ieee, -EReal.coe_mul]; norm_num
/-- The f32 pattern of -1.0 is -1. -/
theorem ofBits_neg_one : Ideal.ofBits .f32 0xBF800000#32 = -1 := by
  simp [Ideal.ofBits, Ideal.ieee, -EReal.coe_mul]; norm_num
/-- The f32 pattern of 8192.0 is 8192. -/
theorem ofBits_8192 : Ideal.ofBits .f32 0x46000000#32 = ((8192 : ℝ) : EReal) := by
  simp [Ideal.ofBits, Ideal.ieee, -EReal.coe_mul]; norm_num
/-- The f32 pattern of -infinity is the bottom element. -/
theorem ofBits_neg_inf : Ideal.ofBits .f32 0xFF800000#32 = ⊥ := by
  simp [Ideal.ofBits, Ideal.ieee]

/-! ## Rows as (view, sample) pairs -/

theorem smp_row (v : Fin 2) (s : Fin 4096) : smp (row v s) = s :=
  Fin.ext (by have := v.isLt; have := s.isLt; show (v.val * 4096 + s.val) % 4096 = s.val; omega)
theorem view_row (v : Fin 2) (s : Fin 4096) : view (row v s) = v :=
  Fin.ext (by have := v.isLt; have := s.isLt; show (v.val * 4096 + s.val) / 4096 = v.val; omega)
theorem row_view_smp (n : Fin 8192) : row (view n) (smp n) = n :=
  Fin.ext (by have := n.isLt; show n.val / 4096 * 4096 + n.val % 4096 = n.val; omega)

/-- The rows are the (view, sample) pairs. -/
def rowEquiv : Fin 2 × Fin 4096 ≃ Fin 8192 where
  toFun p := row p.1 p.2
  invFun n := (view n, smp n)
  left_inv p := Prod.ext (view_row p.1 p.2) (smp_row p.1 p.2)
  right_inv n := row_view_smp n

/-- A sum over the rows is the sum over the views of the sums over the samples. -/
theorem sum_rows {M : Type*} [AddCommMonoid M] (g : Fin 8192 → M) :
    ∑ n : Fin 8192, g n = ∑ v : Fin 2, ∑ s : Fin 4096, g (row v s) := by
  rw [← Equiv.sum_comp rowEquiv g, Fintype.sum_prod_type]
  rfl

end Cert.Spec

end
-- ==== Proof.KI.HostVals.lean ====
/-
  What the kernel's windows stage, read at an index. The host operations before the region build four arrays from the
  features x : f32[4096, 2, 128] (sample, view, coordinate) and the labels lab : i32[4096]:

    the stacked features   [8192, 128]   row n = 4096 * view + sample, so entry (n, d) is x (n % 4096, n / 4096, d)
    the labels as a column [8192, 1] and as a row [1, 8192]: entry n is lab (n % 4096)
    the positive counts    [8192, 1]     entry n is 2 * #{samples b : lab b = lab (n % 4096)} - 1

  The counts are built from the one-hot matrix [labels == class] summed over the samples, gathered at each sample's
  label; for labels in [0, 100) the wrap-around select is the identity and the gather index is in range. Last, the
  counting identity: 2 * #{b : lab b = lab (n % 4096)} - 1 is the number of rows other than n whose sample carries
  row n's label (each sample appears in two views, the row itself is left out once); it is at least 1.
-/
import proofs.«430023_j72756745994686_3_alg».proof.Proof.KI.Base
import proofs.«430023_j72756745994686_3_alg».proof.Proof.Spec
import Idealize.ShloMosaic.Lib.ValueIdx
import Idealize.ShloMosaic.Lib.IdealHost
import Idealize.ShloMosaic.Lib.StableHlo.Predicate
import Idealize.ShloMosaic.Lib.StableHlo.Run
import Idealize.ShloMosaic.Lib.Pipeline.Value
import Mathlib.Algebra.BigOperators.Group.Finset.Basic
import Mathlib.Algebra.Order.BigOperators.Group.Finset
import Mathlib.Data.EReal.Operations
import Mathlib.Tactic.Ring
import Mathlib.Tactic.Linarith

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Cert.Spec (smp view LIdx)
open scoped BigOperators

/-- The number of samples that carry label `c`, as a reduction from 0 writes it. -/
def cntOf (lab : LIdx → BitVec 32) (c : BitVec 32) : EReal :=
  0 + ∑ b : Fin 4096, (if lab (ix1 b) = c then 1 else 0)

namespace HostVals

/-! ## Layout: the stacked matrix, a vector repeated per view, a vector as a column and as a row -/

section Layout
variable {α : Type}

/-- A rank-1 index given by its one coordinate, in either of its two spellings, is the same index. -/
theorem ofFin_eq_ix1 {n : Nat} (p : Fin n) : Shape.Idx.ofFin p = ix1 p := by
  funext a; match a with | ⟨0, _⟩ => exact Fin.ext rfl

/-- The view-major matrix of the features: row n, coordinate d is sample n % 4096, view n / 4096, coordinate d. -/
theorem stacked_apply (x : S4096x2x128.Idx → α) (ht : S4096x2x128.Transposes [1, 0, 2] S2x4096x128)
    (hs : S2x4096x128.ShapeCasts S8192x128) (n : Fin 8192) (d : Fin 128) :
    shapeCast S8192x128 (transpose S2x4096x128 [1, 0, 2] x ht) hs (ix2 n d) = x (ix3 (smp n) (view n) d) := by
  refine (shapeCast_apply _ hs (ix2 n d) (ix3 (view n) (smp n) d) ?_).trans ?_
  · rw [Shape.rowMajor_val_three, Shape.rowMajor_val_two]
    show ((n.val / 4096) * 4096 + n.val % 4096) * 128 + d.val = n.val * 128 + d.val
    omega
  · exact transpose_apply [1, 0, 2] x ht _ (ix3 (smp n) (view n) d)
      (fun b => match b with | ⟨0, _⟩ => rfl | ⟨1, _⟩ => rfl | ⟨2, _⟩ => rfl)

/-- A vector over the samples repeated once per view: entry n is the vector's entry at sample n % 4096. -/
theorem tiled_apply (v : S4096.Idx → α) (h1 : S4096.ShapeCasts S1x4096) (hb : S1x4096.BroadcastsInDim S2x4096 ![0, 1])
    (h2 : S2x4096.ShapeCasts S8192) (n : Fin 8192) :
    shapeCast S8192 (broadcastInDim S2x4096 ![0, 1] hb (shapeCast S1x4096 v h1)) h2 (ix1 n) = v (ix1 (smp n)) := by
  refine (shapeCast_apply _ h2 (ix1 n) (ix2 (view n) (smp n)) ?_).trans ?_
  · rw [Shape.rowMajor_val_two, Shape.rowMajor_val_one]
    show (n.val / 4096) * 4096 + n.val % 4096 = n.val
    omega
  refine (broadcastInDim_apply ![0, 1] hb _ (ix2 (view n) (smp n)) (ix2 (0 : Fin 1) (smp n))
    (fun a => match a with | ⟨0, _⟩ => rfl | ⟨1, _⟩ => rfl)).trans ?_
  exact shapeCast_apply v h1 _ (ix1 (smp n))
    (by rw [Shape.rowMajor_val_one, Shape.rowMajor_val_two]; show (smp n).val = 0 * 4096 + (smp n).val; omega)

/-- A vector as a column. -/
theorem col_apply (v : S8192.Idx → α) (h : S8192.ShapeCasts S8192x1) (n : Fin 8192) :
    shapeCast S8192x1 v h (ix2 n (0 : Fin 1)) = v (ix1 n) :=
  shapeCast_apply v h _ (ix1 n) (by rw [Shape.rowMajor_val_one, Shape.rowMajor_val_two]; show n.val = n.val * 1 + 0; omega)

/-- A vector as a row. -/
theorem row_apply (v : S8192.Idx → α) (h : S8192.ShapeCasts S1x8192) (n : Fin 8192) :
    shapeCast S1x8192 v h (ix2 (0 : Fin 1) n) = v (ix1 n) :=
  shapeCast_apply v h _ (ix1 n) (by rw [Shape.rowMajor_val_one, Shape.rowMajor_val_two]; show n.val = 0 * 8192 + n.val; omega)

end Layout

/-! ## Counting over the reals: the samples with a label, and the other rows with a row's label -/

/-- A finite sum of reals, cast, is the sum of the casts. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Sample `b` carries label `c`: 1 or 0, as a real. -/
def ind (lab : LIdx → BitVec 32) (c : BitVec 32) (b : Fin 4096) : ℝ := if lab (ix1 b) = c then 1 else 0

theorem ind_nonneg (lab : LIdx → BitVec 32) (c : BitVec 32) (b : Fin 4096) : 0 ≤ ind lab c b := by
  unfold ind; split_ifs <;> norm_num

/-- The count is a real number: the sum of the indicators. -/
theorem cntOf_eq_coe (lab : LIdx → BitVec 32) (c : BitVec 32) : cntOf lab c = ((∑ b : Fin 4096, ind lab c b : ℝ) : EReal) := by
  unfold cntOf
  rw [zero_add, coe_sum]
  refine Finset.sum_congr rfl (fun b _ => ?_)
  unfold ind
  split_ifs <;> simp

/-- The number of positives of a row is a real number: over the rows, the indicator of the row's label at the
    other row's sample, the row itself left out. -/
theorem den_eq_coe (lab : LIdx → BitVec 32) (n : Fin 8192) :
    Cert.Spec.den lab n
      = ((∑ j : Fin 8192, ind lab (lab (ix1 (smp n))) (smp j) * (1 - if n = j then 1 else 0) : ℝ) : EReal) := by
  unfold Cert.Spec.den
  rw [zero_add, coe_sum]
  refine Finset.sum_congr rfl (fun j _ => ?_)
  unfold Cert.Spec.pos Cert.Spec.mask ind
  by_cases h1 : lab (ix1 (smp n)) = lab (ix1 (smp j)) <;> by_cases h2 : n = j
  · rw [if_pos h1, if_pos h2, if_pos h1.symm, if_pos h2]
    have e : (1 : EReal) - 1 = 0 := by rw [← EReal.coe_one, ← EReal.coe_sub, sub_self, EReal.coe_zero]
    rw [e]; norm_num
  · rw [if_pos h1, if_neg h2, if_pos h1.symm, if_neg h2]; norm_num
  · rw [if_neg h1, if_pos h2, if_neg (fun h => h1 h.symm), if_pos h2]; norm_num
  · rw [if_neg h1, if_neg h2, if_neg (fun h => h1 h.symm), if_neg h2]; norm_num

/-- Each sample appears in two views and the row itself is left out once: over the reals. -/
theorem real_count (lab : LIdx → BitVec 32) (n : Fin 8192) :
    ∑ j : Fin 8192, ind lab (lab (ix1 (smp n))) (smp j) * (1 - if n = j then 1 else 0)
      = 2 * (∑ b : Fin 4096, ind lab (lab (ix1 (smp n))) b) - 1 := by
  have h1 : ind lab (lab (ix1 (smp n))) (smp n) = 1 := by unfold ind; exact if_pos rfl
  simp only [mul_sub, mul_one, Finset.sum_sub_distrib, mul_ite, mul_zero, Finset.sum_ite_eq, Finset.mem_univ, if_true]
  rw [h1, Cert.Spec.sum_rows]
  simp only [Cert.Spec.smp_row]
  rw [Fin.sum_univ_two]
  ring

end HostVals

open HostVals

/-! ## The count of positives -/

/-- THE COUNT OF POSITIVES: twice the number of samples with the row's label, less one, is the number of other
    rows whose sample carries the row's label. -/
theorem two_cnt_sub_one (lab : LIdx → BitVec 32) (n : Fin 8192) :
    2 * cntOf lab (lab (ix1 (smp n))) - 1 = Cert.Spec.den lab n := by
  rw [cntOf_eq_coe, den_eq_coe, real_count]
  norm_cast

/-- The same with the sum written out. -/
theorem two_cnt_sub_one' (lab : LIdx → BitVec 32) (n : Fin 8192) :
    2 * cntOf lab (lab (ix1 (smp n))) - 1
      = 0 + ∑ j : Fin 8192, (if lab (ix1 (smp n)) = lab (ix1 (smp j)) then 1 else 0) * (1 - (if n = j then 1 else 0)) :=
  two_cnt_sub_one lab n

/-- A row has at least one positive: its own sample in the other view. -/
theorem one_le_den (lab : LIdx → BitVec 32) (n : Fin 8192) : 1 ≤ Cert.Spec.den lab n := by
  rw [den_eq_coe, real_count]
  have h1 : ind lab (lab (ix1 (smp n))) (smp n) = 1 := by unfold ind; exact if_pos rfl
  have hS : (1 : ℝ) ≤ ∑ b : Fin 4096, ind lab (lab (ix1 (smp n))) b := by
    rw [← h1]
    exact Finset.single_le_sum (f := fun b => ind lab (lab (ix1 (smp n))) b) (fun b _ => ind_nonneg lab _ b) (Finset.mem_univ (smp n))
  have : (1 : ℝ) ≤ 2 * (∑ b : Fin 4096, ind lab (lab (ix1 (smp n))) b) - 1 := by linarith
  exact_mod_cast this

theorem den_ne_zero (lab : LIdx → BitVec 32) (n : Fin 8192) : Cert.Spec.den lab n ≠ 0 := by
  intro e; have := one_le_den lab n; rw [e] at this; exact absurd this (by simp)
theorem den_ne_top (lab : LIdx → BitVec 32) (n : Fin 8192) : Cert.Spec.den lab n ≠ ⊤ := by
  rw [den_eq_coe]; exact EReal.coe_ne_top _
theorem den_ne_bot (lab : LIdx → BitVec 32) (n : Fin 8192) : Cert.Spec.den lab n ≠ ⊥ := by
  rw [den_eq_coe]; exact EReal.coe_ne_bot _

namespace HostVals

/-! ## The counts as the host operations build them -/

section Counts

/-- The f32 pattern of 2.0 is 2. -/
theorem ofBits_two : Ideal.ofBits .f32 0x40000000#32 = 2 := by
  rw [show (2 : EReal) = ((2 : ℝ) : EReal) by norm_cast]
  simp [Ideal.ofBits, Ideal.ieee, -EReal.coe_mul]; norm_num

/-- The equality bit of two words, converted to a float, is 1 when they are equal and 0 when not. -/
theorem onehot_word (a b : BitVec 32) :
    (FloatOps.uitofp (F := Ideal) .f32 (IntOp.cmpi .eq a b) : EReal) = if a = b then 1 else 0 := by
  show (((IntOp.cmpi .eq a b).toNat : ℝ) : EReal) = _
  by_cases h : a = b
  · rw [if_pos h, h]; simp [IntOp.cmpi]
  · rw [if_neg h]; simp [IntOp.cmpi, h]

/-- The per-class counts: entry k of the column sums of the one-hot matrix is the number of samples with label k. -/
theorem counts_apply (lab : IVec S4096 32)
    (hb8 : S4096.BroadcastsInDim S4096x1 ![0]) (hb9 : S100.BroadcastsInDim S1x100 ![1])
    (hb10 : S4096x1.BroadcastsInDim S4096x100 ![0, 1]) (hb11 : S1x100.BroadcastsInDim S4096x100 ![0, 1])
    (hr : S4096x100.ReducesTo [0] S100) (hu : 0 < S_.numel) (k : Fin 100) :
    Host.reduceAdd (F := Ideal)
        (uitofp (F := Ideal) .f32 (cmpi .eq (broadcastInDim S4096x100 ![0, 1] hb10 (broadcastInDim S4096x1 ![0] hb8 lab))
          (broadcastInDim S4096x100 ![0, 1] hb11 (broadcastInDim S1x100 ![1] hb9 (iotaInDim S100 32 0)))))
        (constant (F := Ideal) S_ .f32 0x00000000#32) hr hu (ix1 k)
      = cntOf lab (BitVec.ofNat 32 k.val) := by
  have hred : S4096x100.Reduces [0] S100 := by decide
  rw [hostReduceAdd_apply, Ideal.hostReduceAdd_single hr hred, constant_apply, Ideal.ofBits_zero_f32]
  unfold cntOf
  refine congrArg (fun z : EReal => 0 + z) (Finset.sum_congr rfl fun (b : Fin 4096) _ => ?_)
  have hl : hred.lift (ix1 k) b = ix2 b k := by
    funext a; match a with | ⟨0, _⟩ => rfl | ⟨1, _⟩ => rfl
  rw [hl]
  show FloatOps.uitofp (F := Ideal) .f32 (IntOp.cmpi .eq
      (broadcastInDim S4096x100 ![0, 1] hb10 (broadcastInDim S4096x1 ![0] hb8 lab) (StableHlo.Predicate.ij b k))
      (broadcastInDim S4096x100 ![0, 1] hb11 (broadcastInDim S1x100 ![1] hb9 (iotaInDim S100 32 0)) (StableHlo.Predicate.ij b k))) = _
  rw [StableHlo.Predicate.bcast_rows hb8 hb10 lab b k, StableHlo.Predicate.bcast_cols hb9 hb11 _ b k, StableHlo.Predicate.iota_apply, ofFin_eq_ix1, onehot_word]

/-- A label in [0, 100) is its own gather index: the wrap-around select keeps it. -/
theorem index_apply (lab : IVec S4096 32) (hlab : ∀ b : S4096.Idx, (lab b).toNat < 100)
    (hb0 : S_.BroadcastsInDim S4096 ![]) (hb8 : S4096.BroadcastsInDim S4096x1 ![0]) (s : Fin 4096) :
    broadcastInDim S4096x1 ![0] hb8
        (select (cmpi .slt lab (broadcastInDim S4096 ![] hb0 (constantI S_ 32 0#32)))
          (addi lab (broadcastInDim S4096 ![] hb0 (constantI S_ 32 100#32))) lab) (StableHlo.Predicate.ixP s)
      = lab (ix1 s) := by
  rw [StableHlo.Predicate.bcast_col1 hb8 _ s, ofFin_eq_ix1]
  show Scalar.select (IntOp.cmpi .slt (lab (ix1 s)) (broadcastInDim S4096 ![] hb0 (constantI S_ 32 0#32) (ix1 s))) _ (lab (ix1 s)) = _
  rw [broadcastInDim_scalar_apply]
  have h0 : IntOp.cmpi .slt (lab (ix1 s)) (constantI S_ 32 0#32 ix0) = 0#1 := by
    apply eq_zero_of_ne_one
    intro h
    have hs := hlab (ix1 s)
    have := (StableHlo.Predicate.slt_iff_toNat (a := lab (ix1 s)) (b := 0#32) (by omega) (by decide)).mp h
    simp at this
  rw [h0, select_zero]

/-- The positive-pair counts per row: the per-class counts gathered at each sample's label, repeated once per view,
    doubled, less one. Entry n is twice the number of samples with row n's label, less one. -/
theorem perRow_apply (lab : IVec S4096 32) (hlab : ∀ b : S4096.Idx, (lab b).toNat < 100)
    (G : GatherDims S100 S4096x1 S4096) (hcoll : G.collapsedSliceDims = [0]) (hob : G.operandBatchingDims = [])
    (hsim : G.startIndexMap = [0]) (hivd : G.indexVectorDim = 1)
    (hb8 : S4096.BroadcastsInDim S4096x1 ![0]) (hb9 : S100.BroadcastsInDim S1x100 ![1])
    (hb10 : S4096x1.BroadcastsInDim S4096x100 ![0, 1]) (hb11 : S1x100.BroadcastsInDim S4096x100 ![0, 1])
    (hr : S4096x100.ReducesTo [0] S100) (hu : 0 < S_.numel)
    (hb0 : S_.BroadcastsInDim S4096 ![]) (hbs : S_.BroadcastsInDim S8192 ![])
    (h1 : S4096.ShapeCasts S1x4096) (hbt : S1x4096.BroadcastsInDim S2x4096 ![0, 1]) (h2 : S2x4096.ShapeCasts S8192)
    (h3 : S8192.ShapeCasts S8192x1) (n : Fin 8192) :
    shapeCast S8192x1
        (subf
          (mulf (broadcastInDim S8192 ![] hbs (constant (F := Ideal) S_ .f32 0x40000000#32))
            (shapeCast S8192 (broadcastInDim S2x4096 ![0, 1] hbt (shapeCast S1x4096
              (Host.gather G
                (Host.reduceAdd (F := Ideal)
                  (uitofp (F := Ideal) .f32 (cmpi .eq (broadcastInDim S4096x100 ![0, 1] hb10 (broadcastInDim S4096x1 ![0] hb8 lab))
                    (broadcastInDim S4096x100 ![0, 1] hb11 (broadcastInDim S1x100 ![1] hb9 (iotaInDim S100 32 0)))))
                  (constant (F := Ideal) S_ .f32 0x00000000#32) hr hu)
                (broadcastInDim S4096x1 ![0] hb8
                  (select (cmpi .slt lab (broadcastInDim S4096 ![] hb0 (constantI S_ 32 0#32)))
                    (addi lab (broadcastInDim S4096 ![] hb0 (constantI S_ 32 100#32))) lab)))
              h1)) h2))
          (broadcastInDim S8192 ![] hbs (constant (F := Ideal) S_ .f32 0x3F800000#32)))
        h3 (ix2 n (0 : Fin 1))
      = 2 * cntOf lab (lab (ix1 (smp n))) - 1 := by
  rw [col_apply, subf_apply, mulf_apply, broadcastInDim_scalar_apply, broadcastInDim_scalar_apply, constant_apply, constant_apply,
    ofBits_two, Ideal.ofBits_one_f32, tiled_apply]
  rw [← ofFin_eq_ix1 (smp n), StableHlo.Predicate.gather_take G hcoll hob hsim hivd _ _ (smp n) (by decide)]
  simp only [ofFin_eq_ix1]
  rw [counts_apply]
  dsimp only
  rw [index_apply lab hlab hb0 hb8]
  have hs := hlab (ix1 (smp n))
  have hk : min (lab (ix1 (smp n))).toInt.toNat (100 - 1) = (lab (ix1 (smp n))).toNat := by
    rw [StableHlo.Predicate.toInt_eq_toNat_of_lt (by omega)]
    simp only [Int.toNat_natCast]
    omega
  rw [hk, BitVec.ofNat_toNat, BitVec.setWidth_eq]

end Counts

end HostVals

/-! ## The four arrays when the region is entered -/

section AtRegion
variable (m : (ℓ : Loc nD τ sig) → Buf (Elt Ideal) ℓ)

/-- The stacked features: entry (n, d) is the features at sample n % 4096, view n / 4096, coordinate d. -/
theorem V_v1_apply (c : Dev nD) (n : Fin 8192) (d : Fin 128) :
    (V m c main_v1 : S8192x128.Idx → EReal) (ix2 n d)
      = (m ((c : Thread nD τ).loc main_arg0) : S4096x2x128.Idx → EReal) (ix3 (smp n) (view n) d) := by
  have e : (V m c main_v1 : S8192x128.Idx → EReal)
      = shapeCast S8192x128 (transpose S2x4096x128 [1, 0, 2] (m ((c : Thread nD τ).loc main_arg0) : S4096x2x128.Idx → EReal)
          Facts₀.transposes_S4096x2x128_S2x4096x128_1_0_2) Facts₀.shapeCasts_S2x4096x128_S8192x128 := by
    dsimp only [V, V0]
    simp only [hostOps0, List.flatten_cons, List.flatten_nil, List.append_nil]
    after_results_simp
    rfl
  rw [e]
  exact stacked_apply _ _ _ n d

/-- The labels as a column: entry n is the label of sample n % 4096. -/
theorem V_v5_apply (c : Dev nD) (n : Fin 8192) :
    (V m c main_v5 : S8192x1.Idx → BitVec 32) (ix2 n (0 : Fin 1))
      = (m ((c : Thread nD τ).loc main_arg1) : S4096.Idx → BitVec 32) (ix1 (smp n)) := by
  have e : (V m c main_v5 : S8192x1.Idx → BitVec 32)
      = shapeCast S8192x1 (shapeCast S8192 (broadcastInDim S2x4096 ![0, 1] Facts₀.bcast_S1x4096_S2x4096_0_1
          (shapeCast S1x4096 (m ((c : Thread nD τ).loc main_arg1) : S4096.Idx → BitVec 32) Facts₀.shapeCasts_S4096_S1x4096))
          Facts₀.shapeCasts_S2x4096_S8192) Facts₀.shapeCasts_S8192_S8192x1 := by
    dsimp only [V, V0]
    simp only [hostOps0, List.flatten_cons, List.flatten_nil, List.append_nil]
    after_results_simp
    rfl
  rw [e, col_apply, tiled_apply]

/-- The labels as a row: entry n is the label of sample n % 4096. -/
theorem V_v6_apply (c : Dev nD) (n : Fin 8192) :
    (V m c main_v6 : S1x8192.Idx → BitVec 32) (ix2 (0 : Fin 1) n)
      = (m ((c : Thread nD τ).loc main_arg1) : S4096.Idx → BitVec 32) (ix1 (smp n)) := by
  have e : (V m c main_v6 : S1x8192.Idx → BitVec 32)
      = shapeCast S1x8192 (shapeCast S8192 (broadcastInDim S2x4096 ![0, 1] Facts₀.bcast_S1x4096_S2x4096_0_1
          (shapeCast S1x4096 (m ((c : Thread nD τ).loc main_arg1) : S4096.Idx → BitVec 32) Facts₀.shapeCasts_S4096_S1x4096))
          Facts₀.shapeCasts_S2x4096_S8192) Facts₀.shapeCasts_S8192_S1x8192 := by
    dsimp only [V, V0]
    simp only [hostOps0, List.flatten_cons, List.flatten_nil, List.append_nil]
    after_results_simp
    rfl
  rw [e, row_apply, tiled_apply]

/-- The positive counts: for labels in [0, 100), entry n is twice the number of samples with row n's label, less one. -/
theorem V_v29_apply (c : Dev nD)
    (hlab : ∀ b : S4096.Idx, ((m ((c : Thread nD τ).loc main_arg1) : S4096.Idx → BitVec 32) b).toNat < 100) (n : Fin 8192) :
    (V m c main_v29 : S8192x1.Idx → EReal) (ix2 n (0 : Fin 1))
      = 2 * cntOf (m ((c : Thread nD τ).loc main_arg1)) ((m ((c : Thread nD τ).loc main_arg1) : S4096.Idx → BitVec 32) (ix1 (smp n))) - 1 := by
  have e : (V m c main_v29 : S8192x1.Idx → EReal)
      = shapeCast S8192x1
        (subf
          (mulf (broadcastInDim S8192 ![] Facts₀.bcast_S_S8192 (constant (F := Ideal) S_ .f32 0x40000000#32))
            (shapeCast S8192 (broadcastInDim S2x4096 ![0, 1] Facts₀.bcast_S1x4096_S2x4096_0_1 (shapeCast S1x4096
              (Host.gather gather_S100_S4096x1_S4096_n_0_n_n_0_1_1
                (Host.reduceAdd (F := Ideal)
                  (uitofp (F := Ideal) .f32 (cmpi .eq (broadcastInDim S4096x100 ![0, 1] Facts₀.bcast_S4096x1_S4096x100_0_1
                      (broadcastInDim S4096x1 ![0] Facts₀.bcast_S4096_S4096x1_0 (m ((c : Thread nD τ).loc main_arg1) : S4096.Idx → BitVec 32)))
                    (broadcastInDim S4096x100 ![0, 1] Facts₀.bcast_S1x100_S4096x100_0_1
                      (broadcastInDim S1x100 ![1] Facts₀.bcast_S100_S1x100_1 (iotaInDim S100 32 0)))))
                  (constant (F := Ideal) S_ .f32 0x00000000#32) Facts₀.reducesTo_S4096x100_S100_d0 Facts₀.h_S_)
                (broadcastInDim S4096x1 ![0] Facts₀.bcast_S4096_S4096x1_0
                  (select (cmpi .slt (m ((c : Thread nD τ).loc main_arg1) : S4096.Idx → BitVec 32)
                      (broadcastInDim S4096 ![] Facts₀.bcast_S_S4096 (constantI S_ 32 0#32)))
                    (addi (m ((c : Thread nD τ).loc main_arg1) : S4096.Idx → BitVec 32)
                      (broadcastInDim S4096 ![] Facts₀.bcast_S_S4096 (constantI S_ 32 100#32)))
                    (m ((c : Thread nD τ).loc main_arg1) : S4096.Idx → BitVec 32))))
              Facts₀.shapeCasts_S4096_S1x4096)) Facts₀.shapeCasts_S2x4096_S8192))
          (broadcastInDim S8192 ![] Facts₀.bcast_S_S8192 (constant (F := Ideal) S_ .f32 0x3F800000#32)))
        Facts₀.shapeCasts_S8192_S8192x1 := by
    dsimp only [V, V0]
    simp only [hostOps0, List.flatten_cons, List.flatten_nil, List.append_nil]
    after_results_simp
    rfl
  rw [e]
  exact perRow_apply _ hlab gather_S100_S4096x1_S4096_n_0_n_n_0_1_1 rfl rfl rfl rfl _ _ _ _ _ _ _ _ _ _ _ _ n

/-- The positive counts are the numbers of positives: for labels in [0, 100), entry n is the number of rows other
    than n whose sample carries row n's label. -/
theorem V_v29_eq_den (c : Dev nD)
    (hlab : ∀ b : S4096.Idx, ((m ((c : Thread nD τ).loc main_arg1) : S4096.Idx → BitVec 32) b).toNat < 100) (n : Fin 8192) :
    (V m c main_v29 : S8192x1.Idx → EReal) (ix2 n (0 : Fin 1)) = Cert.Spec.den (m ((c : Thread nD τ).loc main_arg1)) n := by
  rw [V_v29_apply m c hlab n, two_cnt_sub_one]

end AtRegion

end Cert.KernelIdeal.Hand

end
-- ==== Proof.Algebra.lean ====
/-
  The algebra of one row of the supervised-contrastive loss.

  A row has 8192 logits, read as 4 tiles of 2048 columns. The one-pass form takes the row's maximum M,
  the normaliser L = sum of exp (s - M) * w over the row (w the 0/1 mask that drops the diagonal), and
  answers minus the mean over the positives (pw the 0/1 positives' mask, already times w) of
  (s - M) - log L. The tiled form walks the tiles carrying (m, l, a): the running maximum, the normaliser
  relative to the running maximum, and the sum of the positives' logits; each tile rescales l by
  exp (m - m') — the identity exp (x - m) * exp (m - m') = exp (x - m') — and after the last tile answers
  minus ((a / cnt - m) - log l), cnt the number of positives. The two agree because

    sum of pw * ((s - M) - log L) = a - (M + log L) * cnt,

  so dividing by cnt (not zero: the row has a positive) gives a / cnt - M - log L.

  All of it happens on the extended reals, where every logit is a real; the sums and products of reals
  are computed in the reals and carried back.
-/
import Idealize.ShloMosaic.PureOps.Ideal
import proofs.«430023_j72756745994686_3_alg».proof.Proof.Spec
import Mathlib.Algebra.BigOperators.Fin
import Mathlib.Data.Finset.Fold
import Mathlib.Data.EReal.Basic
import Mathlib.Data.EReal.Operations
import Mathlib.Data.EReal.Inv
import Mathlib.Analysis.SpecialFunctions.Exp
import Mathlib.Analysis.SpecialFunctions.Log.Basic
import Mathlib.Tactic.Ring
import Mathlib.Tactic.FieldSimp
import Mathlib.Tactic.Linarith
import Mathlib.Tactic.FinCases

noncomputable section

open scoped BigOperators

namespace Cert.Algebra

open Idealize.ShloMosaic

/-! ## Reals inside the extended reals -/

/-- A finite sum of reals, carried into the extended reals, is the sum of the carried terms. -/
theorem coe_sum {ι : Type*} (S : Finset ι) (f : ι → ℝ) : ((∑ i ∈ S, f i : ℝ) : EReal) = ∑ i ∈ S, (f i : EReal) := by
  classical
  refine Finset.induction_on S ?_ ?_
  · simp
  · intro a S ha ih
    rw [Finset.sum_insert ha, Finset.sum_insert ha, EReal.coe_add, ih]

/-- The larger of two reals, carried, is the larger of the carried. -/
theorem coe_max (a b : ℝ) : ((max a b : ℝ) : EReal) = max (a : EReal) (b : EReal) :=
  EReal.coe_strictMono.monotone.map_max

/-! ## The tiled form -/

/-- One tile's update of (running maximum, normaliser relative to it, sum of the positives' logits);
    tm is the tile's maximum. -/
def tileStep (st : EReal × EReal × EReal) (tm : EReal) (s w pw : Fin 2048 → EReal) : EReal × EReal × EReal :=
  (max st.1 tm,
    st.2.1 * Ideal.exp (st.1 - max st.1 tm) + (0 + ∑ q, Ideal.exp (s q - max st.1 tm) * w q),
    st.2.2 + (0 + ∑ q, pw q * s q))

/-- The four tiles in turn, from (-infinity, 0, 0). -/
def rowState (s w pw : Fin 4 → Fin 2048 → EReal) (tm : Fin 4 → EReal) : EReal × EReal × EReal :=
  tileStep (tileStep (tileStep (tileStep (⊥, 0, 0) (tm 0) (s 0) (w 0) (pw 0)) (tm 1) (s 1) (w 1) (pw 1))
    (tm 2) (s 2) (w 2) (pw 2)) (tm 3) (s 3) (w 3) (pw 3)

/-- The row's answer from the final state: minus ((a / cnt - m) - log l), where l is positive. -/
def kernOut (st : EReal × EReal × EReal) (cnt junk : EReal) : EReal :=
  (-1) * (if 0 < st.2.1 then (Ideal.div st.2.2 cnt - st.1) - Ideal.log st.2.1 else junk)

/-- The first tile: from -infinity the running maximum is the tile's, and nothing is rescaled. -/
theorem tileStep_bot (t : ℝ) (s w pw : Fin 2048 → ℝ) :
    tileStep (⊥, 0, 0) (t : EReal) (fun q => (s q : EReal)) (fun q => (w q : EReal)) (fun q => (pw q : EReal))
      = ((t : EReal), ((∑ q, Real.exp (s q - t) * w q : ℝ) : EReal), ((∑ q, pw q * s q : ℝ) : EReal)) := by
  unfold tileStep
  simp only [zero_add, zero_mul, max_eq_right (bot_le : (⊥ : EReal) ≤ (t : EReal)), ← EReal.coe_sub, Ideal.exp_coe,
    ← EReal.coe_mul, ← coe_sum]

/-- A later tile, over a state of reals. -/
theorem tileStep_coe (m l a t : ℝ) (s w pw : Fin 2048 → ℝ) :
    tileStep ((m : EReal), (l : EReal), (a : EReal)) (t : EReal) (fun q => (s q : EReal)) (fun q => (w q : EReal))
        (fun q => (pw q : EReal))
      = (((max m t : ℝ) : EReal), ((l * Real.exp (m - max m t) + ∑ q, Real.exp (s q - max m t) * w q : ℝ) : EReal),
          ((a + ∑ q, pw q * s q : ℝ) : EReal)) := by
  unfold tileStep
  simp only [zero_add, ← coe_max, ← EReal.coe_sub, Ideal.exp_coe, ← EReal.coe_mul, ← coe_sum, ← EReal.coe_add]

/-- Rescaling a tile's normaliser from one maximum to another. -/
theorem rescale (f w : Fin 2048 → ℝ) (m mn : ℝ) :
    (∑ q, Real.exp (f q - m) * w q) * Real.exp (m - mn) = ∑ q, Real.exp (f q - mn) * w q := by
  rw [Finset.sum_mul]
  refine Finset.sum_congr rfl fun q _ => ?_
  rw [mul_right_comm, ← Real.exp_add]
  congr 2
  ring

/-- The four tiles over reals: the running maximum is the largest tile maximum, the normaliser is the
    whole row's relative to it, the third component the whole row's sum of positives' logits. -/
theorem rowState_coe (s w pw : Fin 4 → Fin 2048 → ℝ) (t : Fin 4 → ℝ) :
    rowState (fun j q => (s j q : EReal)) (fun j q => (w j q : EReal)) (fun j q => (pw j q : EReal)) (fun j => (t j : EReal))
      = (((max (max (max (t 0) (t 1)) (t 2)) (t 3) : ℝ) : EReal),
          ((∑ j, ∑ q, Real.exp (s j q - max (max (max (t 0) (t 1)) (t 2)) (t 3)) * w j q : ℝ) : EReal),
          ((∑ j, ∑ q, pw j q * s j q : ℝ) : EReal)) := by
  unfold rowState
  dsimp only
  rw [tileStep_bot, tileStep_coe, tileStep_coe, tileStep_coe]
  refine Prod.ext rfl (Prod.ext ?_ ?_)
  · show ((_ : ℝ) : EReal) = ((_ : ℝ) : EReal)
    congr 1
    rw [Fin.sum_univ_four, add_mul, add_mul, add_mul, rescale, rescale, rescale, rescale, rescale, rescale]
  · show ((_ : ℝ) : EReal) = ((_ : ℝ) : EReal)
    congr 1
    rw [Fin.sum_univ_four]

/-- Minus one is a real. -/
theorem neg_one_coe : (-1 : EReal) = ((-1 : ℝ) : EReal) := by rw [EReal.coe_neg, EReal.coe_one]

/-- The tiled answer over a state of reals with a positive normaliser and a nonzero count. -/
theorem kernOut_coe (m l a c : ℝ) (hl : 0 < l) (hc : c ≠ 0) (junk : EReal) :
    kernOut ((m : EReal), (l : EReal), (a : EReal)) (c : EReal) junk
      = (((-1) * ((a * (1 / c) - m) - Real.log l) : ℝ) : EReal) := by
  unfold kernOut
  dsimp only
  rw [if_pos (EReal.coe_pos.2 hl), Ideal.div_coe hc, Ideal.log_coe, if_neg (not_le.2 hl)]
  rw [← EReal.coe_mul, ← EReal.coe_sub, ← EReal.coe_sub, neg_one_coe,
    ← EReal.coe_mul]

/-- The one-pass answer over reals with a positive normaliser and a nonzero count. -/
theorem ref_coe (s w pw : Fin 4 → Fin 2048 → ℝ) (M : ℝ)
    (hl : 0 < ∑ j, ∑ q, Real.exp (s j q - M) * w j q) (hc : (∑ j, ∑ q, pw j q) ≠ 0) :
    (-1) * Ideal.div (0 + ∑ j, ∑ q, (pw j q : EReal) * ((((s j q : ℝ) : EReal) - (M : EReal))
        - Ideal.log (0 + ∑ j', ∑ q', Ideal.exp (((s j' q' : ℝ) : EReal) - (M : EReal)) * (w j' q' : EReal))))
        (0 + ∑ j, ∑ q, (pw j q : EReal))
      = (((-1) * ((∑ j, ∑ q, pw j q * ((s j q - M) - Real.log (∑ j', ∑ q', Real.exp (s j' q' - M) * w j' q')))
          * (1 / ∑ j, ∑ q, pw j q)) : ℝ) : EReal) := by
  simp only [zero_add, ← EReal.coe_sub, Ideal.exp_coe, ← EReal.coe_mul, ← coe_sum]
  rw [Ideal.log_coe, if_neg (not_le.2 hl), Ideal.div_coe hc]
  simp only [← EReal.coe_sub, ← EReal.coe_mul, ← coe_sum]
  rw [neg_one_coe, ← EReal.coe_mul]

/-- The sum of the positives' shifted log-probabilities, in terms of the sum of their logits and their number. -/
theorem num_eq (s pw : Fin 4 → Fin 2048 → ℝ) (K : ℝ) :
    (∑ j, ∑ q, pw j q * (s j q - K)) = (∑ j, ∑ q, pw j q * s j q) - (∑ j, ∑ q, pw j q) * K := by
  rw [Finset.sum_mul, ← Finset.sum_sub_distrib]
  refine Finset.sum_congr rfl fun j _ => ?_
  rw [Finset.sum_mul, ← Finset.sum_sub_distrib]
  refine Finset.sum_congr rfl fun q _ => ?_
  ring

/-- THE ROW. The tiled form's answer is the one-pass form's. -/
theorem row_eq (s : Fin 4 → Fin 2048 → ℝ) (w pw : Fin 4 → Fin 2048 → EReal)
    (hw : ∀ j q, w j q = 0 ∨ w j q = 1) (hpw : ∀ j q, pw j q = 0 ∨ pw j q = w j q)
    (tm : Fin 4 → EReal) (htm : ∀ j, (∀ q, ((s j q : ℝ) : EReal) ≤ tm j) ∧ ∃ q, tm j = ((s j q : ℝ) : EReal))
    (M : EReal) (hM : (∀ j q, ((s j q : ℝ) : EReal) ≤ M) ∧ ∃ j q, M = ((s j q : ℝ) : EReal))
    (cnt junk : EReal) (hcnt : cnt = 0 + ∑ j, ∑ q, pw j q) (hpos : ∃ j q, pw j q = 1) :
    kernOut (rowState (fun j q => ((s j q : ℝ) : EReal)) w pw tm) cnt junk
      = (-1) * Ideal.div (0 + ∑ j, ∑ q, pw j q * ((((s j q : ℝ) : EReal) - M)
          - Ideal.log (0 + ∑ j', ∑ q', Ideal.exp (((s j' q' : ℝ) : EReal) - M) * w j' q')))
          (0 + ∑ j, ∑ q, pw j q) := by
  -- the masks are reals
  have hw' : ∀ j q, ∃ r : ℝ, w j q = (r : EReal) ∧ (r = 0 ∨ r = 1) := fun j q => by
    rcases hw j q with h | h
    · exact ⟨0, by rw [h, EReal.coe_zero], Or.inl rfl⟩
    · exact ⟨1, by rw [h, EReal.coe_one], Or.inr rfl⟩
  choose wr hwr hwr01 using hw'
  obtain rfl : w = fun j q => ((wr j q : ℝ) : EReal) := funext fun j => funext fun q => hwr j q
  have hpw' : ∀ j q, ∃ r : ℝ, pw j q = (r : EReal) ∧ (r = 0 ∨ r = wr j q) := fun j q => by
    rcases hpw j q with h | h
    · exact ⟨0, by rw [h, EReal.coe_zero], Or.inl rfl⟩
    · exact ⟨wr j q, h, Or.inr rfl⟩
  choose pr hpr hpr0w using hpw'
  obtain rfl : pw = fun j q => ((pr j q : ℝ) : EReal) := funext fun j => funext fun q => hpr j q
  -- the tile maxima and the row maximum are logits
  choose qt hqt using fun j => (htm j).2
  obtain rfl : tm = fun j => ((s j (qt j) : ℝ) : EReal) := funext hqt
  obtain ⟨hMle, jM, qM, rfl⟩ := hM
  have htle : ∀ j q, s j q ≤ s j (qt j) := fun j q => EReal.coe_le_coe_iff.1 ((htm j).1 q)
  have hMle' : ∀ j q, s j q ≤ s jM qM := fun j q => EReal.coe_le_coe_iff.1 (hMle j q)
  -- the row maximum is the largest tile maximum
  have hmax : max (max (max (s 0 (qt 0)) (s 1 (qt 1))) (s 2 (qt 2))) (s 3 (qt 3)) = s jM qM := by
    apply le_antisymm
    · exact max_le (max_le (max_le (hMle' _ _) (hMle' _ _)) (hMle' _ _)) (hMle' _ _)
    · have hj : ∀ j : Fin 4, s j (qt j) ≤ max (max (max (s 0 (qt 0)) (s 1 (qt 1))) (s 2 (qt 2))) (s 3 (qt 3)) := by
        intro j
        fin_cases j
        · exact le_max_of_le_left (le_max_of_le_left (le_max_left _ _))
        · exact le_max_of_le_left (le_max_of_le_left (le_max_right _ _))
        · exact le_max_of_le_left (le_max_right _ _)
        · exact le_max_right _ _
      exact (htle jM qM).trans (hj jM)
  -- the masks are nonnegative, and some positive is set
  have hwr0 : ∀ j q, 0 ≤ wr j q := fun j q => by rcases hwr01 j q with h | h <;> rw [h] <;> norm_num
  have hpr0 : ∀ j q, 0 ≤ pr j q := fun j q => by
    rcases hpr0w j q with h | h
    · rw [h]
    · rw [h]; exact hwr0 j q
  obtain ⟨j1, q1, h1⟩ := hpos
  have hp1 : pr j1 q1 = 1 := by
    have h1' : ((pr j1 q1 : ℝ) : EReal) = ((1 : ℝ) : EReal) := by rw [EReal.coe_one]; exact h1
    exact EReal.coe_eq_coe_iff.1 h1'
  have hw1 : wr j1 q1 = 1 := by
    rcases hpr0w j1 q1 with h | h
    · rw [h] at hp1; exact absurd hp1 (by norm_num)
    · rw [← h]; exact hp1
  have hl : 0 < ∑ j, ∑ q, Real.exp (s j q - s jM qM) * wr j q := by
    refine Finset.sum_pos' (fun j _ => Finset.sum_nonneg fun q _ => mul_nonneg (Real.exp_pos _).le (hwr0 j q))
      ⟨j1, Finset.mem_univ _, Finset.sum_pos' (fun q _ => mul_nonneg (Real.exp_pos _).le (hwr0 j1 q))
        ⟨q1, Finset.mem_univ _, ?_⟩⟩
    rw [hw1, mul_one]; exact Real.exp_pos _
  have hc : 0 < ∑ j, ∑ q, pr j q := by
    refine Finset.sum_pos' (fun j _ => Finset.sum_nonneg fun q _ => hpr0 j q)
      ⟨j1, Finset.mem_univ _, Finset.sum_pos' (fun q _ => hpr0 j1 q) ⟨q1, Finset.mem_univ _, ?_⟩⟩
    rw [hp1]; exact one_pos
  -- both sides as reals
  have hcnt' : cnt = ((∑ j, ∑ q, pr j q : ℝ) : EReal) := by
    rw [hcnt, zero_add]; simp only [← coe_sum]
  rw [rowState_coe s wr pr (fun j => s j (qt j)), hmax, hcnt', kernOut_coe _ _ _ _ hl hc.ne',
    ref_coe s wr pr (s jM qM) hl hc.ne']
  congr 1
  rw [show (∑ j, ∑ q, pr j q * ((s j q - s jM qM) - Real.log (∑ j', ∑ q', Real.exp (s j' q' - s jM qM) * wr j' q')))
      = ∑ j, ∑ q, pr j q * (s j q - (s jM qM + Real.log (∑ j', ∑ q', Real.exp (s j' q' - s jM qM) * wr j' q'))) from
      Finset.sum_congr rfl fun j _ => Finset.sum_congr rfl fun q _ => by ring, num_eq]
  field_simp
  ring

/-! ## The row as four tiles -/

/-- Column q of tile j. -/
def col (j : Fin 4) (q : Fin 2048) : Fin 8192 :=
  ⟨2048 * j.val + q.val, by have := j.isLt; have := q.isLt; omega⟩

/-- The columns are the (tile, column in the tile) pairs. -/
def colEquiv : Fin 4 × Fin 2048 ≃ Fin 8192 where
  toFun p := col p.1 p.2
  invFun n := (⟨n.val / 2048, by have := n.isLt; omega⟩, ⟨n.val % 2048, Nat.mod_lt _ (by decide)⟩)
  left_inv p := by
    have h1 := p.1.isLt
    have h2 := p.2.isLt
    refine Prod.ext (Fin.ext ?_) (Fin.ext ?_)
    · show (2048 * p.1.val + p.2.val) / 2048 = p.1.val
      omega
    · show (2048 * p.1.val + p.2.val) % 2048 = p.2.val
      omega
  right_inv n := Fin.ext (by show 2048 * (n.val / 2048) + n.val % 2048 = n.val; omega)

/-- Every column is a column of a tile. -/
theorem exists_col (n : Fin 8192) : ∃ j q, col j q = n :=
  ⟨(colEquiv.symm n).1, (colEquiv.symm n).2, colEquiv.apply_symm_apply n⟩

/-- A sum over the row is the sum over the tiles of the sums over each tile's columns. -/
theorem sum_split {M : Type*} [AddCommMonoid M] (f : Fin 8192 → M) :
    ∑ n, f n = ∑ j : Fin 4, ∑ q : Fin 2048, f (col j q) := by
  rw [← Equiv.sum_comp colEquiv f, Fintype.sum_prod_type]
  rfl

/-- The same with the column spelt out. -/
theorem sum_split' (f : Fin 8192 → EReal) :
    ∑ n, f n = ∑ j : Fin 4, ∑ q : Fin 2048, f ⟨2048 * j.val + q.val, by omega⟩ :=
  sum_split f

/-- A maximum folded from -infinity over finitely many reals (at least one) bounds each and is one of them. -/
theorem fold_max_spec {ι : Type*} [Fintype ι] [Nonempty ι] (f : ι → EReal) :
    (∀ i, f i ≤ Finset.univ.fold max ⊥ f) ∧ ∃ i, Finset.univ.fold max ⊥ f = f i := by
  refine ⟨fun i => (Finset.le_fold_max _).2 (Or.inr ⟨i, Finset.mem_univ _, le_rfl⟩), ?_⟩
  obtain ⟨i0, -, h0⟩ := Finset.exists_max_image Finset.univ f Finset.univ_nonempty
  exact ⟨i0, le_antisymm ((Finset.fold_max_le _).2 ⟨bot_le, fun i hi => h0 i hi⟩)
    ((Finset.le_fold_max _).2 (Or.inr ⟨i0, Finset.mem_univ _, le_rfl⟩))⟩

/-- The row's folded maximum, read by tiles. -/
theorem fold_max_tiles (f : Fin 8192 → EReal) :
    (∀ j q, f (col j q) ≤ Finset.univ.fold max ⊥ f) ∧ ∃ j q, Finset.univ.fold max ⊥ f = f (col j q) := by
  obtain ⟨h1, n, h2⟩ := fold_max_spec f
  obtain ⟨j, q, rfl⟩ := exists_col n
  exact ⟨fun j q => h1 _, j, q, h2⟩

/-! ## The temperature -/

/-- The f32 pattern of 0.07 is 9395241 / 2^27. -/
theorem ofBits_temp : Ideal.ofBits .f32 0x3D8F5C29#32 = ((9395241 / 134217728 : ℝ) : EReal) := by
  simp [Ideal.ofBits, Ideal.ieee, -EReal.coe_mul]; norm_num

/-- Dividing a contraction of reals by the temperature: a real, the contraction times the reciprocal. -/
theorem div_temp_coe (a b : Fin 128 → ℝ) :
    Ideal.div (∑ d, ((a d : ℝ) : EReal) * ((b d : ℝ) : EReal)) (Ideal.ofBits .f32 0x3D8F5C29#32)
      = (((∑ d, a d * b d) * (134217728 / 9395241) : ℝ) : EReal) := by
  rw [ofBits_temp, Ideal.div_coe (by norm_num)]
  simp only [← EReal.coe_mul, ← coe_sum]
  norm_num

/-- Scaling one factor by the reciprocal of the temperature, or dividing the contraction by the temperature. -/
theorem logit_eq (a b : Fin 128 → ℝ) :
    (∑ d, (((a d : ℝ) : EReal) * (((134217728 / 9395241 : ℝ)) : EReal)) * ((b d : ℝ) : EReal))
      = Ideal.div (∑ d, ((a d : ℝ) : EReal) * ((b d : ℝ) : EReal)) (Ideal.ofBits .f32 0x3D8F5C29#32) := by
  rw [div_temp_coe]
  simp only [← EReal.coe_mul, ← coe_sum]
  congr 1
  rw [Finset.sum_mul]
  exact Finset.sum_congr rfl fun d _ => by ring

/-- The same when the left sum carries its initial 0. -/
theorem logit_eq_zero_add (a b : Fin 128 → ℝ) :
    0 + (∑ d, (((a d : ℝ) : EReal) * (((134217728 / 9395241 : ℝ)) : EReal)) * ((b d : ℝ) : EReal))
      = Ideal.div (∑ d, ((a d : ℝ) : EReal) * ((b d : ℝ) : EReal)) (Ideal.ofBits .f32 0x3D8F5C29#32) := by
  rw [zero_add, logit_eq]

/-! ## The row against the specification -/

open Cert in
/-- The diagonal mask is 0 or 1. -/
theorem mask_01 (r n : Fin 8192) : Spec.mask r n = 0 ∨ Spec.mask r n = 1 := by
  unfold Spec.mask
  split
  · left; rw [← EReal.coe_one, ← EReal.coe_sub, sub_self, EReal.coe_zero]
  · right; rw [sub_zero]

open Cert in
/-- The positives' mask times the diagonal mask is 0 or the diagonal mask. -/
theorem pos_mask_0w (lab : Spec.LIdx → BitVec 32) (r n : Fin 8192) :
    Spec.pos lab r n * Spec.mask r n = 0 ∨ Spec.pos lab r n * Spec.mask r n = Spec.mask r n := by
  unfold Spec.pos
  split
  · right; rw [one_mul]
  · left; rw [zero_mul]

open Cert in
/-- Every row has a positive: the other view of its own sample. -/
theorem exists_pos (lab : Spec.LIdx → BitVec 32) (r : Fin 8192) : ∃ n, Spec.pos lab r n * Spec.mask r n = 1 := by
  have hr := r.isLt
  refine ⟨⟨(r.val + 4096) % 8192, Nat.mod_lt _ (by decide)⟩, ?_⟩
  have hs : Spec.smp ⟨(r.val + 4096) % 8192, Nat.mod_lt _ (by decide)⟩ = Spec.smp r :=
    Fin.ext (by show (r.val + 4096) % 8192 % 4096 = r.val % 4096; omega)
  have hne : ¬ r = ⟨(r.val + 4096) % 8192, Nat.mod_lt _ (by decide)⟩ := by
    intro h
    have := congrArg Fin.val h
    simp only at this
    omega
  unfold Spec.pos Spec.mask
  rw [hs, if_pos rfl, if_neg hne, sub_zero, one_mul]

open Cert in
/-- THE ROW AGAINST THE SPECIFICATION. With the row's logits real (s), the tiled form's masks the specification's
    read by tiles, the tile maxima true maxima and the count the sum of the positives' mask, the tiled answer
    is minus the row's quotient in the specification. -/
theorem row_eq_spec (x : Spec.XIdx → EReal) (lab : Spec.LIdx → BitVec 32) (r : Fin 8192)
    (s : Fin 4 → Fin 2048 → ℝ) (hs : ∀ j q, Spec.logit x r (col j q) = ((s j q : ℝ) : EReal))
    (w pw : Fin 4 → Fin 2048 → EReal) (hw : ∀ j q, w j q = Spec.mask r (col j q))
    (hpw : ∀ j q, pw j q = Spec.pos lab r (col j q) * Spec.mask r (col j q))
    (tm : Fin 4 → EReal) (htm : ∀ j, (∀ q, ((s j q : ℝ) : EReal) ≤ tm j) ∧ ∃ q, tm j = ((s j q : ℝ) : EReal))
    (cnt junk : EReal) (hcnt : cnt = 0 + ∑ j, ∑ q, pw j q) :
    kernOut (rowState (fun j q => ((s j q : ℝ) : EReal)) w pw tm) cnt junk
      = (-1) * Ideal.div (Spec.num x lab r) (Spec.den lab r) := by
  have hM : (∀ j q, ((s j q : ℝ) : EReal) ≤ Spec.rowMax x r) ∧ ∃ j q, Spec.rowMax x r = ((s j q : ℝ) : EReal) := by
    obtain ⟨h1, j, q, h2⟩ := fold_max_tiles (fun n => Spec.logit x r n)
    exact ⟨fun j q => (hs j q) ▸ h1 j q, j, q, h2.trans (hs j q)⟩
  have hw01 : ∀ j q, w j q = 0 ∨ w j q = 1 := fun j q => by rw [hw]; exact mask_01 r _
  have hpw0w : ∀ j q, pw j q = 0 ∨ pw j q = w j q := fun j q => by rw [hpw, hw]; exact pos_mask_0w lab r _
  have hpos : ∃ j q, pw j q = 1 := by
    obtain ⟨n, hn⟩ := exists_pos lab r
    obtain ⟨j, q, rfl⟩ := exists_col n
    exact ⟨j, q, (hpw j q).trans hn⟩
  have hL : Spec.L x r = 0 + ∑ j, ∑ q, Ideal.exp (((s j q : ℝ) : EReal) - Spec.rowMax x r) * w j q := by
    rw [Spec.L, sum_split]; simp only [hs, hw]
  have hnum : Spec.num x lab r = 0 + ∑ j, ∑ q, pw j q * ((((s j q : ℝ) : EReal) - Spec.rowMax x r)
      - Ideal.log (0 + ∑ j', ∑ q', Ideal.exp (((s j' q' : ℝ) : EReal) - Spec.rowMax x r) * w j' q')) := by
    rw [Spec.num, sum_split, hL]; simp only [hs, hpw]
  have hden : Spec.den lab r = 0 + ∑ j, ∑ q, pw j q := by
    rw [Spec.den, sum_split]; simp only [hpw]
  rw [hnum, hden]
  exact row_eq s w pw hw01 hpw0w tm htm (Spec.rowMax x r) hM cnt junk hcnt hpos

open Cert in
/-- A logit of the specification over real features is a real: the contraction times the reciprocal temperature. -/
theorem spec_logit_coe (x : Spec.XIdx → EReal) (xr : Spec.XIdx → ℝ) (hx : ∀ i, x i = ((xr i : ℝ) : EReal)) (r j : Fin 8192) :
    Spec.logit x r j = (((∑ d : Fin 128, xr (Idealize.ShloMosaic.ValueIdx.ix3 (Spec.smp r) (Spec.view r) d)
        * xr (Idealize.ShloMosaic.ValueIdx.ix3 (Spec.smp j) (Spec.view j) d)) * (134217728 / 9395241) : ℝ) : EReal) := by
  unfold Spec.logit Spec.D Spec.feat
  simp only [hx]
  exact div_temp_coe _ _

end Cert.Algebra

end
-- ==== Proof.KI.PayVals.lean ====
/-
  The kernel body's arithmetic, read at an index.

  One grid point (row tile i of 8, column tile j of 4) of the tiled supervised-contrastive loss works on the row
  tile's 1024 x 128 block x0 of the stacked features, the column tile's 2048 x 128 block x1, the 1024 row labels
  x2 and the 2048 column labels x3, the 1024 counts, and three carried columns of 1024 entries: the running
  maximum m, the sum l of exponentials relative to it and the sum a of the positives' logits. Each of the body's
  pure values is read here at (p, q) or (p, 0), p below 1024 and q below 2048, on the extended reals:

    - the logit tile: the sum over the 128 coordinates of (x0 (p, d) * c) * x1 (q, d), c the named reciprocal
      temperature, the rational 134217728 / 9395241 (a product into a zero accumulator; the changes of float
      format are the identity);
    - the positives' tile: 1 where row label p equals column label q, else 0;
    - the exclusion tile: 0 where the global row number 1024 i + p equals the global column number 2048 j + q, else
      1; for i below 8 and j below 4 nothing wraps around in 32 bits, so it is the specification's mask;
    - the new running maximum max m tm, tm the tile's row maximum folded from -infinity; the rescaled sum
      l * exp (m - max m tm);
    - the two accumulations, with the exclusion tile where the tile meets the diagonal and without it elsewhere;
    - the output block (-1) * (if 0 < l then (a / cnt - m) - log l else bottom), and the three resets.

  Together: one grid point moves the row's state (m, l, a) at p by the step of the row's algebra
  (Algebra.tileStep), with weights the exclusion tile or constantly 1, and the output block is the row's answer
  from the final state (Algebra.kernOut).
-/
import proofs.«430023_j72756745994686_3_alg».proof.Proof.Gen.KernelIdeal.Skeleton
import proofs.«430023_j72756745994686_3_alg».proof.Proof.Spec
import proofs.«430023_j72756745994686_3_alg».proof.Proof.Algebra
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open scoped BigOperators

namespace Cert.KernelIdeal.PayVals

open Cert.KernelIdeal Cert.KernelIdeal.Gen Idealize.ShloMosaic Idealize.ShloMosaic.ValueIdx

/-! ## Layout: a column kept as a [a, 1] array -/

section Layout
variable {α : Type}

/-- A vector [a] viewed as the column [a, 1] reads, at (p, 0), entry p. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  have hz := z.isLt
  show p.val = p.val * 1 + z.val
  omega

/-- A column [a, 1] broadcast to [a, b] reads, at (p, q), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## Words -/

/-- The equality test of two words, widened and converted as a signed integer, is the indicator of equality. -/
theorem sitofp_extui_cmpi_eq (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  unfold IntOp.cmpi
  by_cases h : a = b
  · subst h; simp
  · have hb : (a == b) = false := by simpa using h
    rw [if_neg h]; simp [hb]

/-- The inequality test of two words, widened and converted, is the indicator of inequality. -/
theorem sitofp_extui_cmpi_ne (a b : BitVec 32) :
    (FloatOps.sitofp (F := Ideal) .f32 ((IntOp.cmpi .ne a b).setWidth 32) : EReal) = if a = b then 0 else 1 := by
  show (((((IntOp.cmpi .ne a b).setWidth 32).toInt : ℤ) : ℝ) : EReal) = _
  unfold IntOp.cmpi
  by_cases h : a = b
  · subst h; simp
  · have hb : (a != b) = true := by simpa using h
    rw [if_neg h]; simp [hb]

/-- The named scale of the logits is the rational the certificate's table gives it. -/
theorem inv_temperature :
    Named.named (F := Ideal) κ "inv_temperature" (φ := .f32) 0x41649249#32 = ((134217728 / 9395241 : ℝ) : EReal) :=
  IdealRules.named_const.ideal_named_scalar _ _ _ _ rfl

/-! ## The label-equality tile -/

/-- The positives' tile at (p, q): the row label of p against the column label of q. -/
theorem pay12_apply (x2 : IVec S1024x1 32) (x3 : IVec S1x2048 32) (p : Fin 1024) (q : Fin 2048) :
    k0_pay12 (F := Ideal) x2 x3 (ix2 p q) = if x2 (ix2 p (0 : Fin 1)) = x3 (ix2 (0 : Fin 1) q) then 1 else 0 := by
  unfold k0_pay12
  show FloatOps.sitofp (F := Ideal) .f32 ((IntOp.cmpi .eq
      (broadcastTo S1024x2048 (shapeCast S1024x1 x2 shapeCasts_S1024x1_S1024x1) broadcasts_S1024x1_S1024x2048 (ix2 p q))
      (broadcastTo S1024x2048 (shapeCast S1x2048 x3 shapeCasts_S1x2048_S1x2048) broadcasts_S1x2048_S1024x2048 (ix2 p q))).setWidth 32) = _
  rw [shapeCast_self, shapeCast_self, broadcastTo_a1_ab_apply, broadcastTo_1b_ab_apply]
  exact sitofp_extui_cmpi_eq _ _

/-! ## The logit tile -/

theorem lhs_dot_0 (i : S1024x2048.Idx) (k : dot_S1024x128_S128x2048_S1024x2048_1_0_0_1_n_n.contr.Idx) :
    (dot_S1024x128_S128x2048_S1024x2048_1_0_0_1_n_n.lhsIdx i k 0).val = (i 0).val := by
  unfold DotDims.lhsIdx
  rw [dif_neg (show ¬(0 : Fin S1024x128.rank) ∈ dot_S1024x128_S128x2048_S1024x2048_1_0_0_1_n_n.lhsBatch by decide),
    dif_pos (show (0 : Fin S1024x128.rank) ∈ dot_S1024x128_S128x2048_S1024x2048_1_0_0_1_n_n.lhsNonContracting by decide)]
  rfl
theorem lhs_dot_1 (i : S1024x2048.Idx) (k : dot_S1024x128_S128x2048_S1024x2048_1_0_0_1_n_n.contr.Idx) :
    (dot_S1024x128_S128x2048_S1024x2048_1_0_0_1_n_n.lhsIdx i k 1).val = (k ⟨0, by decide⟩).val :=
  dot_S1024x128_S128x2048_S1024x2048_1_0_0_1_n_n.lhsIdx_val_of_single rfl i k
theorem rhs_dot_0 (i : S1024x2048.Idx) (k : dot_S1024x128_S128x2048_S1024x2048_1_0_0_1_n_n.contr.Idx) :
    (dot_S1024x128_S128x2048_S1024x2048_1_0_0_1_n_n.rhsIdx i k 0).val = (k ⟨0, by decide⟩).val :=
  dot_S1024x128_S128x2048_S1024x2048_1_0_0_1_n_n.rhsIdx_val_of_single rfl i k
theorem rhs_dot_1 (i : S1024x2048.Idx) (k : dot_S1024x128_S128x2048_S1024x2048_1_0_0_1_n_n.contr.Idx) :
    (dot_S1024x128_S128x2048_S1024x2048_1_0_0_1_n_n.rhsIdx i k 1).val = (i 1).val := by
  unfold DotDims.rhsIdx
  rw [dif_neg (show ¬(1 : Fin S128x2048.rank) ∈ dot_S1024x128_S128x2048_S1024x2048_1_0_0_1_n_n.rhsBatch by decide),
    dif_pos (show (1 : Fin S128x2048.rank) ∈ dot_S1024x128_S128x2048_S1024x2048_1_0_0_1_n_n.rhsNonContracting by decide)]
  rfl

/-- The logit tile at (p, q): the scaled row p of the row block against row q of the column block. -/
theorem pay11_apply (x0 : FVec Ideal S1024x128 .f32) (x1 : FVec Ideal S2048x128 .f32) (p : Fin 1024) (q : Fin 2048) :
    k0_pay11 (F := Ideal) x0 x1 (ix2 p q)
      = ∑ d : Fin 128, (x0 (ix2 p d) * ((134217728 / 9395241 : ℝ) : EReal)) * x1 (ix2 q d) := by
  unfold k0_pay11
  refine (Ideal.matmul_constant_zero_apply dot_S1024x128_S128x2048_S1024x2048_1_0_0_1_n_n none _ _ (ix2 p q)).trans ?_
  rw [← Equiv.sum_comp (ValueIdx.contrEquiv1 dot_S1024x128_S128x2048_S1024x2048_1_0_0_1_n_n 128 rfl rfl).symm]
  refine Finset.sum_congr rfl fun k _ => ?_
  have hk := ValueIdx.contrEquiv1_symm_val dot_S1024x128_S128x2048_S1024x2048_1_0_0_1_n_n 128 rfl rfl k
  have el : dot_S1024x128_S128x2048_S1024x2048_1_0_0_1_n_n.lhsIdx (ix2 p q) ((ValueIdx.contrEquiv1 dot_S1024x128_S128x2048_S1024x2048_1_0_0_1_n_n 128 rfl rfl).symm k) = ix2 p k :=
    funext fun a => Fin.ext (by
      match a with
      | ⟨0, _⟩ => exact lhs_dot_0 _ _
      | ⟨1, _⟩ => exact (lhs_dot_1 _ _).trans hk)
  have er : dot_S1024x128_S128x2048_S1024x2048_1_0_0_1_n_n.rhsIdx (ix2 p q) ((ValueIdx.contrEquiv1 dot_S1024x128_S128x2048_S1024x2048_1_0_0_1_n_n 128 rfl rfl).symm k) = ix2 k q :=
    funext fun a => Fin.ext (by
      match a with
      | ⟨0, _⟩ => exact (rhs_dot_0 _ _).trans hk
      | ⟨1, _⟩ => exact rhs_dot_1 _ _)
  rw [el, er, transpose_ix2_apply]
  show (shapeCast S1024x128 x0 shapeCasts_S1024x128_S1024x128 (ix2 p k)
      * Named.named (F := Ideal) κ "inv_temperature" (φ := .f32) 0x41649249#32)
    * shapeCast S2048x128 x1 shapeCasts_S2048x128_S2048x128 (ix2 q k) = _
  rw [shapeCast_self, shapeCast_self, inv_temperature]

/-! ## Row reductions of a tile -/

/-- A reduced row index with column k put back is (p, k). -/
theorem lift_col (p : Fin 1024) (k : Fin (S1024x2048.size 1)) :
    reduces_S1024x2048_S1024.lift (ix1 p) k = ix2 p (⟨k.val, k.isLt⟩ : Fin 2048) := by
  funext c; apply Fin.ext
  fin_cases c <;> rfl

/-- A tile's row sum at p. -/
theorem rowSum_tile (v : FVec Ideal S1024x2048 .f32) (p : Fin 1024) :
    multiReduction .add [1] S1024 v 0x00000000#32 reduces_S1024x2048_S1024 (.inl rfl) rfl (ix1 p)
      = ∑ q : Fin 2048, v (ix2 p q) := by
  refine (Ideal.multiReduction_add_single v _ reduces_S1024x2048_S1024 _ _ (ix1 p)).trans ?_
  exact Finset.sum_congr rfl fun k _ => congrArg v (lift_col p k)

/-- A tile's row maximum at p, folded from -infinity. -/
theorem rowMax_tile (v : FVec Ideal S1024x2048 .f32) (p : Fin 1024) :
    multiReduction .maximumf [1] S1024 v 0xFF800000#32 reduces_S1024x2048_S1024 (.inl rfl) rfl (ix1 p)
      = (Finset.univ : Finset (Fin 2048)).fold max ⊥ fun q => v (ix2 p q) := by
  refine (Ideal.multiReduction_maximumf_single v _ reduces_S1024x2048_S1024 _ _ (ix1 p)).trans ?_
  have hf : (v ∘ reduces_S1024x2048_S1024.lift (ix1 p)) = fun q : Fin 2048 => v (ix2 p q) :=
    funext fun k => congrArg v (lift_col p k)
  have hi : FloatOps.ofBits (F := Ideal) .f32 0xFF800000#32 = (⊥ : EReal) := Cert.Spec.ofBits_neg_inf
  exact (congrArg (fun f => Finset.fold max (FloatOps.ofBits (F := Ideal) .f32 0xFF800000#32) f (Finset.univ : Finset (Fin 2048))) hf).trans
    (congrArg (fun b => Finset.fold max b (fun q : Fin 2048 => v (ix2 p q)) (Finset.univ : Finset (Fin 2048))) hi)

/-! ## The running maximum and the rescaled running sum -/

/-- The new running maximum at row p: the old one against the tile's row maximum. -/
theorem pay13_apply (x0 : FVec Ideal S1024x128 .f32) (x1 : FVec Ideal S2048x128 .f32) (m : FVec Ideal S1024x1 .f32)
    (p : Fin 1024) :
    k0_pay13 (F := Ideal) x0 x1 m (ix2 p (0 : Fin 1))
      = max (m (ix2 p (0 : Fin 1)))
          ((Finset.univ : Finset (Fin 2048)).fold max ⊥ fun q => k0_pay11 (F := Ideal) x0 x1 (ix2 p q)) := by
  unfold k0_pay13
  exact congrArg (max (m (ix2 p (0 : Fin 1))))
    ((shapeCast_a_a1_apply _ shapeCasts_S1024_S1024x1 p 0).trans (rowMax_tile (k0_pay11 (F := Ideal) x0 x1) p))

/-- The running sum rescaled to the new maximum, at row p. -/
theorem pay14_apply (x0 : FVec Ideal S1024x128 .f32) (x1 : FVec Ideal S2048x128 .f32)
    (m m' l : FVec Ideal S1024x1 .f32) (p : Fin 1024) :
    k0_pay14 (F := Ideal) x0 x1 m m' l (ix2 p (0 : Fin 1))
      = l (ix2 p (0 : Fin 1)) * Ideal.exp (m' (ix2 p (0 : Fin 1)) - k0_pay13 (F := Ideal) x0 x1 m (ix2 p (0 : Fin 1))) := by
  unfold k0_pay14
  rfl

/-- The stored running maximum is the new one. -/
theorem pay6_eq (nm : FVec Ideal S1024x1 .f32) : k0_pay6 (F := Ideal) nm = nm := by
  unfold k0_pay6
  exact shapeCast_self _ _

/-! ## The diagonal-exclusion tile -/

/-- The exclusion tile at (p, q): 0 where the global row number equals the global column number, as words. -/
theorem pay1_apply (arg1 v32 : BitVec 32) (p : Fin 1024) (q : Fin 2048) :
    k0_pay1 (F := Ideal) arg1 v32 (ix2 p q)
      = if v32 + BitVec.ofNat 32 p.val = arg1 * 2048#32 + BitVec.ofNat 32 q.val then 0 else 1 := by
  unfold k0_pay1
  show FloatOps.sitofp (F := Ideal) .f32 ((IntOp.cmpi .ne
      (IntOp.addi v32 (iota .tc S1024x2048 32 [0] iota_S1024x2048_d0_w32 (ix2 p q)))
      (IntOp.addi (Scalar.muli arg1 2048#32) (iota .tc S1024x2048 32 [1] iota_S1024x2048_d1_w32 (ix2 p q)))).setWidth 32) = _
  rw [iota_single_apply, iota_single_apply, sitofp_extui_cmpi_ne]
  rfl

/-- For row tile i of 8 and column tile j of 4 nothing wraps around: the exclusion tile is the specification's
    mask at the global row 1024 i + p and column 2048 j + q. -/
theorem pay1_decoded (arg1 v32 : BitVec 32) (i j : ℕ) (hi : i < 8) (hj : j < 4)
    (hv : v32.toNat = 1024 * i) (ha : arg1.toNat = j) (p : Fin 1024) (q : Fin 2048) :
    k0_pay1 (F := Ideal) arg1 v32 (ix2 p q)
      = Cert.Spec.mask ⟨1024 * i + p.val, by have := p.isLt; omega⟩ ⟨2048 * j + q.val, by have := q.isLt; omega⟩ := by
  rw [pay1_apply]
  unfold Cert.Spec.mask
  have hp := p.isLt; have hq := q.isLt
  have key : (v32 + BitVec.ofNat 32 p.val = arg1 * 2048#32 + BitVec.ofNat 32 q.val)
      ↔ (1024 * i + p.val = 2048 * j + q.val) := by
    rw [← BitVec.toNat_inj]
    simp only [BitVec.toNat_add, BitVec.toNat_mul, BitVec.toNat_ofNat, hv, ha]
    omega
  by_cases h : 1024 * i + p.val = 2048 * j + q.val
  · rw [if_pos (key.mpr h), if_pos (Fin.ext h), ← EReal.coe_one, ← EReal.coe_sub, sub_self, EReal.coe_zero]
  · rw [if_neg (mt key.mp h), if_neg (fun e => h (congrArg Fin.val e)), sub_zero]

/-- The same at the literal spelling of the two words. -/
theorem pay1_decoded_ofNat (i j : ℕ) (hi : i < 8) (hj : j < 4) (p : Fin 1024) (q : Fin 2048) :
    k0_pay1 (F := Ideal) (BitVec.ofNat 32 j) (BitVec.ofNat 32 (1024 * i)) (ix2 p q)
      = Cert.Spec.mask ⟨1024 * i + p.val, by have := p.isLt; omega⟩ ⟨2048 * j + q.val, by have := q.isLt; omega⟩ :=
  pay1_decoded _ _ i j hi hj (by rw [BitVec.toNat_ofNat]; omega) (by rw [BitVec.toNat_ofNat]; omega) p q

/-! ## The accumulations -/

/-- The running sum of exponentials on a tile that meets the diagonal. -/
theorem pay2_apply (arg1 v32 : BitVec 32) (s : FVec Ideal S1024x2048 .f32) (nm l' : FVec Ideal S1024x1 .f32) (p : Fin 1024) :
    k0_pay2 (F := Ideal) arg1 s nm l' v32 (ix2 p (0 : Fin 1))
      = l' (ix2 p (0 : Fin 1))
        + ∑ q : Fin 2048, Ideal.exp (s (ix2 p q) - nm (ix2 p (0 : Fin 1))) * k0_pay1 (F := Ideal) arg1 v32 (ix2 p q) := by
  unfold k0_pay2
  rw [shapeCast_self]
  refine (congrArg (l' (ix2 p (0 : Fin 1)) + ·)
    ((shapeCast_a_a1_apply _ shapeCasts_S1024_S1024x1 p 0).trans (rowSum_tile _ p))).trans ?_
  refine congrArg (l' (ix2 p (0 : Fin 1)) + ·) (Finset.sum_congr rfl fun q _ => ?_)
  show Ideal.exp (s (ix2 p q) - broadcastTo S1024x2048 nm broadcasts_S1024x1_S1024x2048 (ix2 p q)) * _ = _
  rw [broadcastTo_a1_ab_apply]

/-- The running positive-logit sum on a tile that meets the diagonal. -/
theorem pay3_apply (arg1 v32 : BitVec 32) (s pos : FVec Ideal S1024x2048 .f32) (a : FVec Ideal S1024x1 .f32) (p : Fin 1024) :
    k0_pay3 (F := Ideal) arg1 s pos a v32 (ix2 p (0 : Fin 1))
      = a (ix2 p (0 : Fin 1))
        + ∑ q : Fin 2048, (pos (ix2 p q) * k0_pay1 (F := Ideal) arg1 v32 (ix2 p q)) * s (ix2 p q) := by
  unfold k0_pay3
  rw [shapeCast_self]
  exact congrArg (a (ix2 p (0 : Fin 1)) + ·)
    ((shapeCast_a_a1_apply _ shapeCasts_S1024_S1024x1 p 0).trans (rowSum_tile _ p))

/-- The running sum of exponentials on a tile off the diagonal. -/
theorem pay4_apply (s : FVec Ideal S1024x2048 .f32) (nm l' : FVec Ideal S1024x1 .f32) (p : Fin 1024) :
    k0_pay4 (F := Ideal) s nm l' (ix2 p (0 : Fin 1))
      = l' (ix2 p (0 : Fin 1)) + ∑ q : Fin 2048, Ideal.exp (s (ix2 p q) - nm (ix2 p (0 : Fin 1))) := by
  unfold k0_pay4
  rw [shapeCast_self]
  refine (congrArg (l' (ix2 p (0 : Fin 1)) + ·)
    ((shapeCast_a_a1_apply _ shapeCasts_S1024_S1024x1 p 0).trans (rowSum_tile _ p))).trans ?_
  refine congrArg (l' (ix2 p (0 : Fin 1)) + ·) (Finset.sum_congr rfl fun q _ => ?_)
  show Ideal.exp (s (ix2 p q) - broadcastTo S1024x2048 nm broadcasts_S1024x1_S1024x2048 (ix2 p q)) = _
  rw [broadcastTo_a1_ab_apply]

/-- The running positive-logit sum on a tile off the diagonal. -/
theorem pay5_apply (s pos : FVec Ideal S1024x2048 .f32) (a : FVec Ideal S1024x1 .f32) (p : Fin 1024) :
    k0_pay5 (F := Ideal) s pos a (ix2 p (0 : Fin 1))
      = a (ix2 p (0 : Fin 1)) + ∑ q : Fin 2048, pos (ix2 p q) * s (ix2 p q) := by
  unfold k0_pay5
  rw [shapeCast_self]
  exact congrArg (a (ix2 p (0 : Fin 1)) + ·)
    ((shapeCast_a_a1_apply _ shapeCasts_S1024_S1024x1 p 0).trans (rowSum_tile _ p))

/-! ## The output block and the resets -/

/-- The pattern the kernel writes where a row's sum of exponentials is not positive is the bottom element. -/
theorem ofBits_nan : Ideal.ofBits .f32 0x7FC00000#32 = ⊥ := by simp [Ideal.ofBits, Ideal.ieee]

/-- The output block at row p: minus the mean positive log-probability where the sum of exponentials is positive. -/
theorem pay7_apply (l cnt a m : FVec Ideal S1024x1 .f32) (p : Fin 1024) :
    k0_pay7 (F := Ideal) l cnt a m (ix2 p (0 : Fin 1))
      = (-1) * (if 0 < l (ix2 p (0 : Fin 1))
          then (Ideal.div (a (ix2 p (0 : Fin 1))) (cnt (ix2 p (0 : Fin 1))) - m (ix2 p (0 : Fin 1))) - Ideal.log (l (ix2 p (0 : Fin 1)))
          else ⊥) := by
  unfold k0_pay7
  rw [shapeCast_self]
  show Ideal.ofBits .f32 0xBF800000#32
      * Scalar.select (Ideal.cmp .ogt (l (ix2 p (0 : Fin 1))) (Ideal.ofBits .f32 0x00000000#32))
          ((Ideal.div (a (ix2 p (0 : Fin 1))) (cnt (ix2 p (0 : Fin 1))) - m (ix2 p (0 : Fin 1))) - Ideal.log (l (ix2 p (0 : Fin 1))))
          (Ideal.ofBits .f32 0x7FC00000#32) = _
  rw [Cert.Spec.ofBits_neg_one, Ideal.ofBits_zero_f32, ofBits_nan]
  unfold Ideal.cmp Scalar.select
  by_cases h : 0 < l (ix2 p (0 : Fin 1))
  · simp [h]
  · simp [h]

/-- The running maximum starts at -infinity. -/
theorem pay8_eq : k0_pay8 (F := Ideal) = fun _ => (⊥ : EReal) := by
  unfold k0_pay8
  exact (shapeCast_self _ _).trans (funext fun _ => Cert.Spec.ofBits_neg_inf)

/-- The running sum of exponentials starts at 0. -/
theorem pay9_eq : k0_pay9 (F := Ideal) = fun _ => (0 : EReal) := by
  unfold k0_pay9
  exact (shapeCast_self _ _).trans (funext fun _ => Ideal.ofBits_zero_f32)

/-- The running positive-logit sum starts at 0. -/
theorem pay10_eq : k0_pay10 (F := Ideal) = fun _ => (0 : EReal) := by
  unfold k0_pay10
  exact (shapeCast_self _ _).trans (funext fun _ => Ideal.ofBits_zero_f32)

/-! ## One grid point as a step of the row's state

At row p of the row tile the three carried columns are the running maximum m, the sum of exponentials l relative
to it and the sum a of the positives' logits. A column tile with logits s, diagonal weights w (the exclusion tile
where the tile meets the diagonal, else 1 everywhere) and positives pos moves them to
  (max m tm, l * exp (m - max m tm) + sum of exp (s - max m tm) * w, a + sum of (pos * w) * s),
tm the tile's row maximum: the step of the row's algebra. -/

/-- A tile that meets the diagonal. -/
theorem step_overlap (arg1 v32 : BitVec 32) (x0 : FVec Ideal S1024x128 .f32) (x1 : FVec Ideal S2048x128 .f32)
    (pos : FVec Ideal S1024x2048 .f32) (m l a : FVec Ideal S1024x1 .f32) (p : Fin 1024) :
    (k0_pay6 (F := Ideal) (k0_pay13 (F := Ideal) x0 x1 m) (ix2 p (0 : Fin 1)),
      k0_pay2 (F := Ideal) arg1 (k0_pay11 (F := Ideal) x0 x1) (k0_pay13 (F := Ideal) x0 x1 m)
        (k0_pay14 (F := Ideal) x0 x1 m m l) v32 (ix2 p (0 : Fin 1)),
      k0_pay3 (F := Ideal) arg1 (k0_pay11 (F := Ideal) x0 x1) pos a v32 (ix2 p (0 : Fin 1)))
    = Cert.Algebra.tileStep (m (ix2 p (0 : Fin 1)), l (ix2 p (0 : Fin 1)), a (ix2 p (0 : Fin 1)))
        ((Finset.univ : Finset (Fin 2048)).fold max ⊥ fun q => k0_pay11 (F := Ideal) x0 x1 (ix2 p q))
        (fun q => k0_pay11 (F := Ideal) x0 x1 (ix2 p q))
        (fun q => k0_pay1 (F := Ideal) arg1 v32 (ix2 p q))
        (fun q => pos (ix2 p q) * k0_pay1 (F := Ideal) arg1 v32 (ix2 p q)) := by
  unfold Cert.Algebra.tileStep
  simp only [zero_add]
  refine Prod.ext ?_ (Prod.ext ?_ ?_)
  · show k0_pay6 (F := Ideal) (k0_pay13 (F := Ideal) x0 x1 m) (ix2 p (0 : Fin 1)) = _
    rw [pay6_eq, pay13_apply]
  · show k0_pay2 (F := Ideal) arg1 (k0_pay11 (F := Ideal) x0 x1) (k0_pay13 (F := Ideal) x0 x1 m)
        (k0_pay14 (F := Ideal) x0 x1 m m l) v32 (ix2 p (0 : Fin 1)) = _
    rw [pay2_apply, pay14_apply, pay13_apply]
  · show k0_pay3 (F := Ideal) arg1 (k0_pay11 (F := Ideal) x0 x1) pos a v32 (ix2 p (0 : Fin 1)) = _
    rw [pay3_apply]

/-- A tile off the diagonal: every weight is 1. -/
theorem step_plain (x0 : FVec Ideal S1024x128 .f32) (x1 : FVec Ideal S2048x128 .f32)
    (pos : FVec Ideal S1024x2048 .f32) (m l a : FVec Ideal S1024x1 .f32) (p : Fin 1024) :
    (k0_pay6 (F := Ideal) (k0_pay13 (F := Ideal) x0 x1 m) (ix2 p (0 : Fin 1)),
      k0_pay4 (F := Ideal) (k0_pay11 (F := Ideal) x0 x1) (k0_pay13 (F := Ideal) x0 x1 m)
        (k0_pay14 (F := Ideal) x0 x1 m m l) (ix2 p (0 : Fin 1)),
      k0_pay5 (F := Ideal) (k0_pay11 (F := Ideal) x0 x1) pos a (ix2 p (0 : Fin 1)))
    = Cert.Algebra.tileStep (m (ix2 p (0 : Fin 1)), l (ix2 p (0 : Fin 1)), a (ix2 p (0 : Fin 1)))
        ((Finset.univ : Finset (Fin 2048)).fold max ⊥ fun q => k0_pay11 (F := Ideal) x0 x1 (ix2 p q))
        (fun q => k0_pay11 (F := Ideal) x0 x1 (ix2 p q))
        (fun _ => 1)
        (fun q => pos (ix2 p q) * 1) := by
  unfold Cert.Algebra.tileStep
  simp only [zero_add, mul_one]
  refine Prod.ext ?_ (Prod.ext ?_ ?_)
  · show k0_pay6 (F := Ideal) (k0_pay13 (F := Ideal) x0 x1 m) (ix2 p (0 : Fin 1)) = _
    rw [pay6_eq, pay13_apply]
  · show k0_pay4 (F := Ideal) (k0_pay11 (F := Ideal) x0 x1) (k0_pay13 (F := Ideal) x0 x1 m)
        (k0_pay14 (F := Ideal) x0 x1 m m l) (ix2 p (0 : Fin 1)) = _
    rw [pay4_apply, pay14_apply, pay13_apply]
  · show k0_pay5 (F := Ideal) (k0_pay11 (F := Ideal) x0 x1) pos a (ix2 p (0 : Fin 1)) = _
    rw [pay5_apply]

/-- The output block at row p is the row's answer from the final state; where the sum of exponentials is not
    positive it is minus the bottom element. -/
theorem out_eq (l cnt a m : FVec Ideal S1024x1 .f32) (p : Fin 1024) :
    k0_pay7 (F := Ideal) l cnt a m (ix2 p (0 : Fin 1))
      = Cert.Algebra.kernOut (m (ix2 p (0 : Fin 1)), l (ix2 p (0 : Fin 1)), a (ix2 p (0 : Fin 1)))
          (cnt (ix2 p (0 : Fin 1))) ⊥ := by
  rw [pay7_apply]
  rfl

end Cert.KernelIdeal.PayVals

end
-- ==== Proof.KI.Blocks.lean ====
/-
  Each input window's block at a grid point, read at an index, as an entry of the window's array. The grid is 8 x 4:
  point t has row tile t / 4 and column tile t % 4. The row-side windows (the stacked features by 1024 rows, the label
  column and the positive counts by 1024 rows) take block t / 4 of their array; the column-side windows (the stacked
  features by 2048 rows, the label row by 2048 columns) take block t % 4. An entry of a block sits in the array at
  block number x block size + its coordinate inside the block, on each axis.
-/
import proofs.«430023_j72756745994686_3_alg».proof.Proof.KI.Base
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window)

variable {F : FTy → Type} [FloatOps F] [Named F]
variable (m : (ℓ : Loc nD τ sig) → Buf (Elt F) ℓ)

/-- The block numbers of the five input windows at grid point t: the row tile is t / 4, the column tile t % 4. -/
theorem iblk_idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0 :=
  (by decide +kernel : ∀ t : Fin grid0.N, _)

/-- Row tile t / 4 of the stacked features: entry (p, d) of the block is entry (1024 * (t / 4) + p, d) of the matrix. -/
theorem iblk0_apply (c : Dev nD) (t : Fin cfg0.N) (p : Fin 1024) (d : Fin 128) :
    (iblk m c 0 t : Vec F S1024x128 .f32) (ix2 p d)
      = (V m c main_v1 : S8192x128.Idx → Elt F .f32)
          (ix2 (⟨1024 * (t.val / 4) + p.val, by have := t.isLt; have hN : cfg0.N = 32 := N_0; have := p.isLt; omega⟩ : Fin 8192) d) := by
  obtain ⟨e0, e1, -⟩ := iblk_idx_facts t
  show V m c main_v1 (((cfg0.win 0).blk t).view.emb (ix2 p d)) = V m c main_v1 _
  refine congrArg (V m c main_v1) ?_
  funext a; apply Fin.ext
  match a with
  | ⟨0, _⟩ => show win0_0.index t (0 : Fin 2) * 1024 + 1 * p.val = 1024 * (t.val / 4) + p.val; omega
  | ⟨1, _⟩ => show win0_0.index t (1 : Fin 2) * 128 + 1 * d.val = d.val; omega

/-- Column tile t % 4 of the stacked features: entry (q, d) of the block is entry (2048 * (t % 4) + q, d) of the matrix. -/
theorem iblk1_apply (c : Dev nD) (t : Fin cfg0.N) (q : Fin 2048) (d : Fin 128) :
    (iblk m c 1 t : Vec F S2048x128 .f32) (ix2 q d)
      = (V m c main_v1 : S8192x128.Idx → Elt F .f32)
          (ix2 (⟨2048 * (t.val % 4) + q.val, by have := q.isLt; omega⟩ : Fin 8192) d) := by
  obtain ⟨-, -, e0, e1, -⟩ := iblk_idx_facts t
  show V m c main_v1 (((cfg0.win 1).blk t).view.emb (ix2 q d)) = V m c main_v1 _
  refine congrArg (V m c main_v1) ?_
  funext a; apply Fin.ext
  match a with
  | ⟨0, _⟩ => show win0_1.index t (0 : Fin 2) * 2048 + 1 * q.val = 2048 * (t.val % 4) + q.val; omega
  | ⟨1, _⟩ => show win0_1.index t (1 : Fin 2) * 128 + 1 * d.val = d.val; omega

/-- Row tile t / 4 of the label column: entry p of the block is entry 1024 * (t / 4) + p of the column. -/
theorem iblk2_apply (c : Dev nD) (t : Fin cfg0.N) (p : Fin 1024) :
    (iblk m c 2 t : Vec F S1024x1 .i32) (ix2 p (0 : Fin 1))
      = (V m c main_v5 : S8192x1.Idx → Elt F .i32)
          (ix2 (⟨1024 * (t.val / 4) + p.val, by have := t.isLt; have hN : cfg0.N = 32 := N_0; have := p.isLt; omega⟩ : Fin 8192) (0 : Fin 1)) := by
  obtain ⟨-, -, -, -, e0, e1, -⟩ := iblk_idx_facts t
  show V m c main_v5 (((cfg0.win 2).blk t).view.emb (ix2 p (0 : Fin 1))) = V m c main_v5 _
  refine congrArg (V m c main_v5) ?_
  funext a; apply Fin.ext
  match a with
  | ⟨0, _⟩ => show win0_2.index t (0 : Fin 2) * 1024 + 1 * p.val = 1024 * (t.val / 4) + p.val; omega
  | ⟨1, _⟩ => show win0_2.index t (1 : Fin 2) * 1 + 1 * 0 = 0; omega

/-- Column tile t % 4 of the label row: entry q of the block is entry 2048 * (t % 4) + q of the row. -/
theorem iblk3_apply (c : Dev nD) (t : Fin cfg0.N) (q : Fin 2048) :
    (iblk m c 3 t : Vec F S1x2048 .i32) (ix2 (0 : Fin 1) q)
      = (V m c main_v6 : S1x8192.Idx → Elt F .i32)
          (ix2 (0 : Fin 1) (⟨2048 * (t.val % 4) + q.val, by have := q.isLt; omega⟩ : Fin 8192)) := by
  obtain ⟨-, -, -, -, -, -, e0, e1, -⟩ := iblk_idx_facts t
  show V m c main_v6 (((cfg0.win 3).blk t).view.emb (ix2 (0 : Fin 1) q)) = V m c main_v6 _
  refine congrArg (V m c main_v6) ?_
  funext a; apply Fin.ext
  match a with
  | ⟨0, _⟩ => show win0_3.index t (0 : Fin 2) * 1 + 1 * 0 = 0; omega
  | ⟨1, _⟩ => show win0_3.index t (1 : Fin 2) * 2048 + 1 * q.val = 2048 * (t.val % 4) + q.val; omega

/-- Row tile t / 4 of the positive counts: entry p of the block is entry 1024 * (t / 4) + p of the column. -/
theorem iblk4_apply (c : Dev nD) (t : Fin cfg0.N) (p : Fin 1024) :
    (iblk m c 4 t : Vec F S1024x1 .f32) (ix2 p (0 : Fin 1))
      = (V m c main_v29 : S8192x1.Idx → Elt F .f32)
          (ix2 (⟨1024 * (t.val / 4) + p.val, by have := t.isLt; have hN : cfg0.N = 32 := N_0; have := p.isLt; omega⟩ : Fin 8192) (0 : Fin 1)) := by
  obtain ⟨-, -, -, -, -, -, -, -, e0, e1⟩ := iblk_idx_facts t
  show V m c main_v29 (((cfg0.win 4).blk t).view.emb (ix2 p (0 : Fin 1))) = V m c main_v29 _
  refine congrArg (V m c main_v29) ?_
  funext a; apply Fin.ext
  match a with
  | ⟨0, _⟩ => show win0_4.index t (0 : Fin 2) * 1024 + 1 * p.val = 1024 * (t.val / 4) + p.val; omega
  | ⟨1, _⟩ => show win0_4.index t (1 : Fin 2) * 1 + 1 * 0 = 0; omega

end Cert.KernelIdeal.Hand

end
-- ==== Proof.KI.OutVal.lean ====
/-
  The output array and the scalar result.

  The region's one output is the 8192 x 1 array of per-row losses. Its window's block at grid point t = 4 i + j is rows
  [1024 i, 1024 i + 1024) of the array, written back at the points with j = 3 only; two such points have different i, so
  their blocks are disjoint, and row n ends holding row n % 1024 of what point 4 (n / 1024) + 3 left in its block.
  After the region the host sums the 8192 entries onto 0 and divides by 8192.
-/
import proofs.«430023_j72756745994686_3_alg».proof.Proof.KI.Launch
import proofs.«430023_j72756745994686_3_alg».proof.Proof.Spec
import Idealize.ShloMosaic.PureOps.Ideal.Laws
import Idealize.ShloMosaic.Lib.Pipeline.Value
import Idealize.ShloMosaic.Lib.ValueIdx
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F] [Named F]

variable (m : (ℓ : Loc nD τ sig) → Buf (Elt F) ℓ)

/-! ## The output array from its blocks -/

section Blocks

variable (dats : (p : Fin 1) → (c : Dev nD) → Dat τ (Elt F) Unit ℕ (UR sig nD τ) ℕ (cfgs p) c)

/-- The output window's block index at point t is (t / 4, 0). -/
theorem out_index : ∀ t : Fin cfg0.N, win0_5.index t (0 : Fin 2) = t.val / 4 ∧ win0_5.index t (1 : Fin 2) = 0 :=
  (by decide +kernel : ∀ t : Fin grid0.N, _)

/-- An index of the array is in point t's block iff each coordinate is in the block's range on its axis. -/
theorem mem_out_blk (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v30).slice (win0_5.rect t)).set ↔ _
  rw [View.set_slice_whole, Rect.mem_set_unit]
  exact Iff.rfl

/-- Two different points that write the output back write disjoint row ranges. -/
theorem out_disjoint : ∀ t t' : Fin cfg0.N, (cfg0.win 5).flush t = true → (cfg0.win 5).flush t' = true → t ≠ t' →
    Disjoint ((cfg0.win 5).blk t).view.set ((cfg0.win 5).blk t').view.set := by
  intro t t' hf hf' hne
  rw [Finset.disjoint_left]
  intro i hi hi'
  rw [mem_out_blk] at hi hi'
  have b : win0_5.index t (0 : Fin 2) * 1024 ≤ (i 0).val ∧ (i 0).val < win0_5.index t (0 : Fin 2) * 1024 + 1024 := hi 0
  have b' : win0_5.index t' (0 : Fin 2) * 1024 ≤ (i 0).val ∧ (i 0).val < win0_5.index t' (0 : Fin 2) * 1024 + 1024 := hi' 0
  have e := (out_index t).1
  have e' := (out_index t').1
  have h3 := (flush0_5 t).1 hf
  have h3' := (flush0_5 t').1 hf'
  have : t.val ≠ t'.val := fun h => hne (Fin.ext h)
  omega

/-- The point that last writes row n back: 4 (n / 1024) + 3. -/
abbrev lastPt (n : Fin 8192) : Fin cfg0.N := ⟨4 * (n.val / 1024) + 3, by have := n.isLt; show 4 * (n.val / 1024) + 3 < 32; omega⟩

/-- Row n's place in its block. -/
abbrev inBlk (n : Fin 8192) : Fin 1024 := ⟨n.val % 1024, Nat.mod_lt _ (by decide)⟩

/-- THE OUTPUT ARRAY, row by row: row n is row n % 1024 of what point 4 (n / 1024) + 3 left in the output's block. -/
theorem outArr_apply (c : Dev nD) (n : Fin 8192) :
    outArr dats c (ix2 n 0) = (dats 0 c).after 5 (lastPt n) (ix2 (inBlk n) 0) := by
  have hn := n.isLt
  have hf : (cfg0.win 5).flush (lastPt n) = true := (flush0_5 (lastPt n)).2 (by show (4 * (n.val / 1024) + 3) % 4 = 3; omega)
  have hemb : ((cfg0.win 5).blk (lastPt n)).view.emb (ix2 (inBlk n) 0) = ix2 n 0 := by
    obtain ⟨e0, e1⟩ := out_index (lastPt n)
    have e0' : win0_5.index (lastPt n) (0 : Fin 2) = n.val / 1024 := by
      rw [e0]; show (4 * (n.val / 1024) + 3) / 4 = n.val / 1024; omega
    funext a; apply Fin.ext
    match a with
    | ⟨0, _⟩ => show win0_5.index (lastPt n) (0 : Fin 2) * 1024 + 1 * (n.val % 1024) = n.val; omega
    | ⟨1, _⟩ => show win0_5.index (lastPt n) (1 : Fin 2) * 1 + 1 * 0 = 0; omega
  have h := (dats 0 c).arrAt_emb_eq_flushed 5 out_disjoint (lastPt n) hf (ix2 (inBlk n) 0)
  rw [hemb] at h
  exact h

end Blocks

/-! ## The scalar result -/

section Tail

variable (mI : (ℓ : Loc nD τ sig) → Buf (Elt Ideal) ℓ)

/-- THE SCALAR RESULT from any contents o of the output array: the host sums the 8192 entries onto 0 and divides by 8192. -/
theorem tail_value (c : Dev nD) (o : Buf (Elt Ideal) ((c : Thread nD τ).loc main_v30)) :
    (VT mI c o (Proc.devRef .tc main_v32) : S_.Idx → EReal)
      = fun _ => Ideal.div (0 + @Finset.sum (Fin 8192) EReal _ Finset.univ (fun n => o (ix2 n 0))) ((8192 : ℝ) : EReal) := by
  show StableHlo.after hostOps1 _ (Proc.devRef .tc main_v32) = _
  simp only [hostOps1]
  after_results
  funext j
  unfold Host.divf Host.reduceAdd constant
  simp only [Ideal.hostDivf_def, Ideal.hostReduceAdd_def, Ideal.ofBits_def]
  rw [Ideal.hostReduceAdd_total _ (fun b => b.elim0), Ideal.ofBits_zero_f32, Cert.Spec.ofBits_8192, sum_idx2]
  simp only [Fin.sum_univ_one]
  rfl

variable (datsI : (p : Fin 1) → (c : Dev nD) → Dat τ (Elt Ideal) Unit ℕ (UR sig nD τ) ℕ (cfgs p) c)

/-- The two together: the scalar result in terms of what the last point of each row tile left in its block. -/
theorem result_value (c : Dev nD) :
    (VT mI c (outArr datsI c) (Proc.devRef .tc main_v32) : S_.Idx → EReal)
      = fun _ => Ideal.div (0 + @Finset.sum (Fin 8192) EReal _ Finset.univ
          (fun n => (datsI 0 c).after 5 (lastPt n) (ix2 (inBlk n) 0))) ((8192 : ℝ) : EReal) := by
  rw [tail_value]
  funext _
  refine congrArg (fun s : EReal => Ideal.div (0 + s) ((8192 : ℝ) : EReal)) ?_
  exact Finset.sum_congr rfl fun n _ => outArr_apply datsI c n

end Tail

end Cert.KernelIdeal.Hand

end
-- ==== Proof.KI.ReadBack.lean ====
/- What the kernel body leaves in the buffers it writes, case by case, as values.

   In every case the three running statistics are each left by ONE covering store that comes last, so each
   reads back as that store's payload; the payload's operands are the point's loads, which read the input
   blocks and, for the statistics, either what the point before left (j > 0) or the reset values the point
   itself stored first (j = 0). Writing S for the tile's scaled logits (k0_pay11 of the two feature blocks), P
   for the positive-pair indicator (k0_pay12 of the two label blocks), m0, l0, a0 for the statistics the
   updates start from, newm = k0_pay13 (the maximum of m0 and the tile's row maxima) and lp = k0_pay14 (l0
   rescaled by exp (m0 - newm)): the maximum is left at k0_pay6 newm; the sum of exponentials at lp plus the
   row sums of exp (S - newm), masked off the diagonal where the tile meets it (k0_pay2) or unmasked (k0_pay4);
   the positive-logit sum at a0 plus the row sums of P * S, masked (k0_pay3) or unmasked (k0_pay5). At j = 3 the
   output block is k0_pay7 of these three new values and the positive counts. Each buffer is read through a
   view of its shape over unspecified prior contents: a read of covering writes does not depend on either. -/
import proofs.«430023_j72756745994686_3_alg».proof.Proof.KI.RunF
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem

variable {F : FTy → Type} [FloatOps F] [Named F]

/-- The zero offsets of a whole-block access, as the constant function. -/
theorem hz : (![0, 0] : Fin 2 → Nat) = fun _ => 0 := funext fun a => by fin_cases a <;> rfl

/-! ## Case A: j = 0, the tile meets the diagonal -/

/-- Case A: the running maximum is left at the tile's new maximum, from the reset statistics (minus infinity, zero, zero). -/
theorem canonS0_A (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : condFirst i) (hc2 : condOv i) (hc3 : ¬ condNov i) (hc4 : ¬ condLast i) (x0 : Vec F S1024x128 .f32) (x1 : Vec F S2048x128 .f32) (x2 : Vec F S1024x1 .i32) (x3 : Vec F S1x2048 .i32) (x4 : Vec F S1024x1 .f32) :
    View.canon (kernelRun0_A c i arg2 harg2 arg3 harg3 arg4 harg4 arg5 harg5 arg6 harg6 arg7 harg7 arg8 harg8 arg9 harg9 arg10 harg10 hc1 hc2 hc3 hc4 x0 x1 x2 x3 x4).1
      = k0_pay6 (k0_pay13 x0 x1 (k0_pay8 (F := F))) := by
  unfold kernelRun0_A
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS0 over unspecified prior contents. -/
theorem readS0_A (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : condFirst i) (hc2 : condOv i) (hc3 : ¬ condNov i) (hc4 : ¬ condLast i) (x0 : Vec F S1024x128 .f32) (x1 : Vec F S2048x128 .f32) (x2 : Vec F S1024x1 .i32) (x3 : Vec F S1x2048 .i32) (x4 : Vec F S1024x1 .f32) :
    VS0.read (Elt F) (VS0.writes (Elt F) VS0.junk (kernelRun0_A c i arg2 harg2 arg3 harg3 arg4 harg4 arg5 harg5 arg6 harg6 arg7 harg7 arg8 harg8 arg9 harg9 arg10 harg10 hc1 hc2 hc3 hc4 x0 x1 x2 x3 x4).1)
      = k0_pay6 (k0_pay13 x0 x1 (k0_pay8 (F := F))) :=
  (View.read_writes_junk_eq_canon _ _).trans (canonS0_A c i arg2 harg2 arg3 harg3 arg4 harg4 arg5 harg5 arg6 harg6 arg7 harg7 arg8 harg8 arg9 harg9 arg10 harg10 hc1 hc2 hc3 hc4 x0 x1 x2 x3 x4)

/-- Case A: the running sum of exponentials is left rescaled to the new maximum and increased by the tile's exponentials, the diagonal entries masked out, from the reset statistics (minus infinity, zero, zero). -/
theorem canonS1_A (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : condFirst i) (hc2 : condOv i) (hc3 : ¬ condNov i) (hc4 : ¬ condLast i) (x0 : Vec F S1024x128 .f32) (x1 : Vec F S2048x128 .f32) (x2 : Vec F S1024x1 .i32) (x3 : Vec F S1x2048 .i32) (x4 : Vec F S1024x1 .f32) :
    View.canon (kernelRun0_A c i arg2 harg2 arg3 harg3 arg4 harg4 arg5 harg5 arg6 harg6 arg7 harg7 arg8 harg8 arg9 harg9 arg10 harg10 hc1 hc2 hc3 hc4 x0 x1 x2 x3 x4).2.1
      = k0_pay2 (BitVec.ofNat 32 (i 1).val) (k0_pay11 x0 x1) (k0_pay13 x0 x1 (k0_pay8 (F := F))) (k0_pay14 x0 x1 (k0_pay8 (F := F)) (k0_pay8 (F := F)) (k0_pay9 (F := F))) (Scalar.muli (BitVec.ofNat 32 (i 0).val) 1024#32) := by
  unfold kernelRun0_A
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS1 over unspecified prior contents. -/
theorem readS1_A (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : condFirst i) (hc2 : condOv i) (hc3 : ¬ condNov i) (hc4 : ¬ condLast i) (x0 : Vec F S1024x128 .f32) (x1 : Vec F S2048x128 .f32) (x2 : Vec F S1024x1 .i32) (x3 : Vec F S1x2048 .i32) (x4 : Vec F S1024x1 .f32) :
    VS1.read (Elt F) (VS1.writes (Elt F) VS1.junk (kernelRun0_A c i arg2 harg2 arg3 harg3 arg4 harg4 arg5 harg5 arg6 harg6 arg7 harg7 arg8 harg8 arg9 harg9 arg10 harg10 hc1 hc2 hc3 hc4 x0 x1 x2 x3 x4).2.1)
      = k0_pay2 (BitVec.ofNat 32 (i 1).val) (k0_pay11 x0 x1) (k0_pay13 x0 x1 (k0_pay8 (F := F))) (k0_pay14 x0 x1 (k0_pay8 (F := F)) (k0_pay8 (F := F)) (k0_pay9 (F := F))) (Scalar.muli (BitVec.ofNat 32 (i 0).val) 1024#32) :=
  (View.read_writes_junk_eq_canon _ _).trans (canonS1_A c i arg2 harg2 arg3 harg3 arg4 harg4 arg5 harg5 arg6 harg6 arg7 harg7 arg8 harg8 arg9 harg9 arg10 harg10 hc1 hc2 hc3 hc4 x0 x1 x2 x3 x4)

/-- Case A: the running positive-logit sum is left increased by the tile's positive-pair logits, the diagonal entries masked out, from the reset statistics (minus infinity, zero, zero). -/
theorem canonS2_A (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : condFirst i) (hc2 : condOv i) (hc3 : ¬ condNov i) (hc4 : ¬ condLast i) (x0 : Vec F S1024x128 .f32) (x1 : Vec F S2048x128 .f32) (x2 : Vec F S1024x1 .i32) (x3 : Vec F S1x2048 .i32) (x4 : Vec F S1024x1 .f32) :
    View.canon (kernelRun0_A c i arg2 harg2 arg3 harg3 arg4 harg4 arg5 harg5 arg6 harg6 arg7 harg7 arg8 harg8 arg9 harg9 arg10 harg10 hc1 hc2 hc3 hc4 x0 x1 x2 x3 x4).2.2.1
      = k0_pay3 (BitVec.ofNat 32 (i 1).val) (k0_pay11 x0 x1) (k0_pay12 x2 x3) (k0_pay10 (F := F)) (Scalar.muli (BitVec.ofNat 32 (i 0).val) 1024#32) := by
  unfold kernelRun0_A
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS2 over unspecified prior contents. -/
theorem readS2_A (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : condFirst i) (hc2 : condOv i) (hc3 : ¬ condNov i) (hc4 : ¬ condLast i) (x0 : Vec F S1024x128 .f32) (x1 : Vec F S2048x128 .f32) (x2 : Vec F S1024x1 .i32) (x3 : Vec F S1x2048 .i32) (x4 : Vec F S1024x1 .f32) :
    VS2.read (Elt F) (VS2.writes (Elt F) VS2.junk (kernelRun0_A c i arg2 harg2 arg3 harg3 arg4 harg4 arg5 harg5 arg6 harg6 arg7 harg7 arg8 harg8 arg9 harg9 arg10 harg10 hc1 hc2 hc3 hc4 x0 x1 x2 x3 x4).2.2.1)
      = k0_pay3 (BitVec.ofNat 32 (i 1).val) (k0_pay11 x0 x1) (k0_pay12 x2 x3) (k0_pay10 (F := F)) (Scalar.muli (BitVec.ofNat 32 (i 0).val) 1024#32) :=
  (View.read_writes_junk_eq_canon _ _).trans (canonS2_A c i arg2 harg2 arg3 harg3 arg4 harg4 arg5 harg5 arg6 harg6 arg7 harg7 arg8 harg8 arg9 harg9 arg10 harg10 hc1 hc2 hc3 hc4 x0 x1 x2 x3 x4)

/-! ## Case B: j = 0, the tile does not meet the diagonal -/

/-- Case B: the running maximum is left at the tile's new maximum, from the reset statistics (minus infinity, zero, zero). -/
theorem canonS0_B (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : condFirst i) (hc2 : ¬ condOv i) (hc3 : condNov i) (hc4 : ¬ condLast i) (x0 : Vec F S1024x128 .f32) (x1 : Vec F S2048x128 .f32) (x2 : Vec F S1024x1 .i32) (x3 : Vec F S1x2048 .i32) (x4 : Vec F S1024x1 .f32) :
    View.canon (kernelRun0_B c i arg2 harg2 arg3 harg3 arg4 harg4 arg5 harg5 arg6 harg6 arg7 harg7 arg8 harg8 arg9 harg9 arg10 harg10 hc1 hc2 hc3 hc4 x0 x1 x2 x3 x4).1
      = k0_pay6 (k0_pay13 x0 x1 (k0_pay8 (F := F))) := by
  unfold kernelRun0_B
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS0 over unspecified prior contents. -/
theorem readS0_B (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : condFirst i) (hc2 : ¬ condOv i) (hc3 : condNov i) (hc4 : ¬ condLast i) (x0 : Vec F S1024x128 .f32) (x1 : Vec F S2048x128 .f32) (x2 : Vec F S1024x1 .i32) (x3 : Vec F S1x2048 .i32) (x4 : Vec F S1024x1 .f32) :
    VS0.read (Elt F) (VS0.writes (Elt F) VS0.junk (kernelRun0_B c i arg2 harg2 arg3 harg3 arg4 harg4 arg5 harg5 arg6 harg6 arg7 harg7 arg8 harg8 arg9 harg9 arg10 harg10 hc1 hc2 hc3 hc4 x0 x1 x2 x3 x4).1)
      = k0_pay6 (k0_pay13 x0 x1 (k0_pay8 (F := F))) :=
  (View.read_writes_junk_eq_canon _ _).trans (canonS0_B c i arg2 harg2 arg3 harg3 arg4 harg4 arg5 harg5 arg6 harg6 arg7 harg7 arg8 harg8 arg9 harg9 arg10 harg10 hc1 hc2 hc3 hc4 x0 x1 x2 x3 x4)

/-- Case B: the running sum of exponentials is left rescaled to the new maximum and increased by the tile's exponentials, from the reset statistics (minus infinity, zero, zero). -/
theorem canonS1_B (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : condFirst i) (hc2 : ¬ condOv i) (hc3 : condNov i) (hc4 : ¬ condLast i) (x0 : Vec F S1024x128 .f32) (x1 : Vec F S2048x128 .f32) (x2 : Vec F S1024x1 .i32) (x3 : Vec F S1x2048 .i32) (x4 : Vec F S1024x1 .f32) :
    View.canon (kernelRun0_B c i arg2 harg2 arg3 harg3 arg4 harg4 arg5 harg5 arg6 harg6 arg7 harg7 arg8 harg8 arg9 harg9 arg10 harg10 hc1 hc2 hc3 hc4 x0 x1 x2 x3 x4).2.1
      = k0_pay4 (k0_pay11 x0 x1) (k0_pay13 x0 x1 (k0_pay8 (F := F))) (k0_pay14 x0 x1 (k0_pay8 (F := F)) (k0_pay8 (F := F)) (k0_pay9 (F := F))) := by
  unfold kernelRun0_B
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS1 over unspecified prior contents. -/
theorem readS1_B (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : condFirst i) (hc2 : ¬ condOv i) (hc3 : condNov i) (hc4 : ¬ condLast i) (x0 : Vec F S1024x128 .f32) (x1 : Vec F S2048x128 .f32) (x2 : Vec F S1024x1 .i32) (x3 : Vec F S1x2048 .i32) (x4 : Vec F S1024x1 .f32) :
    VS1.read (Elt F) (VS1.writes (Elt F) VS1.junk (kernelRun0_B c i arg2 harg2 arg3 harg3 arg4 harg4 arg5 harg5 arg6 harg6 arg7 harg7 arg8 harg8 arg9 harg9 arg10 harg10 hc1 hc2 hc3 hc4 x0 x1 x2 x3 x4).2.1)
      = k0_pay4 (k0_pay11 x0 x1) (k0_pay13 x0 x1 (k0_pay8 (F := F))) (k0_pay14 x0 x1 (k0_pay8 (F := F)) (k0_pay8 (F := F)) (k0_pay9 (F := F))) :=
  (View.read_writes_junk_eq_canon _ _).trans (canonS1_B c i arg2 harg2 arg3 harg3 arg4 harg4 arg5 harg5 arg6 harg6 arg7 harg7 arg8 harg8 arg9 harg9 arg10 harg10 hc1 hc2 hc3 hc4 x0 x1 x2 x3 x4)

/-- Case B: the running positive-logit sum is left increased by the tile's positive-pair logits, from the reset statistics (minus infinity, zero, zero). -/
theorem canonS2_B (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : condFirst i) (hc2 : ¬ condOv i) (hc3 : condNov i) (hc4 : ¬ condLast i) (x0 : Vec F S1024x128 .f32) (x1 : Vec F S2048x128 .f32) (x2 : Vec F S1024x1 .i32) (x3 : Vec F S1x2048 .i32) (x4 : Vec F S1024x1 .f32) :
    View.canon (kernelRun0_B c i arg2 harg2 arg3 harg3 arg4 harg4 arg5 harg5 arg6 harg6 arg7 harg7 arg8 harg8 arg9 harg9 arg10 harg10 hc1 hc2 hc3 hc4 x0 x1 x2 x3 x4).2.2.1
      = k0_pay5 (k0_pay11 x0 x1) (k0_pay12 x2 x3) (k0_pay10 (F := F)) := by
  unfold kernelRun0_B
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS2 over unspecified prior contents. -/
theorem readS2_B (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : condFirst i) (hc2 : ¬ condOv i) (hc3 : condNov i) (hc4 : ¬ condLast i) (x0 : Vec F S1024x128 .f32) (x1 : Vec F S2048x128 .f32) (x2 : Vec F S1024x1 .i32) (x3 : Vec F S1x2048 .i32) (x4 : Vec F S1024x1 .f32) :
    VS2.read (Elt F) (VS2.writes (Elt F) VS2.junk (kernelRun0_B c i arg2 harg2 arg3 harg3 arg4 harg4 arg5 harg5 arg6 harg6 arg7 harg7 arg8 harg8 arg9 harg9 arg10 harg10 hc1 hc2 hc3 hc4 x0 x1 x2 x3 x4).2.2.1)
      = k0_pay5 (k0_pay11 x0 x1) (k0_pay12 x2 x3) (k0_pay10 (F := F)) :=
  (View.read_writes_junk_eq_canon _ _).trans (canonS2_B c i arg2 harg2 arg3 harg3 arg4 harg4 arg5 harg5 arg6 harg6 arg7 harg7 arg8 harg8 arg9 harg9 arg10 harg10 hc1 hc2 hc3 hc4 x0 x1 x2 x3 x4)

/-! ## Case C: j = 1 or 2, the tile meets the diagonal -/

/-- Case C: the running maximum is left at the tile's new maximum, from the statistics xs0, xs1, xs2 the point before left. -/
theorem canonS0_C (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : condOv i) (hc3 : ¬ condNov i) (hc4 : ¬ condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    View.canon (kernelRun0_C c i arg2 harg2 arg3 harg3 arg4 harg4 arg5 harg5 arg6 harg6 arg7 harg7 arg8 harg8 arg9 harg9 arg10 harg10 hc1 hc2 hc3 hc4 x0 x1 x2 x3 x4 xs0 xs1 xs2).1
      = k0_pay6 (k0_pay13 x0 x1 xs0) := by
  unfold kernelRun0_C
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS0 over unspecified prior contents. -/
theorem readS0_C (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : condOv i) (hc3 : ¬ condNov i) (hc4 : ¬ condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    VS0.read (Elt F) (VS0.writes (Elt F) VS0.junk (kernelRun0_C c i arg2 harg2 arg3 harg3 arg4 harg4 arg5 harg5 arg6 harg6 arg7 harg7 arg8 harg8 arg9 harg9 arg10 harg10 hc1 hc2 hc3 hc4 x0 x1 x2 x3 x4 xs0 xs1 xs2).1)
      = k0_pay6 (k0_pay13 x0 x1 xs0) :=
  (View.read_writes_junk_eq_canon _ _).trans (canonS0_C c i arg2 harg2 arg3 harg3 arg4 harg4 arg5 harg5 arg6 harg6 arg7 harg7 arg8 harg8 arg9 harg9 arg10 harg10 hc1 hc2 hc3 hc4 x0 x1 x2 x3 x4 xs0 xs1 xs2)

/-- Case C: the running sum of exponentials is left rescaled to the new maximum and increased by the tile's exponentials, the diagonal entries masked out, from the statistics xs0, xs1, xs2 the point before left. -/
theorem canonS1_C (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : condOv i) (hc3 : ¬ condNov i) (hc4 : ¬ condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    View.canon (kernelRun0_C c i arg2 harg2 arg3 harg3 arg4 harg4 arg5 harg5 arg6 harg6 arg7 harg7 arg8 harg8 arg9 harg9 arg10 harg10 hc1 hc2 hc3 hc4 x0 x1 x2 x3 x4 xs0 xs1 xs2).2.1
      = k0_pay2 (BitVec.ofNat 32 (i 1).val) (k0_pay11 x0 x1) (k0_pay13 x0 x1 xs0) (k0_pay14 x0 x1 xs0 xs0 xs1) (Scalar.muli (BitVec.ofNat 32 (i 0).val) 1024#32) := by
  unfold kernelRun0_C
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS1 over unspecified prior contents. -/
theorem readS1_C (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : condOv i) (hc3 : ¬ condNov i) (hc4 : ¬ condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    VS1.read (Elt F) (VS1.writes (Elt F) VS1.junk (kernelRun0_C c i arg2 harg2 arg3 harg3 arg4 harg4 arg5 harg5 arg6 harg6 arg7 harg7 arg8 harg8 arg9 harg9 arg10 harg10 hc1 hc2 hc3 hc4 x0 x1 x2 x3 x4 xs0 xs1 xs2).2.1)
      = k0_pay2 (BitVec.ofNat 32 (i 1).val) (k0_pay11 x0 x1) (k0_pay13 x0 x1 xs0) (k0_pay14 x0 x1 xs0 xs0 xs1) (Scalar.muli (BitVec.ofNat 32 (i 0).val) 1024#32) :=
  (View.read_writes_junk_eq_canon _ _).trans (canonS1_C c i arg2 harg2 arg3 harg3 arg4 harg4 arg5 harg5 arg6 harg6 arg7 harg7 arg8 harg8 arg9 harg9 arg10 harg10 hc1 hc2 hc3 hc4 x0 x1 x2 x3 x4 xs0 xs1 xs2)

/-- Case C: the running positive-logit sum is left increased by the tile's positive-pair logits, the diagonal entries masked out, from the statistics xs0, xs1, xs2 the point before left. -/
theorem canonS2_C (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : condOv i) (hc3 : ¬ condNov i) (hc4 : ¬ condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    View.canon (kernelRun0_C c i arg2 harg2 arg3 harg3 arg4 harg4 arg5 harg5 arg6 harg6 arg7 harg7 arg8 harg8 arg9 harg9 arg10 harg10 hc1 hc2 hc3 hc4 x0 x1 x2 x3 x4 xs0 xs1 xs2).2.2.1
      = k0_pay3 (BitVec.ofNat 32 (i 1).val) (k0_pay11 x0 x1) (k0_pay12 x2 x3) xs2 (Scalar.muli (BitVec.ofNat 32 (i 0).val) 1024#32) := by
  unfold kernelRun0_C
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS2 over unspecified prior contents. -/
theorem readS2_C (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : condOv i) (hc3 : ¬ condNov i) (hc4 : ¬ condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    VS2.read (Elt F) (VS2.writes (Elt F) VS2.junk (kernelRun0_C c i arg2 harg2 arg3 harg3 arg4 harg4 arg5 harg5 arg6 harg6 arg7 harg7 arg8 harg8 arg9 harg9 arg10 harg10 hc1 hc2 hc3 hc4 x0 x1 x2 x3 x4 xs0 xs1 xs2).2.2.1)
      = k0_pay3 (BitVec.ofNat 32 (i 1).val) (k0_pay11 x0 x1) (k0_pay12 x2 x3) xs2 (Scalar.muli (BitVec.ofNat 32 (i 0).val) 1024#32) :=
  (View.read_writes_junk_eq_canon _ _).trans (canonS2_C c i arg2 harg2 arg3 harg3 arg4 harg4 arg5 harg5 arg6 harg6 arg7 harg7 arg8 harg8 arg9 harg9 arg10 harg10 hc1 hc2 hc3 hc4 x0 x1 x2 x3 x4 xs0 xs1 xs2)

/-! ## Case D: j = 1 or 2, the tile does not meet the diagonal -/

/-- Case D: the running maximum is left at the tile's new maximum, from the statistics xs0, xs1, xs2 the point before left. -/
theorem canonS0_D (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : ¬ condOv i) (hc3 : condNov i) (hc4 : ¬ condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    View.canon (kernelRun0_D c i arg2 harg2 arg3 harg3 arg4 harg4 arg5 harg5 arg6 harg6 arg7 harg7 arg8 harg8 arg9 harg9 arg10 harg10 hc1 hc2 hc3 hc4 x0 x1 x2 x3 x4 xs0 xs1 xs2).1
      = k0_pay6 (k0_pay13 x0 x1 xs0) := by
  unfold kernelRun0_D
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS0 over unspecified prior contents. -/
theorem readS0_D (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : ¬ condOv i) (hc3 : condNov i) (hc4 : ¬ condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    VS0.read (Elt F) (VS0.writes (Elt F) VS0.junk (kernelRun0_D c i arg2 harg2 arg3 harg3 arg4 harg4 arg5 harg5 arg6 harg6 arg7 harg7 arg8 harg8 arg9 harg9 arg10 harg10 hc1 hc2 hc3 hc4 x0 x1 x2 x3 x4 xs0 xs1 xs2).1)
      = k0_pay6 (k0_pay13 x0 x1 xs0) :=
  (View.read_writes_junk_eq_canon _ _).trans (canonS0_D c i arg2 harg2 arg3 harg3 arg4 harg4 arg5 harg5 arg6 harg6 arg7 harg7 arg8 harg8 arg9 harg9 arg10 harg10 hc1 hc2 hc3 hc4 x0 x1 x2 x3 x4 xs0 xs1 xs2)

/-- Case D: the running sum of exponentials is left rescaled to the new maximum and increased by the tile's exponentials, from the statistics xs0, xs1, xs2 the point before left. -/
theorem canonS1_D (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : ¬ condOv i) (hc3 : condNov i) (hc4 : ¬ condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    View.canon (kernelRun0_D c i arg2 harg2 arg3 harg3 arg4 harg4 arg5 harg5 arg6 harg6 arg7 harg7 arg8 harg8 arg9 harg9 arg10 harg10 hc1 hc2 hc3 hc4 x0 x1 x2 x3 x4 xs0 xs1 xs2).2.1
      = k0_pay4 (k0_pay11 x0 x1) (k0_pay13 x0 x1 xs0) (k0_pay14 x0 x1 xs0 xs0 xs1) := by
  unfold kernelRun0_D
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS1 over unspecified prior contents. -/
theorem readS1_D (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : ¬ condOv i) (hc3 : condNov i) (hc4 : ¬ condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    VS1.read (Elt F) (VS1.writes (Elt F) VS1.junk (kernelRun0_D c i arg2 harg2 arg3 harg3 arg4 harg4 arg5 harg5 arg6 harg6 arg7 harg7 arg8 harg8 arg9 harg9 arg10 harg10 hc1 hc2 hc3 hc4 x0 x1 x2 x3 x4 xs0 xs1 xs2).2.1)
      = k0_pay4 (k0_pay11 x0 x1) (k0_pay13 x0 x1 xs0) (k0_pay14 x0 x1 xs0 xs0 xs1) :=
  (View.read_writes_junk_eq_canon _ _).trans (canonS1_D c i arg2 harg2 arg3 harg3 arg4 harg4 arg5 harg5 arg6 harg6 arg7 harg7 arg8 harg8 arg9 harg9 arg10 harg10 hc1 hc2 hc3 hc4 x0 x1 x2 x3 x4 xs0 xs1 xs2)

/-- Case D: the running positive-logit sum is left increased by the tile's positive-pair logits, from the statistics xs0, xs1, xs2 the point before left. -/
theorem canonS2_D (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : ¬ condOv i) (hc3 : condNov i) (hc4 : ¬ condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    View.canon (kernelRun0_D c i arg2 harg2 arg3 harg3 arg4 harg4 arg5 harg5 arg6 harg6 arg7 harg7 arg8 harg8 arg9 harg9 arg10 harg10 hc1 hc2 hc3 hc4 x0 x1 x2 x3 x4 xs0 xs1 xs2).2.2.1
      = k0_pay5 (k0_pay11 x0 x1) (k0_pay12 x2 x3) xs2 := by
  unfold kernelRun0_D
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS2 over unspecified prior contents. -/
theorem readS2_D (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : ¬ condOv i) (hc3 : condNov i) (hc4 : ¬ condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    VS2.read (Elt F) (VS2.writes (Elt F) VS2.junk (kernelRun0_D c i arg2 harg2 arg3 harg3 arg4 harg4 arg5 harg5 arg6 harg6 arg7 harg7 arg8 harg8 arg9 harg9 arg10 harg10 hc1 hc2 hc3 hc4 x0 x1 x2 x3 x4 xs0 xs1 xs2).2.2.1)
      = k0_pay5 (k0_pay11 x0 x1) (k0_pay12 x2 x3) xs2 :=
  (View.read_writes_junk_eq_canon _ _).trans (canonS2_D c i arg2 harg2 arg3 harg3 arg4 harg4 arg5 harg5 arg6 harg6 arg7 harg7 arg8 harg8 arg9 harg9 arg10 harg10 hc1 hc2 hc3 hc4 x0 x1 x2 x3 x4 xs0 xs1 xs2)

/-! ## Case E: j = 3, the tile meets the diagonal -/

/-- Case E: the running maximum is left at the tile's new maximum, from the statistics xs0, xs1, xs2 the point before left. -/
theorem canonS0_E (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : condOv i) (hc3 : ¬ condNov i) (hc4 : condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    View.canon (kernelRun0_E c i arg2 harg2 arg3 harg3 arg4 harg4 arg5 harg5 arg6 harg6 arg7 harg7 arg8 harg8 arg9 harg9 arg10 harg10 hc1 hc2 hc3 hc4 x0 x1 x2 x3 x4 xs0 xs1 xs2).2.1
      = k0_pay6 (k0_pay13 x0 x1 xs0) := by
  unfold kernelRun0_E
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS0 over unspecified prior contents. -/
theorem readS0_E (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : condOv i) (hc3 : ¬ condNov i) (hc4 : condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    VS0.read (Elt F) (VS0.writes (Elt F) VS0.junk (kernelRun0_E c i arg2 harg2 arg3 harg3 arg4 harg4 arg5 harg5 arg6 harg6 arg7 harg7 arg8 harg8 arg9 harg9 arg10 harg10 hc1 hc2 hc3 hc4 x0 x1 x2 x3 x4 xs0 xs1 xs2).2.1)
      = k0_pay6 (k0_pay13 x0 x1 xs0) :=
  (View.read_writes_junk_eq_canon _ _).trans (canonS0_E c i arg2 harg2 arg3 harg3 arg4 harg4 arg5 harg5 arg6 harg6 arg7 harg7 arg8 harg8 arg9 harg9 arg10 harg10 hc1 hc2 hc3 hc4 x0 x1 x2 x3 x4 xs0 xs1 xs2)

/-- Case E: the running sum of exponentials is left rescaled to the new maximum and increased by the tile's exponentials, the diagonal entries masked out, from the statistics xs0, xs1, xs2 the point before left. -/
theorem canonS1_E (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : condOv i) (hc3 : ¬ condNov i) (hc4 : condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    View.canon (kernelRun0_E c i arg2 harg2 arg3 harg3 arg4 harg4 arg5 harg5 arg6 harg6 arg7 harg7 arg8 harg8 arg9 harg9 arg10 harg10 hc1 hc2 hc3 hc4 x0 x1 x2 x3 x4 xs0 xs1 xs2).2.2.1
      = k0_pay2 (BitVec.ofNat 32 (i 1).val) (k0_pay11 x0 x1) (k0_pay13 x0 x1 xs0) (k0_pay14 x0 x1 xs0 xs0 xs1) (Scalar.muli (BitVec.ofNat 32 (i 0).val) 1024#32) := by
  unfold kernelRun0_E
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS1 over unspecified prior contents. -/
theorem readS1_E (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : condOv i) (hc3 : ¬ condNov i) (hc4 : condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    VS1.read (Elt F) (VS1.writes (Elt F) VS1.junk (kernelRun0_E c i arg2 harg2 arg3 harg3 arg4 harg4 arg5 harg5 arg6 harg6 arg7 harg7 arg8 harg8 arg9 harg9 arg10 harg10 hc1 hc2 hc3 hc4 x0 x1 x2 x3 x4 xs0 xs1 xs2).2.2.1)
      = k0_pay2 (BitVec.ofNat 32 (i 1).val) (k0_pay11 x0 x1) (k0_pay13 x0 x1 xs0) (k0_pay14 x0 x1 xs0 xs0 xs1) (Scalar.muli (BitVec.ofNat 32 (i 0).val) 1024#32) :=
  (View.read_writes_junk_eq_canon _ _).trans (canonS1_E c i arg2 harg2 arg3 harg3 arg4 harg4 arg5 harg5 arg6 harg6 arg7 harg7 arg8 harg8 arg9 harg9 arg10 harg10 hc1 hc2 hc3 hc4 x0 x1 x2 x3 x4 xs0 xs1 xs2)

/-- Case E: the running positive-logit sum is left increased by the tile's positive-pair logits, the diagonal entries masked out, from the statistics xs0, xs1, xs2 the point before left. -/
theorem canonS2_E (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : condOv i) (hc3 : ¬ condNov i) (hc4 : condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    View.canon (kernelRun0_E c i arg2 harg2 arg3 harg3 arg4 harg4 arg5 harg5 arg6 harg6 arg7 harg7 arg8 harg8 arg9 harg9 arg10 harg10 hc1 hc2 hc3 hc4 x0 x1 x2 x3 x4 xs0 xs1 xs2).2.2.2.1
      = k0_pay3 (BitVec.ofNat 32 (i 1).val) (k0_pay11 x0 x1) (k0_pay12 x2 x3) xs2 (Scalar.muli (BitVec.ofNat 32 (i 0).val) 1024#32) := by
  unfold kernelRun0_E
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS2 over unspecified prior contents. -/
theorem readS2_E (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : condOv i) (hc3 : ¬ condNov i) (hc4 : condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    VS2.read (Elt F) (VS2.writes (Elt F) VS2.junk (kernelRun0_E c i arg2 harg2 arg3 harg3 arg4 harg4 arg5 harg5 arg6 harg6 arg7 harg7 arg8 harg8 arg9 harg9 arg10 harg10 hc1 hc2 hc3 hc4 x0 x1 x2 x3 x4 xs0 xs1 xs2).2.2.2.1)
      = k0_pay3 (BitVec.ofNat 32 (i 1).val) (k0_pay11 x0 x1) (k0_pay12 x2 x3) xs2 (Scalar.muli (BitVec.ofNat 32 (i 0).val) 1024#32) :=
  (View.read_writes_junk_eq_canon _ _).trans (canonS2_E c i arg2 harg2 arg3 harg3 arg4 harg4 arg5 harg5 arg6 harg6 arg7 harg7 arg8 harg8 arg9 harg9 arg10 harg10 hc1 hc2 hc3 hc4 x0 x1 x2 x3 x4 xs0 xs1 xs2)

/-- Case E: the output block is the row losses formed from the three statistics as the point leaves them and the positive counts x4. -/
theorem canonO5_E (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : condOv i) (hc3 : ¬ condNov i) (hc4 : condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    View.canon (kernelRun0_E c i arg2 harg2 arg3 harg3 arg4 harg4 arg5 harg5 arg6 harg6 arg7 harg7 arg8 harg8 arg9 harg9 arg10 harg10 hc1 hc2 hc3 hc4 x0 x1 x2 x3 x4 xs0 xs1 xs2).1
      = k0_pay7 (k0_pay2 (BitVec.ofNat 32 (i 1).val) (k0_pay11 x0 x1) (k0_pay13 x0 x1 xs0) (k0_pay14 x0 x1 xs0 xs0 xs1) (Scalar.muli (BitVec.ofNat 32 (i 0).val) 1024#32)) x4 (k0_pay3 (BitVec.ofNat 32 (i 1).val) (k0_pay11 x0 x1) (k0_pay12 x2 x3) xs2 (Scalar.muli (BitVec.ofNat 32 (i 0).val) 1024#32)) (k0_pay6 (k0_pay13 x0 x1 xs0)) := by
  unfold kernelRun0_E
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VO5 over unspecified prior contents. -/
theorem readO5_E (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : condOv i) (hc3 : ¬ condNov i) (hc4 : condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    VO5.read (Elt F) (VO5.writes (Elt F) VO5.junk (kernelRun0_E c i arg2 harg2 arg3 harg3 arg4 harg4 arg5 harg5 arg6 harg6 arg7 harg7 arg8 harg8 arg9 harg9 arg10 harg10 hc1 hc2 hc3 hc4 x0 x1 x2 x3 x4 xs0 xs1 xs2).1)
      = k0_pay7 (k0_pay2 (BitVec.ofNat 32 (i 1).val) (k0_pay11 x0 x1) (k0_pay13 x0 x1 xs0) (k0_pay14 x0 x1 xs0 xs0 xs1) (Scalar.muli (BitVec.ofNat 32 (i 0).val) 1024#32)) x4 (k0_pay3 (BitVec.ofNat 32 (i 1).val) (k0_pay11 x0 x1) (k0_pay12 x2 x3) xs2 (Scalar.muli (BitVec.ofNat 32 (i 0).val) 1024#32)) (k0_pay6 (k0_pay13 x0 x1 xs0)) :=
  (View.read_writes_junk_eq_canon _ _).trans (canonO5_E c i arg2 harg2 arg3 harg3 arg4 harg4 arg5 harg5 arg6 harg6 arg7 harg7 arg8 harg8 arg9 harg9 arg10 harg10 hc1 hc2 hc3 hc4 x0 x1 x2 x3 x4 xs0 xs1 xs2)

/-! ## Case F: j = 3, the tile does not meet the diagonal -/

/-- Case F: the running maximum is left at the tile's new maximum, from the statistics xs0, xs1, xs2 the point before left. -/
theorem canonS0_F (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : ¬ condOv i) (hc3 : condNov i) (hc4 : condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    View.canon (kernelRun0_F c i arg2 harg2 arg3 harg3 arg4 harg4 arg5 harg5 arg6 harg6 arg7 harg7 arg8 harg8 arg9 harg9 arg10 harg10 hc1 hc2 hc3 hc4 x0 x1 x2 x3 x4 xs0 xs1 xs2).2.1
      = k0_pay6 (k0_pay13 x0 x1 xs0) := by
  unfold kernelRun0_F
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS0 over unspecified prior contents. -/
theorem readS0_F (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : ¬ condOv i) (hc3 : condNov i) (hc4 : condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    VS0.read (Elt F) (VS0.writes (Elt F) VS0.junk (kernelRun0_F c i arg2 harg2 arg3 harg3 arg4 harg4 arg5 harg5 arg6 harg6 arg7 harg7 arg8 harg8 arg9 harg9 arg10 harg10 hc1 hc2 hc3 hc4 x0 x1 x2 x3 x4 xs0 xs1 xs2).2.1)
      = k0_pay6 (k0_pay13 x0 x1 xs0) :=
  (View.read_writes_junk_eq_canon _ _).trans (canonS0_F c i arg2 harg2 arg3 harg3 arg4 harg4 arg5 harg5 arg6 harg6 arg7 harg7 arg8 harg8 arg9 harg9 arg10 harg10 hc1 hc2 hc3 hc4 x0 x1 x2 x3 x4 xs0 xs1 xs2)

/-- Case F: the running sum of exponentials is left rescaled to the new maximum and increased by the tile's exponentials, from the statistics xs0, xs1, xs2 the point before left. -/
theorem canonS1_F (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : ¬ condOv i) (hc3 : condNov i) (hc4 : condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    View.canon (kernelRun0_F c i arg2 harg2 arg3 harg3 arg4 harg4 arg5 harg5 arg6 harg6 arg7 harg7 arg8 harg8 arg9 harg9 arg10 harg10 hc1 hc2 hc3 hc4 x0 x1 x2 x3 x4 xs0 xs1 xs2).2.2.1
      = k0_pay4 (k0_pay11 x0 x1) (k0_pay13 x0 x1 xs0) (k0_pay14 x0 x1 xs0 xs0 xs1) := by
  unfold kernelRun0_F
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS1 over unspecified prior contents. -/
theorem readS1_F (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : ¬ condOv i) (hc3 : condNov i) (hc4 : condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    VS1.read (Elt F) (VS1.writes (Elt F) VS1.junk (kernelRun0_F c i arg2 harg2 arg3 harg3 arg4 harg4 arg5 harg5 arg6 harg6 arg7 harg7 arg8 harg8 arg9 harg9 arg10 harg10 hc1 hc2 hc3 hc4 x0 x1 x2 x3 x4 xs0 xs1 xs2).2.2.1)
      = k0_pay4 (k0_pay11 x0 x1) (k0_pay13 x0 x1 xs0) (k0_pay14 x0 x1 xs0 xs0 xs1) :=
  (View.read_writes_junk_eq_canon _ _).trans (canonS1_F c i arg2 harg2 arg3 harg3 arg4 harg4 arg5 harg5 arg6 harg6 arg7 harg7 arg8 harg8 arg9 harg9 arg10 harg10 hc1 hc2 hc3 hc4 x0 x1 x2 x3 x4 xs0 xs1 xs2)

/-- Case F: the running positive-logit sum is left increased by the tile's positive-pair logits, from the statistics xs0, xs1, xs2 the point before left. -/
theorem canonS2_F (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : ¬ condOv i) (hc3 : condNov i) (hc4 : condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    View.canon (kernelRun0_F c i arg2 harg2 arg3 harg3 arg4 harg4 arg5 harg5 arg6 harg6 arg7 harg7 arg8 harg8 arg9 harg9 arg10 harg10 hc1 hc2 hc3 hc4 x0 x1 x2 x3 x4 xs0 xs1 xs2).2.2.2.1
      = k0_pay5 (k0_pay11 x0 x1) (k0_pay12 x2 x3) xs2 := by
  unfold kernelRun0_F
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VS2 over unspecified prior contents. -/
theorem readS2_F (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : ¬ condOv i) (hc3 : condNov i) (hc4 : condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    VS2.read (Elt F) (VS2.writes (Elt F) VS2.junk (kernelRun0_F c i arg2 harg2 arg3 harg3 arg4 harg4 arg5 harg5 arg6 harg6 arg7 harg7 arg8 harg8 arg9 harg9 arg10 harg10 hc1 hc2 hc3 hc4 x0 x1 x2 x3 x4 xs0 xs1 xs2).2.2.2.1)
      = k0_pay5 (k0_pay11 x0 x1) (k0_pay12 x2 x3) xs2 :=
  (View.read_writes_junk_eq_canon _ _).trans (canonS2_F c i arg2 harg2 arg3 harg3 arg4 harg4 arg5 harg5 arg6 harg6 arg7 harg7 arg8 harg8 arg9 harg9 arg10 harg10 hc1 hc2 hc3 hc4 x0 x1 x2 x3 x4 xs0 xs1 xs2)

/-- Case F: the output block is the row losses formed from the three statistics as the point leaves them and the positive counts x4. -/
theorem canonO5_F (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : ¬ condOv i) (hc3 : condNov i) (hc4 : condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    View.canon (kernelRun0_F c i arg2 harg2 arg3 harg3 arg4 harg4 arg5 harg5 arg6 harg6 arg7 harg7 arg8 harg8 arg9 harg9 arg10 harg10 hc1 hc2 hc3 hc4 x0 x1 x2 x3 x4 xs0 xs1 xs2).1
      = k0_pay7 (k0_pay4 (k0_pay11 x0 x1) (k0_pay13 x0 x1 xs0) (k0_pay14 x0 x1 xs0 xs0 xs1)) x4 (k0_pay5 (k0_pay11 x0 x1) (k0_pay12 x2 x3) xs2) (k0_pay6 (k0_pay13 x0 x1 xs0)) := by
  unfold kernelRun0_F
  dsimp only
  sl_unfold_words
  refine (View.canon_cons_unit_zero (S := S1024x1) hz _ _ _).trans ?_
  simp only [View.readAt_eq_ld, harg2.read_unread, harg3.read_unread, harg4.read_unread, harg5.read_unread, harg6.read_unread,
    harg8.read_unread, harg9.read_unread, harg10.read_unread,
    View.ld_unit_zero (S := S1024x128) hz, View.ld_unit_zero (S := S2048x128) hz, View.ld_unit_zero (S := S1024x1) hz,
    View.ld_unit_zero (S := S1x2048) hz, View.readCov_unit_zero (S := S1024x1) _ hz]

/-- The same, read through the view VO5 over unspecified prior contents. -/
theorem readO5_F (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc1 : ¬ condFirst i) (hc2 : ¬ condOv i) (hc3 : condNov i) (hc4 : condLast i) (x0 : Vec F S1024x128 .f32) (x1 : Vec F S2048x128 .f32) (x2 : Vec F S1024x1 .i32) (x3 : Vec F S1x2048 .i32) (x4 : Vec F S1024x1 .f32) (xs0 : Vec F S1024x1 .f32) (xs1 : Vec F S1024x1 .f32) (xs2 : Vec F S1024x1 .f32) :
    VO5.read (Elt F) (VO5.writes (Elt F) VO5.junk (kernelRun0_F c i arg2 harg2 arg3 harg3 arg4 harg4 arg5 harg5 arg6 harg6 arg7 harg7 arg8 harg8 arg9 harg9 arg10 harg10 hc1 hc2 hc3 hc4 x0 x1 x2 x3 x4 xs0 xs1 xs2).1)
      = k0_pay7 (k0_pay4 (k0_pay11 x0 x1) (k0_pay13 x0 x1 xs0) (k0_pay14 x0 x1 xs0 xs0 xs1)) x4 (k0_pay5 (k0_pay11 x0 x1) (k0_pay12 x2 x3) xs2) (k0_pay6 (k0_pay13 x0 x1 xs0)) :=
  (View.read_writes_junk_eq_canon _ _).trans (canonO5_F c i arg2 harg2 arg3 harg3 arg4 harg4 arg5 harg5 arg6 harg6 arg7 harg7 arg8 harg8 arg9 harg9 arg10 harg10 hc1 hc2 hc3 hc4 x0 x1 x2 x3 x4 xs0 xs1 xs2)

end Cert.KernelIdeal.Hand

end
-- ==== Proof.KI.RowVal.lean ====
/- One row of the loss through its four grid points.

   Row tile i (of 8) is worked at the grid points 4 i, 4 i + 1, 4 i + 2, 4 i + 3, one per column tile. At row p
   of the tile the three carried columns hold the row's state (running maximum, sum of exponentials relative to
   it, sum of the positives' logits). The first point starts from the reset state (-infinity, 0, 0) and each
   point moves the state by the step of the row's algebra, with the tile's logits, the tile's row maximum, and as
   weights the diagonal mask of the global row 1024 i + p against the tile's global columns: where the tile
   meets the diagonal the body multiplies by that mask, and where it does not the mask is 1 throughout, so the
   unmasked sums are the masked ones. After the fourth point the output block at p is the row's answer from the
   final state and the positive count. -/
import proofs.«430023_j72756745994686_3_alg».proof.Proof.KI.Data
import proofs.«430023_j72756745994686_3_alg».proof.Proof.KI.ReadBack
import proofs.«430023_j72756745994686_3_alg».proof.Proof.KI.PayVals

set_option maxRecDepth 16384

noncomputable section

open scoped BigOperators

namespace Cert.KernelIdeal.Hand

open Cert.KernelIdeal Cert.KernelIdeal.Gen Cert.KernelIdeal.PayVals
open Idealize.ShloMosaic Idealize.ShloMosaic.TcCoe Idealize.ShloMosaic.ValueIdx
open Idealize.SL Idealize.SL.Sem

variable (m : (ℓ : Loc nD τ sig) → Buf (Elt Ideal) ℓ)

/-! ## The grid point's coordinates as numbers -/

/-- At point t the row-tile word 1024 * (t / 4) and the column-tile word t % 4 do not wrap around. -/
theorem coords_words : ∀ t : Fin cfg0.N,
    (Scalar.muli (BitVec.ofNat 32 ((grid0.coords t) 0).val) 1024#32).toNat = 1024 * (t.val / 4)
      ∧ (BitVec.ofNat 32 ((grid0.coords t) 1).val).toNat = t.val % 4 :=
  (by decide +kernel : ∀ t : Fin grid0.N,
    (Scalar.muli (BitVec.ofNat 32 ((grid0.coords t) 0).val) 1024#32).toNat = 1024 * (t.val / 4)
      ∧ (BitVec.ofNat 32 ((grid0.coords t) 1).val).toNat = t.val % 4)

/-- The global row of row p of the row tile worked at point t. -/
def rowOf (t : Fin cfg0.N) (p : Fin 1024) : Fin 8192 :=
  ⟨1024 * (t.val / 4) + p.val, by have := p.isLt; have := lt_of_lt_of_eq t.isLt (show cfg0.N = 32 from N_0); omega⟩
/-- The global column of column q of the column tile worked at point t. -/
def colOf (t : Fin cfg0.N) (q : Fin 2048) : Fin 8192 :=
  ⟨2048 * (t.val % 4) + q.val, by have := q.isLt; omega⟩

/-- The tile's logits at point t. -/
def SSt (c : Dev nD) (t : Fin cfg0.N) (p : Fin 1024) (q : Fin 2048) : EReal :=
  k0_pay11 (F := Ideal) (iblk m c 0 t) (iblk m c 1 t) (ix2 p q)
/-- The tile's positives at point t. -/
def PPt (c : Dev nD) (t : Fin cfg0.N) (p : Fin 1024) (q : Fin 2048) : EReal :=
  k0_pay12 (F := Ideal) (iblk m c 2 t) (iblk m c 3 t) (ix2 p q)

/-- The row's state at row p after point n: what the three scratch buffers hold there. -/
def stAt (c : Dev nD) (p : Fin 1024) (n : ℕ) (hn : n < cfg0.N) : EReal × EReal × EReal :=
  ((outsAt0 m c n hn).2.1 (ix2 p (0 : Fin 1)), (outsAt0 m c n hn).2.2.1 (ix2 p (0 : Fin 1)),
    (outsAt0 m c n hn).2.2.2 (ix2 p (0 : Fin 1)))

theorem stAt_congr (c : Dev nD) (p : Fin 1024) {n n' : ℕ} (h : n = n') (hn : n < cfg0.N) (hn' : n' < cfg0.N) :
    stAt m c p n hn = stAt m c p n' hn' := by subst h; rfl

/-- Off the diagonal tile the mask is 1: the row tile's rows and the column tile's columns do not meet. -/
theorem mask_off (t : Fin cfg0.N) (hov : ¬ t.val % 4 = t.val / 8) (p : Fin 1024) (q : Fin 2048) :
    Cert.Spec.mask (rowOf t p) (colOf t q) = 1 := by
  have hN := lt_of_lt_of_eq t.isLt (show cfg0.N = 32 from N_0)
  have hp := p.isLt; have hq := q.isLt
  unfold Cert.Spec.mask
  rw [if_neg (fun e => by have := congrArg Fin.val e; simp only [rowOf, colOf] at this; omega), sub_zero]

set_option maxHeartbeats 800000 in
/-- The first point of a row tile moves the reset state by the tile's step. -/
theorem stAt_first (c : Dev nD) (t : Fin cfg0.N) (h0 : t.val % 4 = 0) (p : Fin 1024) :
    stAt m c p t.val t.isLt
      = Cert.Algebra.tileStep (⊥, 0, 0)
          ((Finset.univ : Finset (Fin 2048)).fold max ⊥ fun q => SSt m c t p q)
          (fun q => SSt m c t p q)
          (fun q => Cert.Spec.mask (rowOf t p) (colOf t q))
          (fun q => PPt m c t p q * Cert.Spec.mask (rowOf t p) (colOf t q)) := by
  have hN := lt_of_lt_of_eq t.isLt (show cfg0.N = 32 from N_0)
  obtain ⟨hv, ha⟩ := coords_words t
  by_cases hov : t.val % 4 = t.val / 8
  · unfold stAt
    rw [outsAt0_A m c t h0 hov]
    unfold outA left runA
    dsimp only
    rw [readS0_A, readS1_A, readS2_A]
    refine (step_overlap _ _ _ _ _ _ _ _ p).trans ?_
    rw [pay8_eq, pay9_eq, pay10_eq]
    simp only [pay1_decoded _ _ (t.val / 4) (t.val % 4) (by omega) (by omega) hv ha]
    rfl

  · unfold stAt
    rw [outsAt0_B m c t h0 hov]
    unfold outB left runB
    dsimp only
    rw [readS0_B, readS1_B, readS2_B]
    refine (step_plain _ _ _ _ _ _ p).trans ?_
    rw [pay8_eq, pay9_eq, pay10_eq]
    simp only [mask_off t hov p, mul_one]
    rfl

set_option maxHeartbeats 1600000 in
/-- Every later point of a row tile moves the state the point before left by the tile's step. -/
theorem stAt_next (c : Dev nD) (t : Fin cfg0.N) (h0 : ¬ t.val % 4 = 0) (p : Fin 1024) :
    stAt m c p t.val t.isLt
      = Cert.Algebra.tileStep (stAt m c p (t.val - 1) (Nat.lt_of_le_of_lt (Nat.sub_le _ _) t.isLt))
          ((Finset.univ : Finset (Fin 2048)).fold max ⊥ fun q => SSt m c t p q)
          (fun q => SSt m c t p q)
          (fun q => Cert.Spec.mask (rowOf t p) (colOf t q))
          (fun q => PPt m c t p q * Cert.Spec.mask (rowOf t p) (colOf t q)) := by
  have hN := lt_of_lt_of_eq t.isLt (show cfg0.N = 32 from N_0)
  obtain ⟨hv, ha⟩ := coords_words t
  by_cases h3 : t.val % 4 = 3
  · by_cases hov : t.val % 4 = t.val / 8
    · unfold stAt
      rw [outsAt0_E m c t h3 hov]
      unfold outE left runE
      dsimp only
      rw [readS0_E, readS1_E, readS2_E]
      refine (step_overlap _ _ _ _ _ _ _ _ p).trans ?_
      simp only [pay1_decoded _ _ (t.val / 4) (t.val % 4) (by omega) (by omega) hv ha]
      rfl

    · unfold stAt
      rw [outsAt0_F m c t h3 hov]
      unfold outF left runF
      dsimp only
      rw [readS0_F, readS1_F, readS2_F]
      refine (step_plain _ _ _ _ _ _ p).trans ?_
      simp only [mask_off t hov p, mul_one]
      rfl

  · by_cases hov : t.val % 4 = t.val / 8
    · unfold stAt
      rw [outsAt0_C m c t h0 h3 hov]
      unfold outC left runC
      dsimp only
      rw [readS0_C, readS1_C, readS2_C]
      refine (step_overlap _ _ _ _ _ _ _ _ p).trans ?_
      simp only [pay1_decoded _ _ (t.val / 4) (t.val % 4) (by omega) (by omega) hv ha]
      rfl

    · unfold stAt
      rw [outsAt0_D m c t h0 h3 hov]
      unfold outD left runD
      dsimp only
      rw [readS0_D, readS1_D, readS2_D]
      refine (step_plain _ _ _ _ _ _ p).trans ?_
      simp only [mask_off t hov p, mul_one]
      rfl

set_option maxHeartbeats 1600000 in
/-- At the last point of a row tile the output block at row p is the row's answer from the state the point
    leaves and the positive count. -/
theorem out_last (c : Dev nD) (t : Fin cfg0.N) (h3 : t.val % 4 = 3) (p : Fin 1024) :
    (outsAt0 m c t.val t.isLt).1 (ix2 p (0 : Fin 1))
      = Cert.Algebra.kernOut (stAt m c p t.val t.isLt) ((iblk m c 4 t : Vec Ideal S1024x1 .f32) (ix2 p (0 : Fin 1))) ⊥ := by
  by_cases hov : t.val % 4 = t.val / 8
  · unfold stAt
    rw [outsAt0_E m c t h3 hov]
    unfold outE left runE
    dsimp only
    rw [readO5_E, readS0_E, readS1_E, readS2_E]
    exact out_eq _ _ _ _ p
  · unfold stAt
    rw [outsAt0_F m c t h3 hov]
    unfold outF left runF
    dsimp only
    rw [readO5_F, readS0_F, readS1_F, readS2_F]
    exact out_eq _ _ _ _ p

/-! ## The four points of a row tile -/

/-- Point j of row tile i. -/
def pt (i : Fin 8) (j : Fin 4) : Fin cfg0.N :=
  ⟨4 * i.val + j.val, by have := i.isLt; have := j.isLt; have h : cfg0.N = 32 := N_0; omega⟩

/-- Row p of row tile i against column q of column tile j: the logit, -/
def SS (c : Dev nD) (i : Fin 8) (p : Fin 1024) (j : Fin 4) (q : Fin 2048) : EReal :=
  k0_pay11 (F := Ideal) (iblk m c 0 (pt i j)) (iblk m c 1 (pt i j)) (ix2 p q)
/-- and the indicator that the two rows' labels agree. -/
def PP (c : Dev nD) (i : Fin 8) (p : Fin 1024) (j : Fin 4) (q : Fin 2048) : EReal :=
  k0_pay12 (F := Ideal) (iblk m c 2 (pt i j)) (iblk m c 3 (pt i j)) (ix2 p q)
/-- The positive count of row p of row tile i, as the last point of the tile reads it. -/
def CN (c : Dev nD) (i : Fin 8) (p : Fin 1024) : EReal :=
  (iblk m c 4 (pt i 3) : Vec Ideal S1024x1 .f32) (ix2 p (0 : Fin 1))
/-- The global row of row p of row tile i. -/
def R (i : Fin 8) (p : Fin 1024) : Fin 8192 :=
  ⟨1024 * i.val + p.val, by have := i.isLt; have := p.isLt; omega⟩

theorem rowOf_pt (i : Fin 8) (j : Fin 4) (p : Fin 1024) : rowOf (pt i j) p = R i p :=
  Fin.ext (by have := j.isLt; show 1024 * ((4 * i.val + j.val) / 4) + p.val = 1024 * i.val + p.val; omega)
theorem colOf_pt (i : Fin 8) (j : Fin 4) (q : Fin 2048) : colOf (pt i j) q = Cert.Algebra.col j q :=
  Fin.ext (by have := j.isLt; show 2048 * ((4 * i.val + j.val) % 4) + q.val = 2048 * j.val + q.val; omega)

/-- The state after the fourth point of row tile i is the row's four tile steps from the reset state. -/
theorem stAt_row (c : Dev nD) (i : Fin 8) (p : Fin 1024) :
    stAt m c p (pt i 3).val (pt i 3).isLt
      = Cert.Algebra.rowState (fun j q => SS m c i p j q)
          (fun j q => Cert.Spec.mask (R i p) (Cert.Algebra.col j q))
          (fun j q => PP m c i p j q * Cert.Spec.mask (R i p) (Cert.Algebra.col j q))
          (fun j => (Finset.univ : Finset (Fin 2048)).fold max ⊥ fun q => SS m c i p j q) := by
  have hi := i.isLt
  have e3 : (pt i 3).val = 4 * i.val + 3 := rfl
  have e2 : (pt i 2).val = 4 * i.val + 2 := rfl
  have e1 : (pt i 1).val = 4 * i.val + 1 := rfl
  have e0 : (pt i 0).val = 4 * i.val := rfl
  rw [stAt_next m c (pt i 3) (by rw [e3]; omega) p,
    stAt_congr m c p (show (pt i 3).val - 1 = (pt i 2).val by rw [e3, e2]; omega) _ (pt i 2).isLt,
    stAt_next m c (pt i 2) (by rw [e2]; omega) p,
    stAt_congr m c p (show (pt i 2).val - 1 = (pt i 1).val by rw [e2, e1]; omega) _ (pt i 1).isLt,
    stAt_next m c (pt i 1) (by rw [e1]; omega) p,
    stAt_congr m c p (show (pt i 1).val - 1 = (pt i 0).val by rw [e1, e0]; omega) _ (pt i 0).isLt,
    stAt_first m c (pt i 0) (by rw [e0]; omega) p]
  simp only [rowOf_pt, colOf_pt]
  rfl

/-- THE ROW. After the last point of row tile i the output block at row p is the row's answer: the four tile
    steps from the reset state, read out against the positive count. -/
theorem outBlock_pt (c : Dev nD) (i : Fin 8) (p : Fin 1024) :
    (outsAt0 m c (pt i 3).val (pt i 3).isLt).1 (ix2 p (0 : Fin 1))
      = Cert.Algebra.kernOut
          (Cert.Algebra.rowState (fun j q => SS m c i p j q)
            (fun j q => Cert.Spec.mask (R i p) (Cert.Algebra.col j q))
            (fun j q => PP m c i p j q * Cert.Spec.mask (R i p) (Cert.Algebra.col j q))
            (fun j => (Finset.univ : Finset (Fin 2048)).fold max ⊥ fun q => SS m c i p j q))
          (CN m c i p) ⊥ := by
  have hi := i.isLt
  have e3 : (pt i 3).val = 4 * i.val + 3 := rfl
  rw [out_last m c (pt i 3) (by rw [e3]; omega) p, stAt_row]
  rfl

/-- The same with the point spelt out. -/
theorem outBlock_eq' (c : Dev nD) (i : Fin 8) (p : Fin 1024) (h : 4 * i.val + 3 < cfg0.N) :
    (outsAt0 m c (4 * i.val + 3) h).1 (ix2 p (0 : Fin 1))
      = Cert.Algebra.kernOut
          (Cert.Algebra.rowState (fun j q => SS m c i p j q)
            (fun j q => Cert.Spec.mask (R i p) (Cert.Algebra.col j q))
            (fun j q => PP m c i p j q * Cert.Spec.mask (R i p) (Cert.Algebra.col j q))
            (fun j => (Finset.univ : Finset (Fin 2048)).fold max ⊥ fun q => SS m c i p j q))
          (CN m c i p) ⊥ :=
  outBlock_pt m c i p

/-- THE ROW, every term spelt out over the row tile i and the column tile j: point 4 i + j holds column tile j
    of row tile i, the global row is 1024 i + p, and the positive count is read at the tile's last point. -/
theorem outBlock_eq (m : (ℓ : Loc nD τ sig) → Buf (Elt Ideal) ℓ) (c : Dev nD) (i : Fin 8) (p : Fin 1024) :
    ((outsAt0 m c (4 * i.val + 3) (by have := i.isLt; have h : cfg0.N = 32 := N_0; omega)).1 : S1024x1.Idx → EReal) (ix2 p (0 : Fin 1))
      = Cert.Algebra.kernOut (Cert.Algebra.rowState
          (fun j q => k0_pay11 (F := Ideal) (iblk m c 0 ⟨4 * i.val + j.val, (by have := i.isLt; have := j.isLt; have h : cfg0.N = 32 := N_0; omega)⟩) (iblk m c 1 ⟨4 * i.val + j.val, (by have := i.isLt; have := j.isLt; have h : cfg0.N = 32 := N_0; omega)⟩) (ix2 p q))
          (fun j q => Cert.Spec.mask ⟨1024 * i.val + p.val, (by have := i.isLt; have := p.isLt; omega)⟩ (Cert.Algebra.col j q))
          (fun j q => k0_pay12 (F := Ideal) (iblk m c 2 ⟨4 * i.val + j.val, (by have := i.isLt; have := j.isLt; have h : cfg0.N = 32 := N_0; omega)⟩) (iblk m c 3 ⟨4 * i.val + j.val, (by have := i.isLt; have := j.isLt; have h : cfg0.N = 32 := N_0; omega)⟩) (ix2 p q)
            * Cert.Spec.mask ⟨1024 * i.val + p.val, (by have := i.isLt; have := p.isLt; omega)⟩ (Cert.Algebra.col j q))
          (fun j => (Finset.univ : Finset (Fin 2048)).fold max ⊥ fun q =>
            k0_pay11 (F := Ideal) (iblk m c 0 ⟨4 * i.val + j.val, (by have := i.isLt; have := j.isLt; have h : cfg0.N = 32 := N_0; omega)⟩) (iblk m c 1 ⟨4 * i.val + j.val, (by have := i.isLt; have := j.isLt; have h : cfg0.N = 32 := N_0; omega)⟩) (ix2 p q)))
          ((iblk m c 4 ⟨4 * i.val + 3, (by have := i.isLt; have h : cfg0.N = 32 := N_0; omega)⟩ : Vec Ideal S1024x1 .f32) (ix2 p (0 : Fin 1))) ⊥ :=
  outBlock_pt m c i p

end Cert.KernelIdeal.Hand

end
-- ==== Proof.KI.KVal.lean ====
/-
  The kernel's result is the loss of the specification.

  After the region the host sums the 8192 entries of the output array onto 0 and divides by 8192; row n of the
  array is what the last grid point of row n's row tile (row tile n / 1024, grid point 4 (n / 1024) + 3) left in the
  output block at place n % 1024. That entry is the row's answer from the state the four column tiles' steps
  reach from (-infinity, 0, 0), with

    - the tiles' logits: the kernel contracts (x0 * c) with x1, c the reciprocal temperature 134217728 / 9395241,
      where x0 is row 1024 i + p of the stacked features and x1 row 2048 j + q; on reals this is the contraction
      divided by the temperature, the specification's logit of row 1024 i + p against column 2048 j + q;
    - the weights: the specification's diagonal mask of that row against the tile's columns;
    - the positives: the row label of 1024 i + p against the column label of 2048 j + q, the specification's
      positives, times the mask;
    - the tiles' row maxima, folded from -infinity: each bounds its tile's logits and is one of them;
    - the count: the host's count of positives at row 1024 i + p, which for labels below 100 is the specification's
      number of positives of the row, the sum of the positives times the mask over the four tiles.

  The row's algebra (Algebra.row_eq_spec) turns that answer into minus the row's numerator over its number of
  positives, and the mean over the rows is the specification's loss. The features are reals and the labels are
  below 100: the two facts the precondition gives.
-/
import proofs.«430023_j72756745994686_3_alg».proof.Proof.KI.Launch
import proofs.«430023_j72756745994686_3_alg».proof.Proof.KI.Data
import proofs.«430023_j72756745994686_3_alg».proof.Proof.KI.HostVals
import proofs.«430023_j72756745994686_3_alg».proof.Proof.KI.PayVals
import proofs.«430023_j72756745994686_3_alg».proof.Proof.KI.Blocks
import proofs.«430023_j72756745994686_3_alg».proof.Proof.KI.OutVal
import proofs.«430023_j72756745994686_3_alg».proof.Proof.KI.RowVal
import proofs.«430023_j72756745994686_3_alg».proof.Proof.Algebra
import proofs.«430023_j72756745994686_3_alg».proof.Proof.Spec

set_option maxRecDepth 16384

noncomputable section

open scoped BigOperators

namespace Cert.KernelIdeal.Hand

open Cert.KernelIdeal Cert.KernelIdeal.Gen
open Idealize.ShloMosaic Idealize.ShloMosaic.TcCoe
open Idealize.ShloMosaic.ValueIdx
open Idealize.ShloMosaic.Pipeline (Dat Cfg)

/-! ## One row of the loss, from the kernel's blocks -/

section Row
variable (m : (ℓ : Loc nD τ sig) → Buf (Elt Ideal) ℓ)

/-- The grid point of row tile i and column tile j. -/
abbrev tp (i : Fin 8) (j : Fin 4) : Fin cfg0.N :=
  ⟨4 * i.val + j.val, by have := i.isLt; have := j.isLt; show 4 * i.val + j.val < 32; omega⟩
/-- The global row of row p of row tile i. -/
abbrev Rw (i : Fin 8) (p : Fin 1024) : Fin 8192 := ⟨1024 * i.val + p.val, by have := i.isLt; have := p.isLt; omega⟩

/-- The features and the labels the program is launched with. -/
abbrev xOf (c : Dev nD) : Cert.Spec.XIdx → EReal := m ((c : Thread nD τ).loc main_arg0)
abbrev labOf (c : Dev nD) : Cert.Spec.LIdx → BitVec 32 := m ((c : Thread nD τ).loc main_arg1)

/-- The real logit of row r against column q of column tile j. -/
def sR (xr : Cert.Spec.XIdx → ℝ) (r : Fin 8192) (j : Fin 4) (q : Fin 2048) : ℝ :=
  (∑ d : Fin 128, xr (ix3 (Cert.Spec.smp r) (Cert.Spec.view r) d)
      * xr (ix3 (Cert.Spec.smp (Cert.Algebra.col j q)) (Cert.Spec.view (Cert.Algebra.col j q)) d)) * (134217728 / 9395241)

theorem logit_sR (x : Cert.Spec.XIdx → EReal) (xr : Cert.Spec.XIdx → ℝ) (hx : ∀ i, x i = ((xr i : ℝ) : EReal))
    (r : Fin 8192) (j : Fin 4) (q : Fin 2048) :
    Cert.Spec.logit x r (Cert.Algebra.col j q) = ((sR xr r j q : ℝ) : EReal) :=
  Cert.Algebra.spec_logit_coe x xr hx r (Cert.Algebra.col j q)

/-- The row a grid point's row block holds at p. -/
theorem row_of_point (i : Fin 8) (j : Fin 4) (p : Fin 1024) (h : 1024 * ((tp i j).val / 4) + p.val < 8192) :
    (⟨1024 * ((tp i j).val / 4) + p.val, h⟩ : Fin 8192) = Rw i p :=
  Fin.ext (by have := j.isLt; show 1024 * ((4 * i.val + j.val) / 4) + p.val = 1024 * i.val + p.val; omega)

/-- The column a grid point's column block holds at q. -/
theorem col_of_point (i : Fin 8) (j : Fin 4) (q : Fin 2048) (h : 2048 * ((tp i j).val % 4) + q.val < 8192) :
    (⟨2048 * ((tp i j).val % 4) + q.val, h⟩ : Fin 8192) = Cert.Algebra.col j q :=
  Fin.ext (by have := j.isLt; show 2048 * ((4 * i.val + j.val) % 4) + q.val = 2048 * j.val + q.val; omega)

/-- The kernel's logit tile at (p, q) of grid point (i, j) is the specification's logit of row 1024 i + p against
    column 2048 j + q: scaling one factor by the reciprocal temperature is dividing the product by the temperature. -/
theorem kern_logit (c : Dev nD) (xr : Cert.Spec.XIdx → ℝ) (hx : ∀ a, xOf m c a = ((xr a : ℝ) : EReal))
    (i : Fin 8) (j : Fin 4) (p : Fin 1024) (q : Fin 2048) :
    k0_pay11 (F := Ideal) (iblk m c 0 (tp i j)) (iblk m c 1 (tp i j)) (ix2 p q)
      = Cert.Spec.logit (xOf m c) (Rw i p) (Cert.Algebra.col j q) := by
  rw [PayVals.pay11_apply]
  have e0 : ∀ d : Fin 128, (iblk m c 0 (tp i j) : Vec Ideal S1024x128 .f32) (ix2 p d)
      = ((xr (ix3 (Cert.Spec.smp (Rw i p)) (Cert.Spec.view (Rw i p)) d) : ℝ) : EReal) := fun d => by
    rw [iblk0_apply, row_of_point, ← hx]
    exact V_v1_apply m c (Rw i p) d
  have e1 : ∀ d : Fin 128, (iblk m c 1 (tp i j) : Vec Ideal S2048x128 .f32) (ix2 q d)
      = ((xr (ix3 (Cert.Spec.smp (Cert.Algebra.col j q)) (Cert.Spec.view (Cert.Algebra.col j q)) d) : ℝ) : EReal) := fun d => by
    rw [iblk1_apply, col_of_point, ← hx]
    exact V_v1_apply m c (Cert.Algebra.col j q) d
  simp only [e0, e1]
  refine (Cert.Algebra.logit_eq _ _).trans ?_
  unfold Cert.Spec.logit Cert.Spec.D Cert.Spec.feat
  simp only [hx]

/-- The kernel's positives' tile at (p, q) of grid point (i, j) is the specification's. -/
theorem kern_pos (c : Dev nD) (i : Fin 8) (j : Fin 4) (p : Fin 1024) (q : Fin 2048) :
    k0_pay12 (F := Ideal) (iblk m c 2 (tp i j)) (iblk m c 3 (tp i j)) (ix2 p q)
      = Cert.Spec.pos (labOf m c) (Rw i p) (Cert.Algebra.col j q) := by
  rw [PayVals.pay12_apply, iblk2_apply, iblk3_apply, row_of_point, col_of_point, V_v5_apply, V_v6_apply]
  rfl

/-- The count the last grid point of a row tile reads at p is the row's number of positives. -/
theorem kern_cnt (c : Dev nD)
    (hlab : ∀ b : S4096.Idx, ((m ((c : Thread nD τ).loc main_arg1) : S4096.Idx → BitVec 32) b).toNat < 100)
    (i : Fin 8) (p : Fin 1024) :
    (iblk m c 4 (tp i 3) : Vec Ideal S1024x1 .f32) (ix2 p (0 : Fin 1)) = Cert.Spec.den (labOf m c) (Rw i p) := by
  rw [iblk4_apply, row_of_point]
  exact V_v29_eq_den m c hlab (Rw i p)

/-- ONE ROW, from the blocks. The four tiles' steps from the reset state, with the tiles' logits, the diagonal mask,
    the positives times the mask and the tiles' row maxima, answered with the row's count, give minus the row's
    quotient in the specification. -/
theorem row_core (c : Dev nD)
    (hfin : ∀ a, ∃ r : ℝ, (m ((c : Thread nD τ).loc main_arg0) : S4096x2x128.Idx → EReal) a = (r : EReal))
    (hlab : ∀ b : S4096.Idx, ((m ((c : Thread nD τ).loc main_arg1) : S4096.Idx → BitVec 32) b).toNat < 100)
    (i : Fin 8) (p : Fin 1024) :
    Cert.Algebra.kernOut (Cert.Algebra.rowState
        (fun j q => k0_pay11 (F := Ideal) (iblk m c 0 (tp i j)) (iblk m c 1 (tp i j)) (ix2 p q))
        (fun j q => Cert.Spec.mask (Rw i p) (Cert.Algebra.col j q))
        (fun j q => k0_pay12 (F := Ideal) (iblk m c 2 (tp i j)) (iblk m c 3 (tp i j)) (ix2 p q) * Cert.Spec.mask (Rw i p) (Cert.Algebra.col j q))
        (fun j => (Finset.univ : Finset (Fin 2048)).fold max ⊥ fun q => k0_pay11 (F := Ideal) (iblk m c 0 (tp i j)) (iblk m c 1 (tp i j)) (ix2 p q)))
        ((iblk m c 4 (tp i 3) : Vec Ideal S1024x1 .f32) (ix2 p (0 : Fin 1))) ⊥
      = (-1) * Ideal.div (Cert.Spec.num (xOf m c) (labOf m c) (Rw i p)) (Cert.Spec.den (labOf m c) (Rw i p)) := by
  choose xr hx using hfin
  have hS : (fun (j : Fin 4) (q : Fin 2048) => k0_pay11 (F := Ideal) (iblk m c 0 (tp i j)) (iblk m c 1 (tp i j)) (ix2 p q))
      = fun j q => ((sR xr (Rw i p) j q : ℝ) : EReal) :=
    funext fun j => funext fun q => (kern_logit m c xr hx i j p q).trans (logit_sR (xOf m c) xr hx (Rw i p) j q)
  have key := Cert.Algebra.row_eq_spec (xOf m c) (labOf m c) (Rw i p) (sR xr (Rw i p))
    (fun j q => logit_sR (xOf m c) xr hx (Rw i p) j q)
    (fun j q => Cert.Spec.mask (Rw i p) (Cert.Algebra.col j q))
    (fun j q => k0_pay12 (F := Ideal) (iblk m c 2 (tp i j)) (iblk m c 3 (tp i j)) (ix2 p q) * Cert.Spec.mask (Rw i p) (Cert.Algebra.col j q))
    (fun _ _ => rfl)
    (fun j q => by rw [kern_pos])
    (fun j => (Finset.univ : Finset (Fin 2048)).fold max ⊥ fun q => k0_pay11 (F := Ideal) (iblk m c 0 (tp i j)) (iblk m c 1 (tp i j)) (ix2 p q))
    (fun j => by
      have e : (fun q : Fin 2048 => k0_pay11 (F := Ideal) (iblk m c 0 (tp i j)) (iblk m c 1 (tp i j)) (ix2 p q))
          = fun q => ((sR xr (Rw i p) j q : ℝ) : EReal) := congrFun hS j
      rw [e]
      exact Cert.Algebra.fold_max_spec (fun q : Fin 2048 => ((sR xr (Rw i p) j q : ℝ) : EReal)))
    ((iblk m c 4 (tp i 3) : Vec Ideal S1024x1 .f32) (ix2 p (0 : Fin 1))) ⊥
    (by
      rw [kern_cnt m c hlab i p]
      unfold Cert.Spec.den
      rw [Cert.Algebra.sum_split]
      simp only [kern_pos])
  rw [hS]
  exact key

/-- ONE ROW of the output array. What the last grid point of row n's row tile leaves in the output block at row
    n's place is minus the row's quotient in the specification. -/
theorem row_value (c : Dev nD)
    (hfin : ∀ a, ∃ r : ℝ, (m ((c : Thread nD τ).loc main_arg0) : S4096x2x128.Idx → EReal) a = (r : EReal))
    (hlab : ∀ b : S4096.Idx, ((m ((c : Thread nD τ).loc main_arg1) : S4096.Idx → BitVec 32) b).toNat < 100)
    (n : Fin 8192) :
    ((dats m 0 c).after 5 (lastPt n) : S1024x1.Idx → EReal) (ix2 (inBlk n) (0 : Fin 1))
      = (-1) * Ideal.div (Cert.Spec.num (xOf m c) (labOf m c) n) (Cert.Spec.den (labOf m c) n) := by
  have hn := n.isLt
  have hR : Rw (⟨n.val / 1024, by omega⟩ : Fin 8) (inBlk n) = n :=
    Fin.ext (by show 1024 * (n.val / 1024) + n.val % 1024 = n.val; omega)
  have h := (outBlock_eq m c (⟨n.val / 1024, by omega⟩ : Fin 8) (inBlk n)).trans
    (row_core m c hfin hlab (⟨n.val / 1024, by omega⟩ : Fin 8) (inBlk n))
  rw [hR] at h
  rw [after5]
  exact h

/-- THE KERNEL'S RESULT is the loss of the specification: the mean over the 8192 rows of minus each row's mean
    positive log-probability, for features that are reals and labels below 100. -/
theorem kernel_value (c : Dev nD)
    (hfin : ∀ a, ∃ r : ℝ, (m ((c : Thread nD τ).loc main_arg0) : S4096x2x128.Idx → EReal) a = (r : EReal))
    (hlab : ∀ b : S4096.Idx, ((m ((c : Thread nD τ).loc main_arg1) : S4096.Idx → BitVec 32) b).toNat < 100) :
    (VT m c (outArr (dats m) c) (Proc.devRef .tc main_v32) : S_.Idx → EReal)
      = fun _ => Cert.Spec.refLoss (m ((c : Thread nD τ).loc main_arg0)) (m ((c : Thread nD τ).loc main_arg1)) := by
  rw [result_value m (dats m) c]
  funext _
  unfold Cert.Spec.refLoss
  exact congrArg (fun s : EReal => Ideal.div (0 + s) ((8192 : ℝ) : EReal))
    (Finset.sum_congr rfl fun n _ => row_value m c hfin hlab n)

end Row

end Cert.KernelIdeal.Hand

end
-- ==== Proof.RefValue.lean ====
/-
  The reference program's result is the specification's loss.

  The reference computes, on the host, a supervised-contrastive loss over features f32[4096, 2, 128] and labels
  i32[4096]: it stacks the two views into an 8192 x 128 matrix (row n = 4096 * view + sample), takes the matrix of
  inner products over the temperature, shifts every row by its maximum, and averages over the rows minus the mean
  log-probability of each row's positives (the other rows whose sample carries the same label).

  Read one operation at a time at an index, every stage is a stage of the specification (Proof/Spec.lean):
    - a row of the stacked matrix is feat: the transpose and the reshape are the arithmetic n % 4096, n / 4096;
    - the product over the temperature is logit; the row maximum, a fold of max from -infinity, is rowMax;
    - one minus the identity matrix, built from two iotas compared as 32-bit words, is mask: two row numbers
      below 8192 are equal exactly when their words are;
    - the 4096 x 4096 label-equality matrix tiled 2 x 2 (a reshape to 1 x 4096 x 1 x 4096, a broadcast to
      2 x 4096 x 2 x 4096, a reshape to 8192 x 8192) read at (r, j) compares the labels of samples r % 4096 and
      j % 4096: pos;
    - the three row sums are L, num and den, each from the initial value 0;
    - the last sum runs over the rows laid out as 2 x 4096, which is the sum over the 8192 rows (Spec.sum_rows).
  The literal patterns of 1, -1, 8192, 0 and -infinity are the numbers (Spec.ofBits_one, ...); the temperature's
  pattern is never evaluated.
-/
import proofs.«430023_j72756745994686_3_alg».proof.Defs
import proofs.«430023_j72756745994686_3_alg».proof.Proof.Gen.ReferenceIdeal
import proofs.«430023_j72756745994686_3_alg».proof.Proof.Gen.ReferenceIdeal.Run
import proofs.«430023_j72756745994686_3_alg».proof.Proof.Gen.ReferenceIdeal.Read
import proofs.«430023_j72756745994686_3_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-! ## Words -/

/-- The equality test of two 32-bit words, converted to a float, is the indicator of their equality. -/
theorem uitofp_cmpi_eq (a b : BitVec 32) :
    (FloatOps.uitofp (F := Ideal) .f32 (IntOp.cmpi .eq a b) : EReal) = if a = b then 1 else 0 := by
  show (((IntOp.cmpi .eq a b).toNat : ℝ) : EReal) = _
  unfold IntOp.cmpi
  by_cases h : a = b
  · subst h; simp
  · rw [if_neg h]
    have hb : (a == b) = false := by simpa using h
    simp [hb]

/-- Two row numbers below 8192 are equal exactly when their 32-bit words are. -/
theorem ofNat_eq_iff (r j : Fin 8192) : BitVec.ofNat 32 r.val = BitVec.ofNat 32 j.val ↔ r = j := by
  constructor
  · intro h
    have h2 := congrArg BitVec.toNat h
    simp only [BitVec.toNat_ofNat] at h2
    have hr := r.isLt; have hj := j.isLt
    exact Fin.ext (by omega)
  · rintro rfl; rfl

/-! ## The similarity matrix -/

/-- The left operand of the product at (r, k): row r of the stacked views. -/
theorem lhs_eq (x : FVec Ideal S4096x2x128 .f32) (r j : Fin 8192) (k : Fin 128) :
    val_main_v1 (F := Ideal) x (lidx_main_v3 (ix2 r j) k) = Spec.feat x r k := by
  rw [val_main_v1_apply, val_main_v0_apply]
  unfold Spec.feat
  refine congrArg x (funext fun a => Fin.ext ?_)
  have hr := r.isLt; have hk := k.isLt
  match a with
  | ⟨0, _⟩ => show (r.val * 128 + k.val) / 128 % 4096 = r.val % 4096; omega
  | ⟨1, _⟩ => show (r.val * 128 + k.val) / 524288 = r.val / 4096; omega
  | ⟨2, _⟩ => show (r.val * 128 + k.val) % 128 = k.val; omega

/-- The right operand of the product at (k, j): row j of the stacked views. -/
theorem rhs_eq (x : FVec Ideal S4096x2x128 .f32) (r j : Fin 8192) (k : Fin 128) :
    val_main_v2 (F := Ideal) x (ridx_main_v3 (ix2 r j) k) = Spec.feat x j k := by
  rw [val_main_v2_apply, val_main_v1_apply, val_main_v0_apply]
  unfold Spec.feat
  refine congrArg x (funext fun a => Fin.ext ?_)
  have hj := j.isLt; have hk := k.isLt
  match a with
  | ⟨0, _⟩ => show (j.val * 128 + k.val) / 128 % 4096 = j.val % 4096; omega
  | ⟨1, _⟩ => show (j.val * 128 + k.val) / 524288 = j.val / 4096; omega
  | ⟨2, _⟩ => show (j.val * 128 + k.val) % 128 = k.val; omega

/-- The scaled similarity at (r, j). -/
theorem v5_eq (x : FVec Ideal S4096x2x128 .f32) (r j : Fin 8192) :
    val_main_v5 (F := Ideal) x (ix2 r j) = Spec.logit x r j := by
  rw [val_main_v5_apply, val_main_v3_apply, val_main_v4_apply, val_main_cst_apply]
  simp only [lhs_eq, rhs_eq]
  rfl

/-- A reduced row index with column k put back is (r, k). -/
theorem lift_row (h : S8192x8192.Reduces [1] S8192) (r : Fin 8192) (k : Fin (S8192x8192.size 1)) :
    h.lift (ix1 r) k = ix2 r (⟨k.val, k.isLt⟩ : Fin 8192) := by
  funext c; apply Fin.ext
  fin_cases c <;> rfl

/-- The row maximum at r: the fold of the maximum from -infinity over the row's logits. -/
theorem v6_eq (x : FVec Ideal S4096x2x128 .f32) (r : Fin 8192) :
    val_main_v6 (F := Ideal) x (ix1 r) = Spec.rowMax x r := by
  unfold val_main_v6
  have h : S8192x8192.Reduces [1] S8192 := by decide
  have key := Host.reduce_eq_fold_single (FloatOps.maximumf (F := Ideal) (φ := .f32))
    (val_main_v5 (F := Ideal) x : FVec Ideal S8192x8192 .f32) (val_main_cst_0 (F := Ideal) : FVec Ideal S_ .f32)
    reducesTo_S8192x8192_S8192_d1 h h_S_ (ix1 r)
  refine key.trans ?_
  have hf : ((val_main_v5 (F := Ideal) x : FVec Ideal S8192x8192 .f32) ∘ h.lift (ix1 r)) = fun k : Fin 8192 => Spec.logit x r k :=
    funext fun k => (congrArg (val_main_v5 (F := Ideal) x) (lift_row h r k)).trans (v5_eq x r _)
  have hi : (val_main_cst_0 (F := Ideal) : FVec Ideal S_ .f32) (Shape.Idx.first h_S_) = (⊥ : EReal) := Spec.ofBits_neg_inf
  unfold Spec.rowMax
  exact (congrArg (fun f => Finset.fold max ((val_main_cst_0 (F := Ideal) : FVec Ideal S_ .f32) (Shape.Idx.first h_S_)) f (Finset.univ : Finset (Fin 8192))) hf).trans
    (congrArg (fun b => Finset.fold max b (fun k : Fin 8192 => Spec.logit x r k) (Finset.univ : Finset (Fin 8192))) hi)

/-! ## The two masks -/

/-- One minus the identity matrix at (r, j). -/
theorem v26_eq (r j : Fin 8192) : val_main_v26 (F := Ideal) (ix2 r j) = Spec.mask r j := by
  rw [val_main_v26_apply, val_main_v25_apply, val_main_cst_1_apply, val_main_v24_apply, val_main_v23_apply,
    val_main_v22_apply, val_main_v19_apply, val_main_v21_apply, val_main_c_apply, val_main_v20_apply]
  show Ideal.ofBits .f32 0x3F800000#32
    - FloatOps.uitofp (F := Ideal) .f32 (IntOp.cmpi .eq (IntOp.addi (BitVec.ofNat 32 r.val) 0#32) (BitVec.ofNat 32 j.val)) = _
  rw [uitofp_cmpi_eq, Spec.ofBits_one]
  unfold Spec.mask IntOp.addi
  rw [BitVec.add_zero]
  simp only [ofNat_eq_iff]

/-- The tiled label-equality matrix at (r, j): the labels of the two rows' samples compared. -/
theorem v18_eq (lab : IVec S4096 32) (r j : Fin 8192) :
    val_main_v18 (F := Ideal) lab (ix2 r j) = Spec.pos lab r j := by
  rw [val_main_v18_apply, val_main_v17_apply, val_main_v16_apply, val_main_v15_apply, val_main_v14_apply,
    val_main_v12_apply, val_main_v10_apply, val_main_v13_apply, val_main_v11_apply, uitofp_cmpi_eq]
  have hr := r.isLt; have hj := j.isLt
  have e1 : idx_main_v10 (idx_main_v12 (idx_main_v16 (idx_main_v17 (idx_main_v18 (ix2 r j))))) = ix1 (Spec.smp r) :=
    funext fun a => Fin.ext (by
      match a with
      | ⟨0, _⟩ =>
        show ((((0 * 4096 + (r.val * 8192 + j.val) / 8192 % 4096) * 1 + 0) * 4096 + (r.val * 8192 + j.val) % 4096) / 4096) = r.val % 4096
        omega)
  have e2 : idx_main_v11 (idx_main_v13 (idx_main_v16 (idx_main_v17 (idx_main_v18 (ix2 r j))))) = ix1 (Spec.smp j) :=
    funext fun a => Fin.ext (by
      match a with
      | ⟨0, _⟩ =>
        show ((((0 * 4096 + (r.val * 8192 + j.val) / 8192 % 4096) * 1 + 0) * 4096 + (r.val * 8192 + j.val) % 4096) % 4096) = j.val % 4096
        omega)
  rw [e1, e2]
  rfl

/-! ## The shifted logits, the normaliser and the log-probabilities -/

/-- The logit at (r, j) less its row's maximum. -/
theorem v9_eq (x : FVec Ideal S4096x2x128 .f32) (r j : Fin 8192) :
    val_main_v9 (F := Ideal) x (ix2 r j) = Spec.logit x r j - Spec.rowMax x r := by
  rw [val_main_v9_apply, val_main_v8_apply, val_main_v7_apply, v5_eq]
  have e : idx_main_v7 (idx_main_v8 (ix2 r j)) = ix1 r :=
    funext fun a => Fin.ext (by match a with | ⟨0, _⟩ => rfl)
  rw [e, v6_eq]
  rfl

/-- The masked exponential at (r, j). -/
theorem v29_eq (x : FVec Ideal S4096x2x128 .f32) (r j : Fin 8192) :
    val_main_v29 (F := Ideal) x (ix2 r j) = Ideal.exp (Spec.logit x r j - Spec.rowMax x r) * Spec.mask r j := by
  rw [val_main_v29_apply, val_main_v28_apply, v9_eq, v26_eq]
  rfl

/-- Column k of row r. -/
theorem idx_row (r k : Fin 8192) : idx_main_v30 (ix1 r) k = ix2 r k :=
  funext fun a => Fin.ext (by match a with | ⟨0, _⟩ => rfl | ⟨1, _⟩ => rfl)

/-- The normaliser of row r. -/
theorem v30_eq (x : FVec Ideal S4096x2x128 .f32) (r : Fin 8192) :
    val_main_v30 (F := Ideal) x (ix1 r) = Spec.L x r := by
  rw [val_main_v30_apply, val_main_cst_2_apply]
  unfold Spec.L
  simp only [idx_row, v29_eq]
  show Ideal.ofBits .f32 0x00000000#32 + _ = _
  rw [Ideal.ofBits_zero_f32]

/-- The logarithm of row r's normaliser, spread over the row. -/
theorem v33_eq (x : FVec Ideal S4096x2x128 .f32) (r j : Fin 8192) :
    val_main_v33 (F := Ideal) x (ix2 r j) = Ideal.log (Spec.L x r) := by
  rw [val_main_v33_apply, val_main_v32_apply, val_main_v31_apply]
  have e : idx_main_v31 (idx_main_v33 (ix2 r j)) = ix1 r :=
    funext fun a => Fin.ext (by match a with | ⟨0, _⟩ => rfl)
  rw [e, v30_eq]
  rfl

/-- The log-probability at (r, j). -/
theorem v34_eq (x : FVec Ideal S4096x2x128 .f32) (r j : Fin 8192) :
    val_main_v34 (F := Ideal) x (ix2 r j) = (Spec.logit x r j - Spec.rowMax x r) - Ideal.log (Spec.L x r) := by
  rw [val_main_v34_apply, v9_eq, v33_eq]
  rfl

/-- The positives' mask less the diagonal at (r, j). -/
theorem v27_eq (lab : IVec S4096 32) (r j : Fin 8192) :
    val_main_v27 (F := Ideal) lab (ix2 r j) = Spec.pos lab r j * Spec.mask r j := by
  rw [val_main_v27_apply, v18_eq, v26_eq]
  rfl

/-- A positive's log-probability at (r, j). -/
theorem v35_eq (x : FVec Ideal S4096x2x128 .f32) (lab : IVec S4096 32) (r j : Fin 8192) :
    val_main_v35 (F := Ideal) x lab (ix2 r j)
      = (Spec.pos lab r j * Spec.mask r j) * ((Spec.logit x r j - Spec.rowMax x r) - Ideal.log (Spec.L x r)) := by
  rw [val_main_v35_apply, v27_eq, v34_eq]
  rfl

/-- Row r's positives' log-probabilities, summed. -/
theorem v36_eq (x : FVec Ideal S4096x2x128 .f32) (lab : IVec S4096 32) (r : Fin 8192) :
    val_main_v36 (F := Ideal) x lab (ix1 r) = Spec.num x lab r := by
  rw [val_main_v36_apply, val_main_cst_3_apply]
  unfold Spec.num
  have e : ∀ k : Fin 8192, idx_main_v36 (ix1 r) k = ix2 r k := fun k =>
    funext fun a => Fin.ext (by match a with | ⟨0, _⟩ => rfl | ⟨1, _⟩ => rfl)
  simp only [e, v35_eq]
  show Ideal.ofBits .f32 0x00000000#32 + _ = _
  rw [Ideal.ofBits_zero_f32]

/-- Row r's number of positives. -/
theorem v37_eq (lab : IVec S4096 32) (r : Fin 8192) :
    val_main_v37 (F := Ideal) lab (ix1 r) = Spec.den lab r := by
  rw [val_main_v37_apply, val_main_cst_4_apply]
  unfold Spec.den
  have e : ∀ k : Fin 8192, idx_main_v37 (ix1 r) k = ix2 r k := fun k =>
    funext fun a => Fin.ext (by match a with | ⟨0, _⟩ => rfl | ⟨1, _⟩ => rfl)
  simp only [e, v27_eq]
  show Ideal.ofBits .f32 0x00000000#32 + _ = _
  rw [Ideal.ofBits_zero_f32]

/-! ## The mean -/

/-- Row r's term of the loss: minus its mean positive log-probability. -/
theorem v40_eq (x : FVec Ideal S4096x2x128 .f32) (lab : IVec S4096 32) (r : Fin 8192) :
    val_main_v40 (F := Ideal) x lab (ix1 r) = (-1) * Ideal.div (Spec.num x lab r) (Spec.den lab r) := by
  rw [val_main_v40_apply, val_main_v39_apply, val_main_cst_5_apply, val_main_v38_apply, v36_eq, v37_eq]
  show Ideal.ofBits .f32 0xBF800000#32 * _ = _
  rw [Spec.ofBits_neg_one]
  rfl

/-- The rows' terms laid out by (view, sample). -/
theorem v41_eq (x : FVec Ideal S4096x2x128 .f32) (lab : IVec S4096 32) (v : Fin 2) (s : Fin 4096) :
    val_main_v41 (F := Ideal) x lab (ix2 v s)
      = (-1) * Ideal.div (Spec.num x lab (Spec.row v s)) (Spec.den lab (Spec.row v s)) := by
  rw [val_main_v41_apply]
  have e : idx_main_v41 (ix2 v s) = ix1 (Spec.row v s) :=
    funext fun a => Fin.ext (by match a with | ⟨0, _⟩ => rfl)
  rw [e, v40_eq]

/-- The sum of the rows' terms. -/
theorem v42_eq (x : FVec Ideal S4096x2x128 .f32) (lab : IVec S4096 32) (i : S_.Idx) :
    val_main_v42 (F := Ideal) x lab i
      = 0 + ∑ n : Fin 8192, (-1) * Ideal.div (Spec.num x lab n) (Spec.den lab n) := by
  rw [val_main_v42_apply, val_main_cst_6_apply, sum_idx2]
  simp only [v41_eq]
  rw [← Spec.sum_rows (fun n => (-1) * Ideal.div (Spec.num x lab n) (Spec.den lab n))]
  show Ideal.ofBits .f32 0x00000000#32 + _ = _
  rw [Ideal.ofBits_zero_f32]

/-- THE REFERENCE'S RESULT is the loss of the specification, at its one index. -/
theorem ref_result (x : FVec Ideal S4096x2x128 .f32) (lab : IVec S4096 32) :
    val_main_v43 (F := Ideal) x lab = fun _ => Spec.refLoss x lab := by
  funext i
  rw [val_main_v43_apply, v42_eq, val_main_cst_7_apply]
  show Ideal.div _ (Ideal.ofBits .f32 0x46000000#32) = _
  rw [Spec.ofBits_8192]
  rfl

/-- Every run of the reference ends with its result buffer at the specification's loss of the two argument
    arrays, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
          = (fun _ => Spec.refLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v43_eq m c).trans (ref_result _ _)), (h c).2⟩)
    (Cert.ReferenceIdeal.Value.run (F := Ideal) m ρ)

end Cert.ReferenceIdeal.RefValue

end
-- ==== Proof.PreFacts.lean ====
/-
  The printed precondition read back at the idealized floats (a float is an extended real).  The
  predicate is the conjunction of three "for all" statements, each a reduction by "and" of a
  one-bit array into a single word: |x| < +inf at every entry of the float input, 0 <= label and
  label < 100 (both signed) at every entry of the integer input.  Its being 1 therefore gives:
  every float entry is a real number (neither infinity: the absolute value of either is +inf,
  which is not below +inf), and every label, read signed, lies in [0, 100), hence read unsigned
  is a natural number below 100.
-/
import proofs.«430023_j72756745994686_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Proof.PreFacts

open Idealize.ShloMosaic Idealize.ShloMosaic.ValueIdx
open Cert.Pre_finite_inputs

variable [Cert.Pre_finite_inputs.Facts]

/-- The rank-0 shape has one index. -/
instance subsingleton_scalar_idx : Subsingleton S_.Idx := ⟨fun a b => funext fun d => d.elim0⟩

/-- The three conjuncts of the predicate, each at one element. -/
theorem pre_split (x : FVec Ideal S4096x2x128 .f32) (lab : IVec S4096 32)
    (h : fn (F := Ideal) x lab = fun _ => 1#1) :
    (∀ i, Ideal.cmp .olt (max (x i) (-(x i))) (Ideal.ofBits .f32 0x7F800000#32) = 1#1)
      ∧ (∀ b, IntOp.cmpi .sge (lab b) 0#32 = 1#1) ∧ (∀ b, IntOp.cmpi .slt (lab b) 100#32 = 1#1) := by
  have h0 := congrFun h ix0
  dsimp only [fn, andi] at h0
  rw [IntOp.andi_eq_one, IntOp.andi_eq_one] at h0
  obtain ⟨⟨h1, h2⟩, h3⟩ := h0
  refine ⟨fun i => ?_, fun b => ?_, fun b => ?_⟩
  · exact Host.reduce_andi_all _ _ _ _ _ h1 i
  · exact Host.reduce_andi_all _ _ _ _ _ h2 b
  · exact Host.reduce_andi_all _ _ _ _ _ h3 b

/-- The pattern 0x7F800000 (sign 0, exponent all ones, fraction 0) denotes +inf. -/
theorem inf_bits : Ideal.ofBits .f32 0x7F800000#32 = (⊤ : EReal) := by
  simp [Ideal.ofBits, Ideal.ieee]

/-- An extended real whose absolute value is below +inf is a real. -/
theorem real_of_abs_lt_top (a : EReal) (h : Ideal.cmp .olt (max a (-a)) (⊤ : EReal) = 1#1) : ∃ r : ℝ, a = (r : EReal) := by
  induction a using EReal.rec with
  | bot => exact absurd h (by simp [Ideal.cmp])
  | top => exact absurd h (by simp [Ideal.cmp])
  | coe r => exact ⟨r, rfl⟩

/-- Every entry of the float input is a real number. -/
theorem finite_of_pre (x : FVec Ideal Cert.Pre_finite_inputs.S4096x2x128 .f32) (lab : IVec Cert.Pre_finite_inputs.S4096 32)
    (h : Cert.Pre_finite_inputs.fn (F := Ideal) x lab = fun _ => 1#1) : ∀ i, ∃ r : ℝ, x i = (r : EReal) := by
  intro i
  have hi := (pre_split x lab h).1 i
  rw [inf_bits] at hi
  exact real_of_abs_lt_top (x i) hi

/-- Every label, read signed, lies in [0, 100). -/
theorem labels_of_pre (x : FVec Ideal Cert.Pre_finite_inputs.S4096x2x128 .f32) (lab : IVec Cert.Pre_finite_inputs.S4096 32)
    (h : Cert.Pre_finite_inputs.fn (F := Ideal) x lab = fun _ => 1#1) : ∀ b, (0 : Int) ≤ (lab b).toInt ∧ (lab b).toInt < 100 := by
  intro b
  obtain ⟨-, h2, h3⟩ := pre_split x lab h
  have hge := IntOp.cmpi_sge.1 (h2 b)
  have hlt := IntOp.cmpi_slt.1 (h3 b)
  rw [show (0#32 : BitVec 32).toInt = 0 from by decide] at hge
  rw [show (100#32 : BitVec 32).toInt = 100 from by decide] at hlt
  exact ⟨hge, hlt⟩

/-- A word that reads signed in [0, 100) reads unsigned the same: every label is a natural number below 100. -/
theorem labels_lt_nat (x : FVec Ideal Cert.Pre_finite_inputs.S4096x2x128 .f32) (lab : IVec Cert.Pre_finite_inputs.S4096 32)
    (h : Cert.Pre_finite_inputs.fn (F := Ideal) x lab = fun _ => 1#1) : ∀ b, (lab b).toNat < 100 := by
  intro b
  obtain ⟨h0, h1⟩ := labels_of_pre x lab h b
  have h32 := (lab b).isLt
  rw [BitVec.toInt_eq_toNat_cond] at h0 h1
  split at h0 <;> omega

/-- The same, with the signed and unsigned readings identified. -/
theorem labels_toInt_eq_toNat (x : FVec Ideal Cert.Pre_finite_inputs.S4096x2x128 .f32) (lab : IVec Cert.Pre_finite_inputs.S4096 32)
    (h : Cert.Pre_finite_inputs.fn (F := Ideal) x lab = fun _ => 1#1) : ∀ b, (lab b).toInt = ((lab b).toNat : Int) := by
  intro b
  have hb := labels_lt_nat x lab h b
  exact StableHlo.Predicate.toInt_eq_toNat_of_lt (by omega)

end Cert.Proof.PreFacts

end
-- ==== Proof.Claims.lean ====
/-
  The five claims.

  The kernel computes a supervised-contrastive loss over 8192 rows (two views of 4096 samples, 128 coordinates
  each) without ever holding the 8192 x 8192 matrix of logits: the rows are taken in 8 tiles of 1024, the columns
  in 4 tiles of 2048, and each row carries a running maximum, a normaliser relative to that maximum and the sum of
  its positives' logits from column tile to column tile (an online softmax); after the fourth column tile the row's
  loss is minus ((sum of the positives' logits) / (their number) - maximum - log normaliser), and the host takes
  the mean of the 8192 row losses. The reference computes the same loss in one pass over whole rows: the row's
  maximum, the normaliser relative to it, and minus the mean over the row's positives of (logit - maximum - log
  normaliser). On the extended reals, where every operation is exact, the two are one number: rescaling a partial
  normaliser from an old maximum to a new one is exp (x - m) * exp (m - m') = exp (x - m'), and the mean of
  (logit - K) over the positives is the mean of the logits minus K. The kernel scales one factor of each inner
  product by a constant named as the exact reciprocal of the temperature where the reference divides the inner
  product by the temperature; on the extended reals these agree.

  Both programs are shown to end at the specification's loss of the two argument arrays (Proof/Spec.lean): the
  reference by reading its operations one at a time, the kernel by following its grid point by point. Each
  program's frame claim is its run with the result forgotten. The precondition (every feature finite, every label
  in [0, 100)) is what makes every logit a real number and every label a valid index of the table of class counts.
-/
import proofs.«430023_j72756745994686_3_alg».proof.Defs
import proofs.«430023_j72756745994686_3_alg».proof.Proof.Gen.Kernel
import proofs.«430023_j72756745994686_3_alg».proof.Proof.Gen.KernelIdeal
import proofs.«430023_j72756745994686_3_alg».proof.Proof.Gen.ReferenceIdeal
import proofs.«430023_j72756745994686_3_alg».proof.Proof.Gen.Pre_finite_inputs
import proofs.«430023_j72756745994686_3_alg».proof.Proof.KB.Launch
import proofs.«430023_j72756745994686_3_alg».proof.Proof.KB.Data
import proofs.«430023_j72756745994686_3_alg».proof.Proof.KI.Launch
import proofs.«430023_j72756745994686_3_alg».proof.Proof.KI.Data
import proofs.«430023_j72756745994686_3_alg».proof.Proof.KI.KVal
import proofs.«430023_j72756745994686_3_alg».proof.Proof.RefValue
import proofs.«430023_j72756745994686_3_alg».proof.Proof.PreFacts
import proofs.«430023_j72756745994686_3_alg».proof.Proof.Spec

noncomputable section

namespace Cert.Proof.Claims

open Idealize.ShloMosaic Idealize.ShloMosaic.TcCoe Idealize.SL.Sem

/-- The kernel runs and leaves its arguments as they were: its run for the proof data of its pipeline, the result
    forgotten. -/
theorem frame_kernel : Cert.frame_Kernel := fun m ρ _ =>
  (θ_run Cert.Kernel.defs _ _).mono (fun _ h c => (h c).2)
    (Cert.Kernel.Hand.run_of m ρ (Cert.Kernel.Hand.dats m) (Cert.Kernel.Hand.A_eq m) (Cert.Kernel.Hand.q_0 m)
      (Cert.Kernel.Hand.q_1 m) (Cert.Kernel.Hand.q_2 m) (Cert.Kernel.Hand.q_3 m) (Cert.Kernel.Hand.q_4 m)
      (Cert.Kernel.Hand.owed_eq m) (fun c => (Cert.Kernel.Hand.body_obligation m c).loose) (Cert.Kernel.Hand.hin m)
      (Cert.Kernel.Hand.hout m))

/-- The idealized kernel's run for the proof data of its pipeline: the result is what the four host operations after
    the region make of the output array, the arguments end as they were. -/
theorem ideal_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v32)
            = Cert.KernelIdeal.Hand.VT m c (Cert.KernelIdeal.Hand.outArr (Cert.KernelIdeal.Hand.dats m) c) (Proc.devRef .tc Cert.KernelIdeal.main_v32)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  Cert.KernelIdeal.Hand.run_of m ρ (Cert.KernelIdeal.Hand.dats m) (Cert.KernelIdeal.Hand.A_eq m) (Cert.KernelIdeal.Hand.q_0 m)
    (Cert.KernelIdeal.Hand.q_1 m) (Cert.KernelIdeal.Hand.q_2 m) (Cert.KernelIdeal.Hand.q_3 m) (Cert.KernelIdeal.Hand.q_4 m)
    (Cert.KernelIdeal.Hand.owed_eq m) (fun c => (Cert.KernelIdeal.Hand.body_obligation m c).loose) (Cert.KernelIdeal.Hand.hin m)
    (Cert.KernelIdeal.Hand.hout m)

/-- So the idealized kernel runs and leaves its arguments as they were. -/
theorem frame_ideal : Cert.frame_KernelIdeal := fun m ρ _ =>
  (θ_run Cert.KernelIdeal.defs _ _).mono (fun _ h c => (h c).2) (ideal_run m ρ)

/-- So does the reference. -/
theorem frame_reference : Cert.frame_ReferenceIdeal := fun m ρ _ =>
  (θ_run Cert.ReferenceIdeal.defs _ _).mono (fun _ h c => (h c).2) (Cert.ReferenceIdeal.RefValue.ref_run m ρ)

/-- The one named constant: the table gives "inv_temperature" the value 134217728 / 9395241, the exact reciprocal
    of the temperature's f32 value 9395241 / 2^27, and the printed constant is that value on the extended reals. -/
theorem preserves : Cert.preserves_Kernel_KernelIdeal :=
  IdealRules.named_const.statement Cert.KernelIdeal.κ "inv_temperature" .f32 0x41649249#32 ((134217728 / 9395241 : ℝ) : EReal) rfl

/-- On the extended reals the kernel and the reference, run from memories that agree on the two arguments, both end
    at the specification's loss of those arguments: the kernel because the precondition makes every feature a real
    and every label an index below 100, the reference unconditionally. -/
theorem algebraic : Cert.algebraic_KernelIdeal_ReferenceIdeal := by
  intro m ρ m' ρ' hpre hagree
  refine ⟨fun c => fun _ => Cert.Spec.refLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩) (ideal_run m ρ)
    exact Cert.KernelIdeal.Hand.kernel_value m c (Cert.Proof.PreFacts.finite_of_pre _ _ (hpre c))
      (Cert.Proof.PreFacts.labels_lt_nat _ _ (hpre c))
  · refine (θ_run Cert.ReferenceIdeal.defs _ _).mono (fun _ h c => ⟨(h c).1.trans ?_, (h c).2⟩)
      (Cert.ReferenceIdeal.RefValue.ref_run m' ρ')
    rw [(hagree c).1, (hagree c).2]
    rfl

end Cert.Proof.Claims

end
-- ==== Proof.lean ====
/-
  The certificate of a supervised-contrastive loss computed tile by tile.

  The inputs are features f32[4096, 2, 128] (sample, view, coordinate) and labels i32[4096]. The two views are
  stacked into 8192 rows; the logit of rows r and j is their inner product over the temperature; a row's positives
  are the other rows whose sample carries its label; the loss is the mean over the rows of minus the mean over a
  row's positives of the logit's log-probability among all the other rows (Proof/Spec.lean states it as one
  function of the two arrays).

  The kernel never forms the 8192 x 8192 matrix. Its grid is 8 x 4: a tile of 1024 rows against a tile of 2048
  columns at each point. From column tile to column tile each row carries its running maximum, its normaliser
  relative to that maximum, and the sum of its positives' logits (an online softmax): a new tile raises the maximum
  and rescales the normaliser by exp (old maximum - new maximum). After the fourth column tile the row's loss is
  minus ((sum of positives' logits) / (number of positives) - maximum - log normaliser), the number of positives
  looked up per sample from the per-class counts; the host then takes the mean of the 8192 row losses. The
  kernel multiplies one factor of each inner product by a constant, named as the exact reciprocal of the
  temperature's f32 value.

  The reference works on whole rows: the row maximum, the normaliser relative to it, minus the mean over the
  positives of (logit - maximum - log normaliser), then the mean over the rows.

  The law that joins them, on the extended reals where every operation is exact: exp (x - m) * exp (m - m') =
  exp (x - m'), so the carried normaliser is the whole row's relative to the final maximum; the mean of (logit - K)
  over the positives is the mean of the logits minus K; and multiplying by the exact reciprocal of the temperature
  is dividing by it. Under the precondition (every feature finite, every label in [0, 100)) every logit is a
  real, every row has a positive (its own sample's other view) and every label indexes the table of counts, and
  both programs end at the specification's loss.

  The five claims are proved in Proof/Claims.lean; the witnesses of the side conditions the programs state come
  first.
-/
import proofs.«430023_j72756745994686_3_alg».proof.Defs
import proofs.«430023_j72756745994686_3_alg».proof.Proof.Gen.Kernel
import proofs.«430023_j72756745994686_3_alg».proof.Proof.Gen.Kernel.Skeleton
import proofs.«430023_j72756745994686_3_alg».proof.Proof.Gen.Kernel.Launch
import proofs.«430023_j72756745994686_3_alg».proof.Proof.Gen.Kernel.Points
import proofs.«430023_j72756745994686_3_alg».proof.Proof.Gen.KernelIdeal
import proofs.«430023_j72756745994686_3_alg».proof.Proof.Gen.KernelIdeal.Skeleton
import proofs.«430023_j72756745994686_3_alg».proof.Proof.Gen.KernelIdeal.Launch
import proofs.«430023_j72756745994686_3_alg».proof.Proof.Gen.KernelIdeal.Points
import proofs.«430023_j72756745994686_3_alg».proof.Proof.Gen.ReferenceIdeal
import proofs.«430023_j72756745994686_3_alg».proof.Proof.Gen.Pre_finite_inputs
import proofs.«430023_j72756745994686_3_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_kernel, Claims.frame_ideal, Claims.frame_reference, Claims.preserves, Claims.algebraic⟩

end Cert.Proof

end
